-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x256 : Shape := ⟨2, ![1024, 256]⟩
abbrev S256x64 : Shape := ⟨2, ![256, 64]⟩
abbrev S65536 : Shape := ⟨1, ![65536]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x64 : S_.BroadcastsInDim S256x64 (![] : Fin 0 → Fin S256x64.rank)
  reducesTo_S256x64_S_d0_1 : S256x64.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg4 : IVec S65536 32) (main_arg5 : IVec S65536 32) (main_v13 : IVec S_ 1) (main_v16 : IVec S65536 1) : IVec S_ 1 :=
  let main_c_5 : IVec S_ 1 := constantI S_ 1 1#1
  let main_v17 : IVec S_ 1 := (fun x v => Host.reduce IntOp.andi x v reducesTo_S65536_S_d0 h_S_) main_v16 main_c_5
  let main_v18 : IVec S_ 1 := andi main_v13 main_v17
  let main_c_6 : IVec S_ 32 := constantI S_ 32 0#32
  let main_v19 : IVec S65536 32 := broadcastInDim S65536 ![] bcast_S_S65536 main_c_6
  let main_v20 : IVec S65536 1 := cmpi .sge main_arg4 main_v19
  let main_c_7 : IVec S_ 32 := constantI S_ 32 8192#32
  let main_v21 : IVec S65536 32 := broadcastInDim S65536 ![] bcast_S_S65536 main_c_7
  let main_v22 : IVec S65536 1 := cmpi .slt main_arg4 main_v21
  let main_v23 : IVec S65536 1 := andi main_v20 main_v22
  let main_c_8 : IVec S_ 1 := constantI S_ 1 1#1
  let main_v24 : IVec S_ 1 := (fun x v => Host.reduce IntOp.andi x v reducesTo_S65536_S_d0 h_S_) main_v23 main_c_8
  let main_v25 : IVec S_ 1 := andi main_v18 main_v24
  let main_c_9 : IVec S_ 32 := constantI S_ 32 0#32
  let main_v26 : IVec S65536 32 := broadcastInDim S65536 ![] bcast_S_S65536 main_c_9
  let main_v27 : IVec S65536 1 := cmpi .sge main_arg5 main_v26
  let main_c_10 : IVec S_ 32 := constantI S_ 32 8192#32
  let main_v28 : IVec S65536 32 := broadcastInDim S65536 ![] bcast_S_S65536 main_c_10
  let main_v29 : IVec S65536 1 := cmpi .slt main_arg5 main_v28
  let main_v30 : IVec S65536 1 := andi main_v27 main_v29
  let main_c_11 : IVec S_ 1 := constantI S_ 1 1#1
  let main_v31 : IVec S_ 1 := (fun x v => Host.reduce IntOp.andi x v reducesTo_S65536_S_d0 h_S_) main_v30 main_c_11
  let main_v32 : IVec S_ 1 := andi main_v25 main_v31
  main_v32

def fn {F : FTy → Type} [FloatOps F] (main_arg0 : FVec F S8192x1024 .f32) (main_arg1 : FVec F S1024x256 .f32) (main_arg2 : FVec F S256x64 .f32) (main_arg3 : FVec F S65536 .f32) (main_arg4 : IVec S65536 32) (main_arg5 : IVec S65536 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S65536 .f32 := Host.absf main_arg3
  let main_cst_4 : FVec F S_ .f32 := constant S_ .f32 0x7F800000#32
  let main_v15 : FVec F S65536 .f32 := broadcastInDim S65536 ![] bcast_S_S65536 main_cst_4
  let main_v16 : IVec S65536 1 := cmpf .olt main_v14 main_v15
  fn_part1 (F := F) main_arg4 main_arg5 main_v13 main_v16
-- ==== Kernel.lean ====
abbrev S8192x1024 : Shape := ⟨2, ![8192, 1024]⟩
abbrev S1024x256 : Shape := ⟨2, ![1024, 256]⟩
abbrev S256x64 : Shape := ⟨2, ![256, 64]⟩
abbrev S65536 : Shape := ⟨1, ![65536]⟩
abbrev S8192x256 : Shape := ⟨2, ![8192, 256]⟩
abbrev S512x1024 : Shape := ⟨2, ![512, 1024]⟩
abbrev S512x256 : Shape := ⟨2, ![512, 256]⟩
abbrev S_ : Shape := ⟨0, ![]⟩
abbrev S67108864 : Shape := ⟨1, ![67108864]⟩
abbrev S65536x1 : Shape := ⟨2, ![65536, 1]⟩
abbrev S8192x8192 : Shape := ⟨2, ![8192, 8192]⟩
abbrev S8192x64 : Shape := ⟨2, ![8192, 64]⟩
abbrev S256x8192 : Shape := ⟨2, ![256, 8192]⟩
abbrev S256x256 : Shape := ⟨2, ![256, 256]⟩
abbrev S8192 : Shape := ⟨1, ![8192]⟩
abbrev S1x8192 : Shape := ⟨2, ![1, 8192]⟩
abbrev S128x64 : Shape := ⟨2, ![128, 64]⟩
abbrev S128x8192 : Shape := ⟨2, ![128, 8192]⟩
abbrev S128 : Shape := ⟨1, ![128]⟩
abbrev S128x1 : Shape := ⟨2, ![128, 1]⟩

abbrev nBuf : Space → Nat
  | .hbm => 26
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S256x64, .f32⟩
  | .hbm, ⟨3, _⟩ => ⟨S65536, .f32⟩
  | .hbm, ⟨4, _⟩ => ⟨S65536, .i32⟩
  | .hbm, ⟨5, _⟩ => ⟨S65536, .i32⟩
  | .hbm, ⟨6, _⟩ => ⟨S8192x1024, .bf16⟩
  | .hbm, ⟨7, _⟩ => ⟨S1024x256, .bf16⟩
  | .hbm, ⟨8, _⟩ => ⟨S256x64, .bf16⟩
  | .hbm, ⟨9, _⟩ => ⟨S8192x256, .bf16⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S_, .f32⟩
  | .hbm, ⟨15, _⟩ => ⟨S67108864, .f32⟩
  | .hbm, ⟨16, _⟩ => ⟨S65536x1, .i32⟩
  | .hbm, ⟨17, _⟩ => ⟨S67108864, .f32⟩
  | .hbm, ⟨18, _⟩ => ⟨S8192x8192, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S_, .f32⟩
  | .hbm, ⟨23, _⟩ => ⟨S8192, .f32⟩
  | .hbm, ⟨24, _⟩ => ⟨S1x8192, .f32⟩
  | .hbm, ⟨25, _⟩ => ⟨S8192x8192, .f32⟩
  | .local _ .vmem, ⟨0, _⟩ => ⟨S512x1024, .bf16⟩
  | .local _ .vmem, ⟨1, _⟩ => ⟨S512x1024, .bf16⟩
  | .local _ .vmem, ⟨2, _⟩ => ⟨S1024x256, .bf16⟩
  | .local _ .vmem, ⟨3, _⟩ => ⟨S512x256, .bf16⟩
  | .local _ .vmem, ⟨4, _⟩ => ⟨S512x256, .bf16⟩
  | .local _ .vmem, ⟨5, _⟩ => ⟨S256x8192, .f32⟩
  | .local _ .vmem, ⟨6, _⟩ => ⟨S256x8192, .f32⟩
  | .local _ .vmem, ⟨7, _⟩ => ⟨S8192x256, .bf16⟩
  | .local _ .vmem, ⟨8, _⟩ => ⟨S256x64, .bf16⟩
  | .local _ .vmem, ⟨9, _⟩ => ⟨S256x64, .f32⟩
  | .local _ .vmem, ⟨10, _⟩ => ⟨S256x64, .f32⟩
  | .local _ .vmem, ⟨11, _⟩ => ⟨S256x8192, .f32⟩
  | .local _ .vmem, ⟨12, _⟩ => ⟨S256x8192, .f32⟩
  | .local _ .vmem, ⟨13, _⟩ => ⟨S8192x64, .f32⟩
  | .local _ .vmem, ⟨14, _⟩ => ⟨S256x64, .f32⟩
  | .local _ .vmem, ⟨15, _⟩ => ⟨S256x64, .f32⟩
  | .local _ .vmem, ⟨16, _⟩ => ⟨S128x64, .f32⟩
  | .local _ .vmem, ⟨17, _⟩ => ⟨S128x64, .f32⟩
  | .local _ .vmem, ⟨18, _⟩ => ⟨S8192x64, .f32⟩
  | .local _ .vmem, ⟨19, _⟩ => ⟨S1x8192, .f32⟩
  | .local _ .vmem, ⟨20, _⟩ => ⟨S128x8192, .f32⟩
  | .local _ .vmem, ⟨21, _⟩ => ⟨S128x8192, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x8192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S128x8192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  bcast_S_S65536 : S_.BroadcastsInDim S65536 (![] : Fin 0 → Fin S65536.rank)
  bcast_S_S67108864 : S_.BroadcastsInDim S67108864 (![] : Fin 0 → Fin S67108864.rank)
  bcast_S65536_S65536x1_0 : S65536.BroadcastsInDim S65536x1 (![0] : Fin 1 → Fin S65536x1.rank)
  shapeCasts_S67108864_S8192x8192 : S67108864.ShapeCasts S8192x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reducesTo_S8192x64_S8192_d1 : S8192x64.ReducesTo [1] S8192
  h_S_ : 0 < S_.numel
  shapeCasts_S8192_S1x8192 : S8192.ShapeCasts S1x8192
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  reduces_S128x8192_S128 : S128x8192.Reduces [1] S128
  shapeCasts_S128_S128x1 : S128.ShapeCasts S128x1
  broadcasts_S128x1_S128x8192 : S128x1.Broadcasts S128x8192
  inb_S128x8192_S128x8192_0_0 : ∀ a, (![0, 0] : Fin 2 → Nat) a + S128x8192.size a ≤ S128x8192.size a
  h_S128x8192 : 0 < S128x8192.numel
  dot_S512x1024_S1024x256_S512x256_1_0_0_1_n_n_wf : DotDims.WF S512x1024 S1024x256 S512x256 [1] [0] [0] [1] [] []
  scatter_S67108864_S65536x1_S65536_n_0_0_1_wf : ScatterDims.WF S67108864 S65536x1 S65536 [] [0] [0] 1
  dot_S256x8192_S8192x256_S256x256_1_0_0_1_n_n_wf : DotDims.WF S256x8192 S8192x256 S256x256 [1] [0] [0] [1] [] []
  dot_S256x256_S256x64_S256x64_1_0_0_1_n_n_wf : DotDims.WF S256x256 S256x64 S256x64 [1] [0] [0] [1] [] []
  dot_S256x8192_S8192x64_S256x64_1_0_0_1_n_n_wf : DotDims.WF S256x8192 S8192x64 S256x64 [1] [0] [0] [1] [] []
  dot_S128x64_S8192x64_S128x8192_1_1_0_0_n_n_wf : DotDims.WF S128x64 S8192x64 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .bf16 = 32 ∨ (Rect.block (s := S8192x256) S512x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .bf16 = 32 ∨ (Rect.block (s := S256x64) S256x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S8192x64.size a
  hwx1_3 : ∀ i : grid1.Coords, EltTy.bits .f32 = 32 ∨ (Rect.block (s := S8192x64) S256x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .f32 = 32 ∨ (Rect.block (s := S8192x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .f32 = 32 ∨ (Rect.block (s := S8192x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S8192x64.size a
  hwx2_2 : ∀ i : grid2.Coords, EltTy.bits .f32 = 32 ∨ (Rect.block (s := S8192x64) S256x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x64.size a ≤ S8192x64.size a
  hwx3_0 : ∀ i : grid3.Coords, EltTy.bits .f32 = 32 ∨ (Rect.block (s := S8192x64) S128x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S8192x64.size a
  hwx3_1 : ∀ i : grid3.Coords, EltTy.bits .f32 = 32 ∨ (Rect.block (s := S8192x64) S8192x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8192.size a ≤ S1x8192.size a
  hwx3_2 : ∀ i : grid3.Coords, EltTy.bits .f32 = 32 ∨ (Rect.block (s := S1x8192) S1x8192.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x8192.size a ≤ S8192x8192.size a
  hwx3_3 : ∀ i : grid3.Coords, EltTy.bits .f32 = 32 ∨ (Rect.block (s := S8192x8192) S128x8192.size (cc3_transform_3 i) (hinb3_3 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def scatter_S67108864_S65536x1_S65536_n_0_0_1 : ScatterDims S67108864 S65536x1 S65536 where
  updateWindowDims := []
  insertedWindowDims := [0]
  scatterDimsToOperandDims := [0]
  indexVectorDim := 1
  wf := scatter_S67108864_S65536x1_S65536_n_0_0_1_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S128x64_S8192x64_S128x8192_1_1_0_0_n_n : DotDims S128x64 S8192x64 S128x8192 where
  lhsContracting := [1]
  rhsContracting := [1]
  lhsNonContracting := [0]
  rhsNonContracting := [0]
  lhsBatch := []
  rhsBatch := []
  wf := dot_S128x64_S8192x64_S128x8192_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S256x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v12) S128x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S8192x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x8192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S128x8192.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8192x1024 : Shape := ⟨2, ![8192, 1024]⟩
abbrev S1024x256 : Shape := ⟨2, ![1024, 256]⟩
abbrev S256x64 : Shape := ⟨2, ![256, 64]⟩
abbrev S65536 : Shape := ⟨1, ![65536]⟩
abbrev S8192x256 : Shape := ⟨2, ![8192, 256]⟩
abbrev S65536x1 : Shape := ⟨2, ![65536, 1]⟩
abbrev S_ : Shape := ⟨0, ![]⟩
abbrev S65536x256 : Shape := ⟨2, ![65536, 256]⟩
abbrev S8192x64 : Shape := ⟨2, ![8192, 64]⟩
abbrev S65536x64 : Shape := ⟨2, ![65536, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S256x64, .f32⟩
  | .hbm, ⟨3, _⟩ => ⟨S65536, .f32⟩
  | .hbm, ⟨4, _⟩ => ⟨S65536, .i32⟩
  | .hbm, ⟨5, _⟩ => ⟨S65536, .i32⟩
  | .hbm, ⟨6, _⟩ => ⟨S8192x256, .f32⟩
  | .hbm, ⟨7, _⟩ => ⟨S65536x1, .f32⟩
  | .hbm, ⟨8, _⟩ => ⟨S_, .i32⟩
  | .hbm, ⟨9, _⟩ => ⟨S65536, .i32⟩
  | .hbm, ⟨10, _⟩ => ⟨S65536, .i1⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S65536, .i32⟩
  | .hbm, ⟨15, _⟩ => ⟨S65536x1, .i32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S_, .f32⟩
  | .hbm, ⟨20, _⟩ => ⟨S8192x256, .f32⟩
  | .hbm, ⟨21, _⟩ => ⟨S65536x1, .i32⟩
  | .hbm, ⟨22, _⟩ => ⟨S8192x256, .f32⟩
  | .hbm, ⟨23, _⟩ => ⟨S_, .f32⟩
  | .hbm, ⟨24, _⟩ => ⟨S8192x256, .f32⟩
  | .hbm, ⟨25, _⟩ => ⟨S8192x256, .f32⟩
  | .hbm, ⟨26, _⟩ => ⟨S8192x64, .f32⟩
  | .hbm, ⟨27, _⟩ => ⟨S65536x1, .f32⟩
  | .hbm, ⟨28, _⟩ => ⟨S_, .i32⟩
  | .hbm, ⟨29, _⟩ => ⟨S65536, .i32⟩
  | .hbm, ⟨30, _⟩ => ⟨S65536, .i1⟩
  | .hbm, ⟨31, _⟩ => ⟨S_, .i32⟩
  | .hbm, ⟨32, _⟩ => ⟨S65536, .i32⟩
  | .hbm, ⟨33, _⟩ => ⟨S65536, .i32⟩
  | .hbm, ⟨34, _⟩ => ⟨S65536, .i32⟩
  | .hbm, ⟨35, _⟩ => ⟨S65536x1, .i32⟩
  | .hbm, ⟨36, _⟩ => ⟨S65536x64, .f32⟩
  | .hbm, ⟨37, _⟩ => ⟨S65536x64, .f32⟩
  | .hbm, ⟨38, _⟩ => ⟨S65536x64, .f32⟩
  | .hbm, ⟨39, _⟩ => ⟨S_, .f32⟩
  | .hbm, ⟨40, _⟩ => ⟨S8192x64, .f32⟩
  | .hbm, ⟨41, _⟩ => ⟨S65536x1, .i32⟩
  | .hbm, ⟨42, _⟩ => ⟨S8192x64, .f32⟩
  | .hbm, ⟨43, _⟩ => ⟨S8192x64, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S1x8192, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S64x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192x1, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  bcast_S_S65536 : S_.BroadcastsInDim S65536 (![] : Fin 0 → Fin S65536.rank)
  bcast_S65536x1_S65536x256_0_1 : S65536x1.BroadcastsInDim S65536x256 (![0, 1] : Fin 2 → Fin S65536x256.rank)
  bcast_S_S8192x256 : S_.BroadcastsInDim S8192x256 (![] : Fin 0 → Fin S8192x256.rank)
  bcast_S65536x1_S65536x64_0_1 : S65536x1.BroadcastsInDim S65536x64 (![0, 1] : Fin 2 → Fin S65536x64.rank)
  bcast_S_S8192x64 : S_.BroadcastsInDim S8192x64 (![] : Fin 0 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  dot_S8192x1024_S1024x256_S8192x256_1_0_0_1_n_n_wf : DotDims.WF S8192x1024 S1024x256 S8192x256 [1] [0] [0] [1] [] []
  gather_S8192x256_S65536x1_S65536x256_1_0_n_n_0_1_1256_wf : GatherDims.WF S8192x256 S65536x1 S65536x256 [1] [0] [] [0] [] 1 ![1, 256]
  scatter_S8192x256_S65536x1_S65536x256_1_0_0_1_wf : ScatterDims.WF S8192x256 S65536x1 S65536x256 [1] [0] [0] 1
  dot_S8192x256_S256x64_S8192x64_1_0_0_1_n_n_wf : DotDims.WF S8192x256 S256x64 S8192x64 [1] [0] [0] [1] [] []
  gather_S8192x64_S65536x1_S65536x64_1_0_n_n_0_1_164_wf : GatherDims.WF S8192x64 S65536x1 S65536x64 [1] [0] [] [0] [] 1 ![1, 64]
  scatter_S8192x64_S65536x1_S65536x64_1_0_0_1_wf : ScatterDims.WF S8192x64 S65536x1 S65536x64 [1] [0] [0] 1
  dot_S8192x64_S64x8192_S8192x8192_1_0_0_1_n_n_wf : DotDims.WF S8192x64 S64x8192 S8192x8192 [1] [0] [0] [1] [] []

variable [Facts₀]

def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def gather_S8192x256_S65536x1_S65536x256_1_0_n_n_0_1_1256 : GatherDims S8192x256 S65536x1 S65536x256 where
  offsetDims := [1]
  collapsedSliceDims := [0]
  operandBatchingDims := []
  startIndicesBatchingDims := []
  startIndexMap := [0]
  indexVectorDim := 1
  sliceSizes := ![1, 256]
  wf := gather_S8192x256_S65536x1_S65536x256_1_0_n_n_0_1_1256_wf
def scatter_S8192x256_S65536x1_S65536x256_1_0_0_1 : ScatterDims S8192x256 S65536x1 S65536x256 where
  updateWindowDims := [1]
  insertedWindowDims := [0]
  scatterDimsToOperandDims := [0]
  indexVectorDim := 1
  wf := scatter_S8192x256_S65536x1_S65536x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S65536x1_S65536x64_1_0_n_n_0_1_164 : GatherDims S8192x64 S65536x1 S65536x64 where
  offsetDims := [1]
  collapsedSliceDims := [0]
  operandBatchingDims := []
  startIndicesBatchingDims := []
  startIndexMap := [0]
  indexVectorDim := 1
  sliceSizes := ![1, 64]
  wf := gather_S8192x64_S65536x1_S65536x64_1_0_n_n_0_1_164_wf
def scatter_S8192x64_S65536x1_S65536x64_1_0_0_1 : ScatterDims S8192x64 S65536x1 S65536x64 where
  updateWindowDims := [1]
  insertedWindowDims := [0]
  scatterDimsToOperandDims := [0]
  indexVectorDim := 1
  wf := scatter_S8192x64_S65536x1_S65536x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.Reg0.lean ====
/-
  The first matrix product, X · W1, as one pipelined launch: 16 grid points, point t taking rows 512 t … 512 t + 511
  of the (converted) feature matrix and the whole weight matrix, and leaving the 512 × 256 block of products.

  This module states, for ANY contents V of the core's buffers at the moment the launch is entered: what block of its
  array each window hands the body at a point; what the body leaves in the output window's buffer as a function of
  the two input blocks (its single whole-block store of the product); that the body, run on buffers holding those
  blocks, terminates leaving exactly that and its inputs untouched; and, from this, the per-point obligation the
  pipeline asks of the body, over proof data that record the arrays at V and, after each point, each input buffer at
  its block and the output buffer at the product.
-/
import proofs.«412745_j39127152066566_3_alg».proof.Proof.Gen.Kernel.Launch
import proofs.«412745_j39127152066566_3_alg».proof.Proof.Gen.Kernel.Skeleton
import proofs.«412745_j39127152066566_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the windows hand the body -/

/-- Window w's block at point t: the part of its array, as the launch finds it, that the window's index map selects. -/
def inBlk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The rows' window: whatever proof data record the array at V and leave the block in place, its buffer holds the
    point's block, whether or not a transfer brought it at this very point. -/
theorem holds0_0 {c : Dev nD} (pd : Dat τ (Elt F) Unit ℕ (UR sig nD τ) ℕ cfg0 c) (hA : pd.A 0 = V c (Pipeline.arrRef spec0 0))
    (hkeep : ∀ t, pd.after 0 t = inBlk0 V c 0 t) (t : Fin cfg0.N) (d) : pd.before 0 t d = inBlk0 V c 0 t :=
  (pd.before_in_eq_fetched 0 rfl (fun _ => rfl) (fun _ _ _ => rfl)
    (fun t => by rw [hkeep]; unfold Dat.blockOf inBlk0; rw [hA]; try rfl) t d).trans
    (by unfold Dat.fetched Dat.blockOf inBlk0; rw [hA]; try rfl)

/-- The weights' window, brought once and kept: the same. -/
theorem holds0_1 {c : Dev nD} (pd : Dat τ (Elt F) Unit ℕ (UR sig nD τ) ℕ cfg0 c) (hA : pd.A 1 = V c (Pipeline.arrRef spec0 1))
    (hkeep : ∀ t, pd.after 1 t = inBlk0 V c 1 t) (t : Fin cfg0.N) (d) : pd.before 1 t d = inBlk0 V c 1 t :=
  (pd.before_in_eq_fetched 1 rfl (fun _ => rfl) (fun _ _ _ => rfl)
    (fun t => by rw [hkeep]; unfold Dat.blockOf inBlk0; rw [hA]; try rfl) t d).trans
    (by unfold Dat.fetched Dat.blockOf inBlk0; rw [hA]; try rfl)

/-! ## What the body leaves -/

/-- The whole 512 × 1024 block, the whole 1024 × 256 block and the whole 512 × 256 block, as rectangles. -/
abbrev whole0_a : Rect S512x1024 := Rect.unit (s := S512x1024) ![0, 0] S512x1024.size inb_S512x1024_S512x1024_0_0
abbrev whole0_b : Rect S1024x256 := Rect.unit (s := S1024x256) ![0, 0] S1024x256.size inb_S1024x256_S1024x256_0_0
abbrev whole0_o : Rect S512x256 := Rect.unit (s := S512x256) ![0, 0] S512x256.size inb_S512x256_S512x256_0_0

/-- The output buffer after the body: its one store, of the product of the two loaded blocks, over the whole buffer. -/
def res0 (a : Vec F S512x1024 .bf16) (b : Vec F S1024x256 .bf16) : Vec F S512x256 .bf16 :=
  View.canon [⟨whole0_o, k0_pay1 (View.ld a whole0_a) (View.ld b whole0_b)⟩]

/-- That store covers the buffer. -/
theorem covers0 (v : Vec F S512x256 .bf16) (y : S512x256.Idx) :
    ∃ pc ∈ ([⟨whole0_o, v⟩] : List (View.Piece (Elt F) S512x256 .bf16)), y ∈ pc.1.set :=
  View.cover_of_tiled [⟨whole0_o, v⟩] S512x256.size (by rfl) y

/-! ## The body runs -/

set_option maxHeartbeats 1000000 in
/-- On whole buffers, the inputs' holding a and b and the output's anything, the body terminates with the inputs'
    as they were and the output's at res0 a b. -/
theorem runs0 (c : Dev nD) (E : Set ℕ) (i : grid0.Coords)
    (arg1 : Memref sig .tc .vmem S512x1024 .bf16) (harg1 : arg1.IsWhole)
    (arg2 : Memref sig .tc .vmem S1024x256 .bf16) (harg2 : arg2.IsWhole)
    (arg3 : Memref sig .tc .vmem S512x256 .bf16) (harg3 : arg3.IsWhole)
    (a : Vec F S512x1024 .bf16) (b : Vec F S1024x256 .bf16) (K : PUnit → sProp 𝕄) :
    iprop(owns (c : Thread nD τ) arg1 fullShare a ∗ owns (c : Thread nD τ) arg2 fullShare b
        ∗ (∃ d, owns (c : Thread nD τ) arg3 fullShare d)
        ∗ (iprop(owns (c : Thread nD τ) arg1 fullShare a ∗ owns (c : Thread nD τ) arg2 fullShare b
            ∗ owns (c : Thread nD τ) arg3 fullShare (res0 a b)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-! ## The proof data and the obligation -/

/-- The launch's proof data on core c: the arrays as found (V); after the body at point t the two input buffers at
    their blocks and the output buffer at the blocks' product; the invariant the plain one (nothing of the core's own
    besides the staging buffers is touched); nothing owed; whole shares. -/
def pd0 (c : Dev nD) : Dat τ (Elt F) Unit ℕ (UR sig nD τ) ℕ cfg0 c where
  A w := V c (Pipeline.arrRef spec0 w)
  after w t := match w with
    | ⟨0, _⟩ => inBlk0 V c 0 t
    | ⟨1, _⟩ => inBlk0 V c 1 t
    | ⟨2, _⟩ => res0 (inBlk0 V c 0 t) (inBlk0 V c 1 t)
  Φ _ := Pipeline.ΦA spec0 c
  q _ := fullShare
  owed _ := 0

theorem pd0_A (c : Dev nD) (w : Fin cfg0.W) : (pd0 V c).A w = V c (Pipeline.arrRef spec0 w) := by
  dsimp only [pd0]

theorem pd0_after_0 (c : Dev nD) (t : Fin cfg0.N) : (pd0 V c).after 0 t = inBlk0 V c 0 t := by dsimp only [pd0]
theorem pd0_after_1 (c : Dev nD) (t : Fin cfg0.N) : (pd0 V c).after 1 t = inBlk0 V c 1 t := by dsimp only [pd0]
theorem pd0_after_2 (c : Dev nD) (t : Fin cfg0.N) :
    (pd0 V c).after 2 t = res0 (inBlk0 V c 0 t) (inBlk0 V c 1 t) := by dsimp only [pd0]

theorem pd0_before_0 (c : Dev nD) (t : Fin cfg0.N) (d) : (pd0 V c).before 0 t d = inBlk0 V c 0 t :=
  holds0_0 V (pd0 V c) (pd0_A V c 0) (pd0_after_0 V c) t d
theorem pd0_before_1 (c : Dev nD) (t : Fin cfg0.N) (d) : (pd0 V c).before 1 t d = inBlk0 V c 1 t :=
  holds0_1 V (pd0 V c) (pd0_A V c 1) (pd0_after_1 V c) t d

/-- What the body is handed at point t, the windows one by one, -/
def handed0 (c : Dev nD) (t : Fin cfg0.N) : sProp 𝕄 :=
  iprop((pd0 V c).Φ t.castSucc ∗ (pd0 V c).owesAt () t.castSucc
    ∗ (∃ d, owns (c : Thread nD τ) (st0_0 t) fullShare ((pd0 V c).before 0 t d))
    ∗ (∃ d, owns (c : Thread nD τ) (st0_1 t) fullShare ((pd0 V c).before 1 t d))
    ∗ (∃ d, owns (c : Thread nD τ) (st0_2 t) fullShare ((pd0 V c).before 2 t d)))

/-- and what it hands back. -/
def returned0 (c : Dev nD) (t : Fin cfg0.N) : sProp 𝕄 :=
  iprop((pd0 V c).Φ t.succ ∗ (pd0 V c).owesAt () t.succ
    ∗ owns (c : Thread nD τ) (st0_0 t) fullShare ((pd0 V c).after 0 t)
    ∗ owns (c : Thread nD τ) (st0_1 t) fullShare ((pd0 V c).after 1 t)
    ∗ owns (c : Thread nD τ) (st0_2 t) fullShare ((pd0 V c).after 2 t))

/-- The body at any point: the input buffers hold their blocks, so runs0 applies; the invariant and what the core owes
    pass through unread. -/
theorem point0 (c : Dev nD) (t : Fin cfg0.N) :
    handed0 V c t ⊢ wp frame (wpE (defs₀ (F := F)) Variants.none c none) Set.univ (bodyAt0 t) (fun _ => returned0 V c t) := by
  unfold handed0 returned0 bodyAt0
  simp only [pd0_before_0, pd0_before_1]
  rw [show (pd0 V c).Φ t.succ = (pd0 V c).Φ t.castSucc from rfl,
    show (pd0 V c).owesAt () t.succ = (pd0 V c).owesAt () t.castSucc from rfl,
    pd0_after_0, pd0_after_1, pd0_after_2]
  iintro ⟨HΦ, Ho, ⟨%d0, H0⟩, ⟨%d1, H1⟩, ⟨%d2, H2⟩⟩
  iapply (runs0 c Set.univ _ _ _ _ _ _ _ (inBlk0 V c 0 t) (inBlk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body0 (c : Dev nD) : BodyObligation (pd0 (F := F) V c) (defs₀ (F := F)) Variants.none () Set.univ := fun t => by
  rw [bigSep_W0, bigSep_W0]
  exact point0 V c t

end

end Cert.Kernel.Hand

end
-- ==== Proof.K.Reg1.lean ====
/-
  The aggregation with the two-layer tail, relu (A · H) · W2, as one pipelined launch: 32 grid points, point t taking
  rows 256 t … 256 t + 255 of the 8192 × 8192 matrix A together with the whole 8192 × 256 matrix H and the whole
  256 × 64 matrix W2, and leaving the 256 × 64 block of results.

  This module states, for ANY contents V of the core's buffers at the moment the launch is entered: what block of its
  array each window hands the body at a point; what the body leaves in the output window's buffer as a function of
  the three input blocks (its single whole-block store); that the body, run on buffers holding those blocks,
  terminates leaving exactly that and its inputs untouched; and, from this, the per-point obligation the pipeline
  asks of the body, over proof data that record the arrays at V and, after each point, each input buffer at its
  block and the output buffer at the value computed from them.
-/
import proofs.«412745_j39127152066566_3_alg».proof.Proof.Gen.Kernel.Launch
import proofs.«412745_j39127152066566_3_alg».proof.Proof.Gen.Kernel.Skeleton
import proofs.«412745_j39127152066566_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the windows hand the body -/

/-- Window w's block at point t: the part of its array, as the launch finds it, that the window's index map selects. -/
def inBlk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The window on the rows of A: whatever proof data record the array at V and leave the block in place, its buffer
    holds the point's block, whether or not a transfer brought it at this very point. -/
theorem holds1_0 {c : Dev nD} (pd : Dat τ (Elt F) Unit ℕ (UR sig nD τ) ℕ cfg1 c) (hA : pd.A 0 = V c (Pipeline.arrRef spec1 0))
    (hkeep : ∀ t, pd.after 0 t = inBlk1 V c 0 t) (t : Fin cfg1.N) (d) : pd.before 0 t d = inBlk1 V c 0 t :=
  (pd.before_in_eq_fetched 0 rfl (fun _ => rfl) (fun _ _ _ => rfl)
    (fun t => by rw [hkeep]; unfold Dat.blockOf inBlk1; rw [hA]; try rfl) t d).trans
    (by unfold Dat.fetched Dat.blockOf inBlk1; rw [hA]; try rfl)

/-- The window on H, brought once and kept: the same. -/
theorem holds1_1 {c : Dev nD} (pd : Dat τ (Elt F) Unit ℕ (UR sig nD τ) ℕ cfg1 c) (hA : pd.A 1 = V c (Pipeline.arrRef spec1 1))
    (hkeep : ∀ t, pd.after 1 t = inBlk1 V c 1 t) (t : Fin cfg1.N) (d) : pd.before 1 t d = inBlk1 V c 1 t :=
  (pd.before_in_eq_fetched 1 rfl (fun _ => rfl) (fun _ _ _ => rfl)
    (fun t => by rw [hkeep]; unfold Dat.blockOf inBlk1; rw [hA]; try rfl) t d).trans
    (by unfold Dat.fetched Dat.blockOf inBlk1; rw [hA]; try rfl)

/-- The window on W2, brought once and kept: the same. -/
theorem holds1_2 {c : Dev nD} (pd : Dat τ (Elt F) Unit ℕ (UR sig nD τ) ℕ cfg1 c) (hA : pd.A 2 = V c (Pipeline.arrRef spec1 2))
    (hkeep : ∀ t, pd.after 2 t = inBlk1 V c 2 t) (t : Fin cfg1.N) (d) : pd.before 2 t d = inBlk1 V c 2 t :=
  (pd.before_in_eq_fetched 2 rfl (fun _ => rfl) (fun _ _ _ => rfl)
    (fun t => by rw [hkeep]; unfold Dat.blockOf inBlk1; rw [hA]; try rfl) t d).trans
    (by unfold Dat.fetched Dat.blockOf inBlk1; rw [hA]; try rfl)

/-! ## What the body leaves -/

/-- The whole 256 × 8192 block, the whole 8192 × 256 block and the whole 256 × 64 block, as rectangles. -/
abbrev whole1_a : Rect S256x8192 := Rect.unit (s := S256x8192) ![0, 0] S256x8192.size inb_S256x8192_S256x8192_0_0
abbrev whole1_h : Rect S8192x256 := Rect.unit (s := S8192x256) ![0, 0] S8192x256.size inb_S8192x256_S8192x256_0_0
abbrev whole1_o : Rect S256x64 := Rect.unit (s := S256x64) ![0, 0] S256x64.size inb_S256x64_S256x64_0_0

/-- The output buffer after the body: its one store, of the value computed from the three loaded blocks, over the
    whole buffer. -/
def res1 (a : Vec F S256x8192 .f32) (h : Vec F S8192x256 .bf16) (w : Vec F S256x64 .bf16) : Vec F S256x64 .f32 :=
  View.canon [⟨whole1_o, k1_pay1 (View.ld a whole1_a) (View.ld h whole1_h) (View.ld w whole1_o)⟩]

/-- That store covers the buffer. -/
theorem covers1 (v : Vec F S256x64 .f32) (y : S256x64.Idx) :
    ∃ pc ∈ ([⟨whole1_o, v⟩] : List (View.Piece (Elt F) S256x64 .f32)), y ∈ pc.1.set :=
  View.cover_of_tiled [⟨whole1_o, v⟩] S256x64.size (by rfl) y

/-! ## The body runs -/

set_option maxHeartbeats 1000000 in
/-- On whole buffers, the inputs' holding a, h and w and the output's anything, the body terminates with the inputs'
    as they were and the output's at res1 a h w. -/
theorem runs1 (c : Dev nD) (E : Set ℕ) (i : grid1.Coords)
    (arg1 : Memref sig .tc .vmem S256x8192 .f32) (harg1 : arg1.IsWhole)
    (arg2 : Memref sig .tc .vmem S8192x256 .bf16) (harg2 : arg2.IsWhole)
    (arg3 : Memref sig .tc .vmem S256x64 .bf16) (harg3 : arg3.IsWhole)
    (arg4 : Memref sig .tc .vmem S256x64 .f32) (harg4 : arg4.IsWhole)
    (a : Vec F S256x8192 .f32) (h : Vec F S8192x256 .bf16) (w : Vec F S256x64 .bf16) (K : PUnit → sProp 𝕄) :
    iprop(owns (c : Thread nD τ) arg1 fullShare a ∗ owns (c : Thread nD τ) arg2 fullShare h
        ∗ owns (c : Thread nD τ) arg3 fullShare w
        ∗ (∃ d, owns (c : Thread nD τ) arg4 fullShare d)
        ∗ (iprop(owns (c : Thread nD τ) arg1 fullShare a ∗ owns (c : Thread nD τ) arg2 fullShare h
            ∗ owns (c : Thread nD τ) arg3 fullShare w
            ∗ owns (c : Thread nD τ) arg4 fullShare (res1 a h w)) -∗ K ⟨⟩))
      ⊢ wp frame (wpE (defs₀ (F := F)) Variants.none c none) E
          (cc1__spmm_relu_mlp2_kernel i arg1 harg1 arg2 harg2 arg3 harg3 arg4 harg4) K := by
  simp only [cc1__spmm_relu_mlp2_kernel_eq_skeleton]; unfold cc1__spmm_relu_mlp2_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers1 _)

/-! ## The proof data and the obligation -/

/-- The launch's proof data on core c: the arrays as found (V); after the body at point t the three input buffers at
    their blocks and the output buffer at the value computed from those blocks; the invariant the plain one (nothing
    of the core's own besides the staging buffers is touched); nothing owed; whole shares. -/
def pd1 (c : Dev nD) : Dat τ (Elt F) Unit ℕ (UR sig nD τ) ℕ cfg1 c where
  A w := V c (Pipeline.arrRef spec1 w)
  after w t := match w with
    | ⟨0, _⟩ => inBlk1 V c 0 t
    | ⟨1, _⟩ => inBlk1 V c 1 t
    | ⟨2, _⟩ => inBlk1 V c 2 t
    | ⟨3, _⟩ => res1 (inBlk1 V c 0 t) (inBlk1 V c 1 t) (inBlk1 V c 2 t)
  Φ _ := Pipeline.ΦA spec1 c
  q _ := fullShare
  owed _ := 0

theorem pd1_A (c : Dev nD) (w : Fin cfg1.W) : (pd1 V c).A w = V c (Pipeline.arrRef spec1 w) := by
  dsimp only [pd1]

theorem pd1_after_0 (c : Dev nD) (t : Fin cfg1.N) : (pd1 V c).after 0 t = inBlk1 V c 0 t := by dsimp only [pd1]
theorem pd1_after_1 (c : Dev nD) (t : Fin cfg1.N) : (pd1 V c).after 1 t = inBlk1 V c 1 t := by dsimp only [pd1]
theorem pd1_after_2 (c : Dev nD) (t : Fin cfg1.N) : (pd1 V c).after 2 t = inBlk1 V c 2 t := by dsimp only [pd1]
theorem pd1_after_3 (c : Dev nD) (t : Fin cfg1.N) :
    (pd1 V c).after 3 t = res1 (inBlk1 V c 0 t) (inBlk1 V c 1 t) (inBlk1 V c 2 t) := by dsimp only [pd1]

theorem pd1_before_0 (c : Dev nD) (t : Fin cfg1.N) (d) : (pd1 V c).before 0 t d = inBlk1 V c 0 t :=
  holds1_0 V (pd1 V c) (pd1_A V c 0) (pd1_after_0 V c) t d
theorem pd1_before_1 (c : Dev nD) (t : Fin cfg1.N) (d) : (pd1 V c).before 1 t d = inBlk1 V c 1 t :=
  holds1_1 V (pd1 V c) (pd1_A V c 1) (pd1_after_1 V c) t d
theorem pd1_before_2 (c : Dev nD) (t : Fin cfg1.N) (d) : (pd1 V c).before 2 t d = inBlk1 V c 2 t :=
  holds1_2 V (pd1 V c) (pd1_A V c 2) (pd1_after_2 V c) t d

/-- What the body is handed at point t, the windows one by one, -/
def handed1 (c : Dev nD) (t : Fin cfg1.N) : sProp 𝕄 :=
  iprop((pd1 V c).Φ t.castSucc ∗ (pd1 V c).owesAt () t.castSucc
    ∗ (∃ d, owns (c : Thread nD τ) (st1_0 t) fullShare ((pd1 V c).before 0 t d))
    ∗ (∃ d, owns (c : Thread nD τ) (st1_1 t) fullShare ((pd1 V c).before 1 t d))
    ∗ (∃ d, owns (c : Thread nD τ) (st1_2 t) fullShare ((pd1 V c).before 2 t d))
    ∗ (∃ d, owns (c : Thread nD τ) (st1_3 t) fullShare ((pd1 V c).before 3 t d)))

/-- and what it hands back. -/
def returned1 (c : Dev nD) (t : Fin cfg1.N) : sProp 𝕄 :=
  iprop((pd1 V c).Φ t.succ ∗ (pd1 V c).owesAt () t.succ
    ∗ owns (c : Thread nD τ) (st1_0 t) fullShare ((pd1 V c).after 0 t)
    ∗ owns (c : Thread nD τ) (st1_1 t) fullShare ((pd1 V c).after 1 t)
    ∗ owns (c : Thread nD τ) (st1_2 t) fullShare ((pd1 V c).after 2 t)
    ∗ owns (c : Thread nD τ) (st1_3 t) fullShare ((pd1 V c).after 3 t))

/-- The body at any point: the input buffers hold their blocks, so runs1 applies; the invariant and what the core owes
    pass through unread. -/
theorem point1 (c : Dev nD) (t : Fin cfg1.N) :
    handed1 V c t ⊢ wp frame (wpE (defs₀ (F := F)) Variants.none c none) Set.univ (bodyAt1 t) (fun _ => returned1 V c t) := by
  unfold handed1 returned1 bodyAt1
  simp only [pd1_before_0, pd1_before_1, pd1_before_2]
  rw [show (pd1 V c).Φ t.succ = (pd1 V c).Φ t.castSucc from rfl,
    show (pd1 V c).owesAt () t.succ = (pd1 V c).owesAt () t.castSucc from rfl,
    pd1_after_0, pd1_after_1, pd1_after_2, pd1_after_3]
  iintro ⟨HΦ, Ho, ⟨%d0, H0⟩, ⟨%d1, H1⟩, ⟨%d2, H2⟩, ⟨%d3, H3⟩⟩
  iapply (runs1 c Set.univ _ _ _ _ _ _ _ _ _ (inBlk1 V c 0 t) (inBlk1 V c 1 t) (inBlk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of the body, at every point. -/
theorem body1 (c : Dev nD) : BodyObligation (pd1 (F := F) V c) (defs₀ (F := F)) Variants.none () Set.univ := fun t => by
  rw [bigSep_W1, bigSep_W1]
  exact point1 V c t

end

end Cert.Kernel.Hand

end
-- ==== Proof.K.Reg2.lean ====
/-
  The last matrix product, the 8192 × 8192 row-normalised matrix times the 8192 × 64 matrix, as one pipelined
  launch: 32 grid points, point t taking rows 256 t … 256 t + 255 of the left matrix and the whole right matrix, and
  leaving the 256 × 64 block of products.

  This module states, for ANY contents V of the core's buffers at the moment the launch is entered: what block of its
  array each window hands the body at a point; what the body leaves in the output window's buffer as a function of
  the two input blocks (its single whole-block store of the product); that the body, run on buffers holding those
  blocks, terminates leaving exactly that and its inputs untouched; and, from this, the per-point obligation the
  pipeline asks of the body, over proof data that record the arrays at V and, after each point, each input buffer at
  its block and the output buffer at the product.
-/
import proofs.«412745_j39127152066566_3_alg».proof.Proof.Gen.Kernel.Launch
import proofs.«412745_j39127152066566_3_alg».proof.Proof.Gen.Kernel.Skeleton
import proofs.«412745_j39127152066566_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the windows hand the body -/

/-- Window w's block at point t: the part of its array, as the launch finds it, that the window's index map selects. -/
def inBlk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The rows' window: whatever proof data record the array at V and leave the block in place, its buffer holds the
    point's block, whether or not a transfer brought it at this very point. -/
theorem holds2_0 {c : Dev nD} (pd : Dat τ (Elt F) Unit ℕ (UR sig nD τ) ℕ cfg2 c) (hA : pd.A 0 = V c (Pipeline.arrRef spec2 0))
    (hkeep : ∀ t, pd.after 0 t = inBlk2 V c 0 t) (t : Fin cfg2.N) (d) : pd.before 0 t d = inBlk2 V c 0 t :=
  (pd.before_in_eq_fetched 0 rfl (fun _ => rfl) (fun _ _ _ => rfl)
    (fun t => by rw [hkeep]; unfold Dat.blockOf inBlk2; rw [hA]; try rfl) t d).trans
    (by unfold Dat.fetched Dat.blockOf inBlk2; rw [hA]; try rfl)

/-- The right matrix's window, brought once and kept: the same. -/
theorem holds2_1 {c : Dev nD} (pd : Dat τ (Elt F) Unit ℕ (UR sig nD τ) ℕ cfg2 c) (hA : pd.A 1 = V c (Pipeline.arrRef spec2 1))
    (hkeep : ∀ t, pd.after 1 t = inBlk2 V c 1 t) (t : Fin cfg2.N) (d) : pd.before 1 t d = inBlk2 V c 1 t :=
  (pd.before_in_eq_fetched 1 rfl (fun _ => rfl) (fun _ _ _ => rfl)
    (fun t => by rw [hkeep]; unfold Dat.blockOf inBlk2; rw [hA]; try rfl) t d).trans
    (by unfold Dat.fetched Dat.blockOf inBlk2; rw [hA]; try rfl)

/-! ## What the body leaves -/

/-- The whole 256 × 8192 block, the whole 8192 × 64 block and the whole 256 × 64 block, as rectangles. -/
abbrev whole2_a : Rect S256x8192 := Rect.unit (s := S256x8192) ![0, 0] S256x8192.size inb_S256x8192_S256x8192_0_0
abbrev whole2_b : Rect S8192x64 := Rect.unit (s := S8192x64) ![0, 0] S8192x64.size inb_S8192x64_S8192x64_0_0
abbrev whole2_o : Rect S256x64 := Rect.unit (s := S256x64) ![0, 0] S256x64.size inb_S256x64_S256x64_0_0

/-- The output buffer after the body: its one store, of the product of the two loaded blocks, over the whole buffer. -/
def res2 (a : Vec F S256x8192 .f32) (b : Vec F S8192x64 .f32) : Vec F S256x64 .f32 :=
  View.canon [⟨whole2_o, k2_pay1 (View.ld a whole2_a) (View.ld b whole2_b)⟩]

/-- That store covers the buffer. -/
theorem covers2 (v : Vec F S256x64 .f32) (y : S256x64.Idx) :
    ∃ pc ∈ ([⟨whole2_o, v⟩] : List (View.Piece (Elt F) S256x64 .f32)), y ∈ pc.1.set :=
  View.cover_of_tiled [⟨whole2_o, v⟩] S256x64.size (by rfl) y

/-! ## The proof data -/

/-- The launch's proof data on core c: the arrays as found (V); after the body at point t the two input buffers at
    their blocks and the output buffer at the blocks' product; the invariant the plain one (nothing of the core's own
    besides the staging buffers is touched); nothing owed; whole shares. -/
def pd2 (c : Dev nD) : Dat τ (Elt F) Unit ℕ (UR sig nD τ) ℕ cfg2 c where
  A w := V c (Pipeline.arrRef spec2 w)
  after w t := match w with
    | ⟨0, _⟩ => inBlk2 V c 0 t
    | ⟨1, _⟩ => inBlk2 V c 1 t
    | ⟨2, _⟩ => res2 (inBlk2 V c 0 t) (inBlk2 V c 1 t)
  Φ _ := Pipeline.ΦA spec2 c
  q _ := fullShare
  owed _ := 0

theorem pd2_A (c : Dev nD) (w : Fin cfg2.W) : (pd2 V c).A w = V c (Pipeline.arrRef spec2 w) := by
  dsimp only [pd2]

theorem pd2_after_0 (c : Dev nD) (t : Fin cfg2.N) : (pd2 V c).after 0 t = inBlk2 V c 0 t := by dsimp only [pd2]
theorem pd2_after_1 (c : Dev nD) (t : Fin cfg2.N) : (pd2 V c).after 1 t = inBlk2 V c 1 t := by dsimp only [pd2]
theorem pd2_after_2 (c : Dev nD) (t : Fin cfg2.N) :
    (pd2 V c).after 2 t = res2 (inBlk2 V c 0 t) (inBlk2 V c 1 t) := by dsimp only [pd2]

theorem pd2_before_0 (c : Dev nD) (t : Fin cfg2.N) (d) : (pd2 V c).before 0 t d = inBlk2 V c 0 t :=
  holds2_0 V (pd2 V c) (pd2_A V c 0) (pd2_after_0 V c) t d
theorem pd2_before_1 (c : Dev nD) (t : Fin cfg2.N) (d) : (pd2 V c).before 1 t d = inBlk2 V c 1 t :=
  holds2_1 V (pd2 V c) (pd2_A V c 1) (pd2_after_1 V c) t d

/-! ## The body runs -/

set_option maxHeartbeats 1000000 in
/-- On whole buffers, the inputs' holding a and b and the output's anything, the body terminates with the inputs'
    as they were and the output's at res2 a b. -/
theorem runs2 (c : Dev nD) (E : Set ℕ) (i : grid2.Coords)
    (arg1 : Memref sig .tc .vmem S256x8192 .f32) (harg1 : arg1.IsWhole)
    (arg2 : Memref sig .tc .vmem S8192x64 .f32) (harg2 : arg2.IsWhole)
    (arg3 : Memref sig .tc .vmem S256x64 .f32) (harg3 : arg3.IsWhole)
    (a : Vec F S256x8192 .f32) (b : Vec F S8192x64 .f32) (K : PUnit → sProp 𝕄) :
    iprop(owns (c : Thread nD τ) arg1 fullShare a ∗ owns (c : Thread nD τ) arg2 fullShare b
        ∗ (∃ d, owns (c : Thread nD τ) arg3 fullShare d)
        ∗ (iprop(owns (c : Thread nD τ) arg1 fullShare a ∗ owns (c : Thread nD τ) arg2 fullShare b
            ∗ owns (c : Thread nD τ) arg3 fullShare (res2 a b)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-! ## The obligation -/

/-- What the body is handed at point t, the windows one by one, -/
def handed2 (c : Dev nD) (t : Fin cfg2.N) : sProp 𝕄 :=
  iprop((pd2 V c).Φ t.castSucc ∗ (pd2 V c).owesAt () t.castSucc
    ∗ (∃ d, owns (c : Thread nD τ) (st2_0 t) fullShare ((pd2 V c).before 0 t d))
    ∗ (∃ d, owns (c : Thread nD τ) (st2_1 t) fullShare ((pd2 V c).before 1 t d))
    ∗ (∃ d, owns (c : Thread nD τ) (st2_2 t) fullShare ((pd2 V c).before 2 t d)))

/-- and what it hands back. -/
def returned2 (c : Dev nD) (t : Fin cfg2.N) : sProp 𝕄 :=
  iprop((pd2 V c).Φ t.succ ∗ (pd2 V c).owesAt () t.succ
    ∗ owns (c : Thread nD τ) (st2_0 t) fullShare ((pd2 V c).after 0 t)
    ∗ owns (c : Thread nD τ) (st2_1 t) fullShare ((pd2 V c).after 1 t)
    ∗ owns (c : Thread nD τ) (st2_2 t) fullShare ((pd2 V c).after 2 t))

/-- The body at any point: the input buffers hold their blocks, so runs2 applies; the invariant and what the core owes
    pass through unread. -/
theorem point2 (c : Dev nD) (t : Fin cfg2.N) :
    handed2 V c t ⊢ wp frame (wpE (defs₀ (F := F)) Variants.none c none) Set.univ (bodyAt2 t) (fun _ => returned2 V c t) := by
  unfold handed2 returned2 bodyAt2
  simp only [pd2_before_0, pd2_before_1]
  rw [show (pd2 V c).Φ t.succ = (pd2 V c).Φ t.castSucc from rfl,
    show (pd2 V c).owesAt () t.succ = (pd2 V c).owesAt () t.castSucc from rfl,
    pd2_after_0, pd2_after_1, pd2_after_2]
  iintro ⟨HΦ, Ho, ⟨%d0, H0⟩, ⟨%d1, H1⟩, ⟨%d2, H2⟩⟩
  iapply (runs2 c Set.univ _ _ _ _ _ _ _ (inBlk2 V c 0 t) (inBlk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body2 (c : Dev nD) : BodyObligation (pd2 (F := F) V c) (defs₀ (F := F)) Variants.none () Set.univ := fun t => by
  rw [bigSep_W2, bigSep_W2]
  exact point2 V c t

end

end Cert.Kernel.Hand

end
-- ==== Proof.K.Reg3.lean ====
/-
  The pairwise-score softmax as one pipelined launch: 64 grid points, point t taking rows 128 t … 128 t + 127 of the
  8192 × 64 embedding matrix through one window, the WHOLE of that same matrix through a second window, the 1 × 8192
  row of offsets through a third, and leaving the 128 × 8192 block of normalised scores.

  This module states, for ANY contents V of the core's buffers at the moment the launch is entered: what block of its
  array each window hands the body at a point; what the body leaves in the output window's buffer as a function of
  the three input blocks (its single whole-block store); that the body, run on buffers holding those blocks,
  terminates leaving exactly that and its inputs untouched; and, from this, the per-point obligation the pipeline
  asks of the body, over proof data that record the arrays at V and, after each point, each input buffer at its
  block and the output buffer at the stored block. Two windows read one array, so the proof data give each of them
  one half of that array's share.
-/
import proofs.«412745_j39127152066566_3_alg».proof.Proof.Gen.Kernel.Launch
import proofs.«412745_j39127152066566_3_alg».proof.Proof.Gen.Kernel.Skeleton
import proofs.«412745_j39127152066566_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the windows hand the body -/

/-- Window w's block at point t: the part of its array, as the launch finds it, that the window's index map selects. -/
def inBlk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The rows' window: whatever proof data record the array at V and leave the block in place, its buffer holds the
    point's block, whether or not a transfer brought it at this very point. -/
theorem holds3_0 {c : Dev nD} (pd : Dat τ (Elt F) Unit ℕ (UR sig nD τ) ℕ cfg3 c) (hA : pd.A 0 = V c (Pipeline.arrRef spec3 0))
    (hkeep : ∀ t, pd.after 0 t = inBlk3 V c 0 t) (t : Fin cfg3.N) (d) : pd.before 0 t d = inBlk3 V c 0 t :=
  (pd.before_in_eq_fetched 0 rfl (fun _ => rfl) (fun _ _ _ => rfl)
    (fun t => by rw [hkeep]; unfold Dat.blockOf inBlk3; rw [hA]; try rfl) t d).trans
    (by unfold Dat.fetched Dat.blockOf inBlk3; rw [hA]; try rfl)

/-- The whole matrix's window, brought once and kept: the same. -/
theorem holds3_1 {c : Dev nD} (pd : Dat τ (Elt F) Unit ℕ (UR sig nD τ) ℕ cfg3 c) (hA : pd.A 1 = V c (Pipeline.arrRef spec3 1))
    (hkeep : ∀ t, pd.after 1 t = inBlk3 V c 1 t) (t : Fin cfg3.N) (d) : pd.before 1 t d = inBlk3 V c 1 t :=
  (pd.before_in_eq_fetched 1 rfl (fun _ => rfl) (fun _ _ _ => rfl)
    (fun t => by rw [hkeep]; unfold Dat.blockOf inBlk3; rw [hA]; try rfl) t d).trans
    (by unfold Dat.fetched Dat.blockOf inBlk3; rw [hA]; try rfl)

/-- The offsets' window, brought once and kept: the same. -/
theorem holds3_2 {c : Dev nD} (pd : Dat τ (Elt F) Unit ℕ (UR sig nD τ) ℕ cfg3 c) (hA : pd.A 2 = V c (Pipeline.arrRef spec3 2))
    (hkeep : ∀ t, pd.after 2 t = inBlk3 V c 2 t) (t : Fin cfg3.N) (d) : pd.before 2 t d = inBlk3 V c 2 t :=
  (pd.before_in_eq_fetched 2 rfl (fun _ => rfl) (fun _ _ _ => rfl)
    (fun t => by rw [hkeep]; unfold Dat.blockOf inBlk3; rw [hA]; try rfl) t d).trans
    (by unfold Dat.fetched Dat.blockOf inBlk3; rw [hA]; try rfl)

/-! ## What the body leaves -/

/-- The whole 128 × 64 block, the whole 8192 × 64 block, the whole 1 × 8192 block and the whole 128 × 8192 block, as
    rectangles. -/
abbrev whole3_a : Rect S128x64 := Rect.unit (s := S128x64) ![0, 0] S128x64.size inb_S128x64_S128x64_0_0
abbrev whole3_b : Rect S8192x64 := Rect.unit (s := S8192x64) ![0, 0] S8192x64.size inb_S8192x64_S8192x64_0_0
abbrev whole3_m : Rect S1x8192 := Rect.unit (s := S1x8192) ![0, 0] S1x8192.size inb_S1x8192_S1x8192_0_0
abbrev whole3_o : Rect S128x8192 := Rect.unit (s := S128x8192) ![0, 0] S128x8192.size inb_S128x8192_S128x8192_0_0

/-- The output buffer after the body: its one store, of the normalised scores of the three loaded blocks, over the
    whole buffer. -/
def res3 (a : Vec F S128x64 .f32) (b : Vec F S8192x64 .f32) (m : Vec F S1x8192 .f32) : Vec F S128x8192 .f32 :=
  View.canon [⟨whole3_o, k3_pay1 (View.ld a whole3_a) (View.ld b whole3_b) (View.ld m whole3_m)⟩]

/-- That store covers the buffer. -/
theorem covers3 (v : Vec F S128x8192 .f32) (y : S128x8192.Idx) :
    ∃ pc ∈ ([⟨whole3_o, v⟩] : List (View.Piece (Elt F) S128x8192 .f32)), y ∈ pc.1.set :=
  View.cover_of_tiled [⟨whole3_o, v⟩] S128x8192.size (by rfl) y

/-! ## The body runs -/

set_option maxHeartbeats 1000000 in
/-- On whole buffers, the inputs' holding a, b and m and the output's anything, the body terminates with the inputs'
    as they were and the output's at res3 a b m. -/
theorem runs3 (c : Dev nD) (E : Set ℕ) (i : grid3.Coords)
    (arg1 : Memref sig .tc .vmem S128x64 .f32) (harg1 : arg1.IsWhole)
    (arg2 : Memref sig .tc .vmem S8192x64 .f32) (harg2 : arg2.IsWhole)
    (arg3 : Memref sig .tc .vmem S1x8192 .f32) (harg3 : arg3.IsWhole)
    (arg4 : Memref sig .tc .vmem S128x8192 .f32) (harg4 : arg4.IsWhole)
    (a : Vec F S128x64 .f32) (b : Vec F S8192x64 .f32) (m : Vec F S1x8192 .f32) (K : PUnit → sProp 𝕄) :
    iprop(owns (c : Thread nD τ) arg1 fullShare a ∗ owns (c : Thread nD τ) arg2 fullShare b
        ∗ owns (c : Thread nD τ) arg3 fullShare m
        ∗ (∃ d, owns (c : Thread nD τ) arg4 fullShare d)
        ∗ (iprop(owns (c : Thread nD τ) arg1 fullShare a ∗ owns (c : Thread nD τ) arg2 fullShare b
            ∗ owns (c : Thread nD τ) arg3 fullShare m
            ∗ owns (c : Thread nD τ) arg4 fullShare (res3 a b m)) -∗ K ⟨⟩))
      ⊢ wp frame (wpE (defs₀ (F := F)) Variants.none c none) E (cc3__dist_softmax_kernel i arg1 harg1 arg2 harg2 arg3 harg3 arg4 harg4) K := by
  simp only [cc3__dist_softmax_kernel_eq_skeleton]; unfold cc3__dist_softmax_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers3 _)

/-! ## The proof data and the obligation -/

/-- The launch's proof data on core c: the arrays as found (V); after the body at point t the three input buffers at
    their blocks and the output buffer at the block the body stores; the invariant the plain one (nothing of the core's
    own besides the staging buffers is touched); nothing owed; the embedding matrix, read through two windows, held
    at one half of its share for each, the offsets at the whole share. -/
def pd3 (c : Dev nD) : Dat τ (Elt F) Unit ℕ (UR sig nD τ) ℕ cfg3 c where
  A w := V c (Pipeline.arrRef spec3 w)
  after w t := match w with
    | ⟨0, _⟩ => inBlk3 V c 0 t
    | ⟨1, _⟩ => inBlk3 V c 1 t
    | ⟨2, _⟩ => inBlk3 V c 2 t
    | ⟨3, _⟩ => res3 (inBlk3 V c 0 t) (inBlk3 V c 1 t) (inBlk3 V c 2 t)
  Φ _ := Pipeline.ΦA spec3 c
  q w := match w with
    | ⟨0, _⟩ => fullShare.left
    | ⟨1, _⟩ => fullShare.right
    | ⟨2, _⟩ => fullShare
    | ⟨3, _⟩ => fullShare
  owed _ := 0

theorem pd3_A (c : Dev nD) (w : Fin cfg3.W) : (pd3 V c).A w = V c (Pipeline.arrRef spec3 w) := by
  dsimp only [pd3]

theorem pd3_after_0 (c : Dev nD) (t : Fin cfg3.N) : (pd3 V c).after 0 t = inBlk3 V c 0 t := by dsimp only [pd3]
theorem pd3_after_1 (c : Dev nD) (t : Fin cfg3.N) : (pd3 V c).after 1 t = inBlk3 V c 1 t := by dsimp only [pd3]
theorem pd3_after_2 (c : Dev nD) (t : Fin cfg3.N) : (pd3 V c).after 2 t = inBlk3 V c 2 t := by dsimp only [pd3]
theorem pd3_after_3 (c : Dev nD) (t : Fin cfg3.N) :
    (pd3 V c).after 3 t = res3 (inBlk3 V c 0 t) (inBlk3 V c 1 t) (inBlk3 V c 2 t) := by dsimp only [pd3]

theorem pd3_q_0 (c : Dev nD) : (pd3 V c).q 0 = fullShare.left := by dsimp only [pd3]
theorem pd3_q_1 (c : Dev nD) : (pd3 V c).q 1 = fullShare.right := by dsimp only [pd3]
theorem pd3_q_2 (c : Dev nD) : (pd3 V c).q 2 = fullShare := by dsimp only [pd3]

theorem pd3_before_0 (c : Dev nD) (t : Fin cfg3.N) (d) : (pd3 V c).before 0 t d = inBlk3 V c 0 t :=
  holds3_0 V (pd3 V c) (pd3_A V c 0) (pd3_after_0 V c) t d
theorem pd3_before_1 (c : Dev nD) (t : Fin cfg3.N) (d) : (pd3 V c).before 1 t d = inBlk3 V c 1 t :=
  holds3_1 V (pd3 V c) (pd3_A V c 1) (pd3_after_1 V c) t d
theorem pd3_before_2 (c : Dev nD) (t : Fin cfg3.N) (d) : (pd3 V c).before 2 t d = inBlk3 V c 2 t :=
  holds3_2 V (pd3 V c) (pd3_A V c 2) (pd3_after_2 V c) t d

/-- What the body is handed at point t, the windows one by one, -/
def handed3 (c : Dev nD) (t : Fin cfg3.N) : sProp 𝕄 :=
  iprop((pd3 V c).Φ t.castSucc ∗ (pd3 V c).owesAt () t.castSucc
    ∗ (∃ d, owns (c : Thread nD τ) (st3_0 t) fullShare ((pd3 V c).before 0 t d))
    ∗ (∃ d, owns (c : Thread nD τ) (st3_1 t) fullShare ((pd3 V c).before 1 t d))
    ∗ (∃ d, owns (c : Thread nD τ) (st3_2 t) fullShare ((pd3 V c).before 2 t d))
    ∗ (∃ d, owns (c : Thread nD τ) (st3_3 t) fullShare ((pd3 V c).before 3 t d)))

/-- and what it hands back. -/
def returned3 (c : Dev nD) (t : Fin cfg3.N) : sProp 𝕄 :=
  iprop((pd3 V c).Φ t.succ ∗ (pd3 V c).owesAt () t.succ
    ∗ owns (c : Thread nD τ) (st3_0 t) fullShare ((pd3 V c).after 0 t)
    ∗ owns (c : Thread nD τ) (st3_1 t) fullShare ((pd3 V c).after 1 t)
    ∗ owns (c : Thread nD τ) (st3_2 t) fullShare ((pd3 V c).after 2 t)
    ∗ owns (c : Thread nD τ) (st3_3 t) fullShare ((pd3 V c).after 3 t))

/-- The body at any point: the input buffers hold their blocks, so runs3 applies; the invariant and what the core owes
    pass through unread. -/
theorem point3 (c : Dev nD) (t : Fin cfg3.N) :
    handed3 V c t ⊢ wp frame (wpE (defs₀ (F := F)) Variants.none c none) Set.univ (bodyAt3 t) (fun _ => returned3 V c t) := by
  unfold handed3 returned3 bodyAt3
  simp only [pd3_before_0, pd3_before_1, pd3_before_2]
  rw [show (pd3 V c).Φ t.succ = (pd3 V c).Φ t.castSucc from rfl,
    show (pd3 V c).owesAt () t.succ = (pd3 V c).owesAt () t.castSucc from rfl,
    pd3_after_0, pd3_after_1, pd3_after_2, pd3_after_3]
  iintro ⟨HΦ, Ho, ⟨%d0, H0⟩, ⟨%d1, H1⟩, ⟨%d2, H2⟩, ⟨%d3, H3⟩⟩
  iapply (runs3 c Set.univ _ _ _ _ _ _ _ _ _ (inBlk3 V c 0 t) (inBlk3 V c 1 t) (inBlk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of the body, at every point. -/
theorem body3 (c : Dev nD) : BodyObligation (pd3 (F := F) V c) (defs₀ (F := F)) Variants.none () Set.univ := fun t => by
  rw [bigSep_W3, bigSep_W3]
  exact point3 V c t

end

end Cert.Kernel.Hand

end
-- ==== Proof.K.Chain.lean ====
/-
  What each of the core's buffers holds between the items of the program, from the launch to the return.

  The program is: three conversions, the first matrix product, nine operations that build the dense adjacency
  matrix, two products with it, four operations that reduce the squared rows, and the last launch. A conversion or a
  reduction rewrites the buffers it names and leaves the rest; a launch rewrites its output array — at what its
  pipeline leaves there after the last point's write-back — and leaves the rest. Folding these through the program
  gives the contents at every boundary as a function of the launch memory alone. Recorded here: those contents; that
  each launch's arrays hold at its exit what its pipeline leaves (an input's array what it held, the output's the
  folded write-backs) and every other buffer what it held at entry; and that no item writes an argument.
-/
import proofs.«412745_j39127152066566_3_alg».proof.Proof.K.Reg0
import proofs.«412745_j39127152066566_3_alg».proof.Proof.K.Reg1
import proofs.«412745_j39127152066566_3_alg».proof.Proof.K.Reg2
import proofs.«412745_j39127152066566_3_alg».proof.Proof.K.Reg3
import proofs.«412745_j39127152066566_3_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

variable (m : (ℓ : Loc nD τ sig) → Buf (Elt F) ℓ)

/-! ## The contents, boundary by boundary -/

/-- After the three conversions: where the first product is entered. -/
abbrev Y1 (c : Dev nD) : Valuation τ sig (Elt F) := StableHlo.after hostOps0 (fun b => m (c, b))

/-- What the first product leaves in its output array: every point's block written back, in point order. -/
def o3 (c : Dev nD) : Buf (Elt F) ((c : Thread nD τ).loc main_v3) :=
  (pd0 (fun c b => Y1 m c b) c).arrAt 2 cfg0.N

/-- After the first product: that array rewritten, nothing else. -/
def Y2 (c : Dev nD) : Valuation τ sig (Elt F) := Function.update (Y1 m c) main_v3 (o3 m c)

/-- After the nine operations that build the adjacency matrix: where the second launch is entered. -/
abbrev Y3 (c : Dev nD) : Valuation τ sig (Elt F) := StableHlo.after hostOps1 (Y2 m c)

/-- What the second launch leaves in its output array. -/
def o11 (c : Dev nD) : Buf (Elt F) ((c : Thread nD τ).loc main_v11) :=
  (pd1 (fun c b => Y3 m c b) c).arrAt 3 cfg1.N

/-- After the second launch: where the third is entered. -/
def Y4 (c : Dev nD) : Valuation τ sig (Elt F) := Function.update (Y3 m c) main_v11 (o11 m c)

/-- What the third launch leaves in its output array. -/
def o12 (c : Dev nD) : Buf (Elt F) ((c : Thread nD τ).loc main_v12) :=
  (pd2 (fun c b => Y4 m c b) c).arrAt 2 cfg2.N

/-- After the third launch. -/
def Y5 (c : Dev nD) : Valuation τ sig (Elt F) := Function.update (Y4 m c) main_v12 (o12 m c)

/-- After the four operations that reduce the squared rows: where the last launch is entered. -/
abbrev Y6 (c : Dev nD) : Valuation τ sig (Elt F) := StableHlo.after hostOps3 (Y5 m c)

/-- What the last launch leaves in its output array: the program's result. -/
def o16 (c : Dev nD) : Buf (Elt F) ((c : Thread nD τ).loc main_v16) :=
  (pd3 (fun c b => Y6 m c b) c).arrAt 3 cfg3.N

/-- At the return. -/
def Y7 (c : Dev nD) : Valuation τ sig (Elt F) := Function.update (Y6 m c) main_v16 (o16 m c)

/-! ## A launch rewrites its output array and nothing else -/

theorem Y2_main_v3 (c : Dev nD) : Y2 m c main_v3 = o3 m c := by
  unfold Y2; exact Function.update_self ..
theorem Y2_of_ne (c : Dev nD) (r : Ref sig .tc) (h : r ≠ main_v3) : Y2 m c r = Y1 m c r := by
  unfold Y2
  exact Function.update_of_ne (StableHlo.devRef_ne_of_ne h : (Proc.devRef .tc r : DevRef τ sig) ≠ Proc.devRef .tc main_v3) ..

theorem Y4_main_v11 (c : Dev nD) : Y4 m c main_v11 = o11 m c := by
  unfold Y4; exact Function.update_self ..
theorem Y4_of_ne (c : Dev nD) (r : Ref sig .tc) (h : r ≠ main_v11) : Y4 m c r = Y3 m c r := by
  unfold Y4
  exact Function.update_of_ne (StableHlo.devRef_ne_of_ne h : (Proc.devRef .tc r : DevRef τ sig) ≠ Proc.devRef .tc main_v11) ..

theorem Y5_main_v12 (c : Dev nD) : Y5 m c main_v12 = o12 m c := by
  unfold Y5; exact Function.update_self ..
theorem Y5_of_ne (c : Dev nD) (r : Ref sig .tc) (h : r ≠ main_v12) : Y5 m c r = Y4 m c r := by
  unfold Y5
  exact Function.update_of_ne (StableHlo.devRef_ne_of_ne h : (Proc.devRef .tc r : DevRef τ sig) ≠ Proc.devRef .tc main_v12) ..

/-- The result buffer at the return holds what the last launch left there. -/
theorem Y7_main_v16 (c : Dev nD) : Y7 m c main_v16 = o16 m c := by
  unfold Y7; exact Function.update_self ..
theorem Y7_of_ne (c : Dev nD) (r : Ref sig .tc) (h : r ≠ main_v16) : Y7 m c r = Y6 m c r := by
  unfold Y7
  exact Function.update_of_ne (StableHlo.devRef_ne_of_ne h : (Proc.devRef .tc r : DevRef τ sig) ≠ Proc.devRef .tc main_v16) ..

/-! ## Each launch's arrays at its exit, and the buffers it passes by

An input window's array is never written, so at every point it holds what the launch found; the output window's
array after the last point is by definition what the exit contents have there. A buffer that is no window's array is
in particular not the output's. -/

/-- The first product: the rows' and the weights' arrays as found, the products' array as left. -/
theorem Y2_arr (c : Dev nD) (w : Fin cfg0.W) :
    (pd0 (fun c b => Y1 m c b) c).arrAt w cfg0.N = Y2 m c (Pipeline.arrRef spec0 w) :=
  match w with
  | ⟨0, _⟩ => ((pd0 (fun c b => Y1 m c b) c).arrAt_in 0 rfl _).trans
      ((pd0_A (fun c b => Y1 m c b) c 0).trans (Y2_of_ne m c main_v0 (by decide)).symm)
  | ⟨1, _⟩ => ((pd0 (fun c b => Y1 m c b) c).arrAt_in 1 rfl _).trans
      ((pd0_A (fun c b => Y1 m c b) c 1).trans (Y2_of_ne m c main_v1 (by decide)).symm)
  | ⟨2, _⟩ => (Y2_main_v3 m c).symm
theorem Y2_rest (c : Dev nD) : ∀ b, b ∉ Finset.univ.image (Pipeline.arrRef spec0) → Y2 m c b = Y1 m c b :=
  fun b hb => Y2_of_ne m c b fun e => hb (Finset.mem_image.mpr ⟨2, Finset.mem_univ _, e.symm⟩)

/-- The second launch: three inputs as found, its output as left. -/
theorem Y4_arr (c : Dev nD) (w : Fin cfg1.W) :
    (pd1 (fun c b => Y3 m c b) c).arrAt w cfg1.N = Y4 m c (Pipeline.arrRef spec1 w) :=
  match w with
  | ⟨0, _⟩ => ((pd1 (fun c b => Y3 m c b) c).arrAt_in 0 rfl _).trans
      ((pd1_A (fun c b => Y3 m c b) c 0).trans (Y4_of_ne m c main_v10 (by decide)).symm)
  | ⟨1, _⟩ => ((pd1 (fun c b => Y3 m c b) c).arrAt_in 1 rfl _).trans
      ((pd1_A (fun c b => Y3 m c b) c 1).trans (Y4_of_ne m c main_v3 (by decide)).symm)
  | ⟨2, _⟩ => ((pd1 (fun c b => Y3 m c b) c).arrAt_in 2 rfl _).trans
      ((pd1_A (fun c b => Y3 m c b) c 2).trans (Y4_of_ne m c main_v2 (by decide)).symm)
  | ⟨3, _⟩ => (Y4_main_v11 m c).symm
theorem Y4_rest (c : Dev nD) : ∀ b, b ∉ Finset.univ.image (Pipeline.arrRef spec1) → Y4 m c b = Y3 m c b :=
  fun b hb => Y4_of_ne m c b fun e => hb (Finset.mem_image.mpr ⟨3, Finset.mem_univ _, e.symm⟩)

/-- The third launch: two inputs as found, its output as left. -/
theorem Y5_arr (c : Dev nD) (w : Fin cfg2.W) :
    (pd2 (fun c b => Y4 m c b) c).arrAt w cfg2.N = Y5 m c (Pipeline.arrRef spec2 w) :=
  match w with
  | ⟨0, _⟩ => ((pd2 (fun c b => Y4 m c b) c).arrAt_in 0 rfl _).trans
      ((pd2_A (fun c b => Y4 m c b) c 0).trans (Y5_of_ne m c main_v10 (by decide)).symm)
  | ⟨1, _⟩ => ((pd2 (fun c b => Y4 m c b) c).arrAt_in 1 rfl _).trans
      ((pd2_A (fun c b => Y4 m c b) c 1).trans (Y5_of_ne m c main_v11 (by decide)).symm)
  | ⟨2, _⟩ => (Y5_main_v12 m c).symm
theorem Y5_rest (c : Dev nD) : ∀ b, b ∉ Finset.univ.image (Pipeline.arrRef spec2) → Y5 m c b = Y4 m c b :=
  fun b hb => Y5_of_ne m c b fun e => hb (Finset.mem_image.mpr ⟨2, Finset.mem_univ _, e.symm⟩)

/-- The last launch: its first two windows read one array, found and left alike; the row norms' array as found;
    its output as left. -/
theorem Y7_arr (c : Dev nD) (w : Fin cfg3.W) :
    (pd3 (fun c b => Y6 m c b) c).arrAt w cfg3.N = Y7 m c (Pipeline.arrRef spec3 w) :=
  match w with
  | ⟨0, _⟩ => ((pd3 (fun c b => Y6 m c b) c).arrAt_in 0 rfl _).trans
      ((pd3_A (fun c b => Y6 m c b) c 0).trans (Y7_of_ne m c main_v12 (by decide)).symm)
  | ⟨1, _⟩ => ((pd3 (fun c b => Y6 m c b) c).arrAt_in 1 rfl _).trans
      ((pd3_A (fun c b => Y6 m c b) c 1).trans (Y7_of_ne m c main_v12 (by decide)).symm)
  | ⟨2, _⟩ => ((pd3 (fun c b => Y6 m c b) c).arrAt_in 2 rfl _).trans
      ((pd3_A (fun c b => Y6 m c b) c 2).trans (Y7_of_ne m c main_v15 (by decide)).symm)
  | ⟨3, _⟩ => (Y7_main_v16 m c).symm
theorem Y7_rest (c : Dev nD) : ∀ b, b ∉ Finset.univ.image (Pipeline.arrRef spec3) → Y7 m c b = Y6 m c b :=
  fun b hb => Y7_of_ne m c b fun e => hb (Finset.mem_image.mpr ⟨3, Finset.mem_univ _, e.symm⟩)

/-! ## The arguments end as launched -/

/-- A buffer that no conversion, no construction step and no reduction names as its result, and that is no
    launch's output array, holds at the return what the launch memory held. -/
theorem Y7_unwritten (c : Dev nD) (r : Ref sig .tc)
    (h0 : r ∉ hostOps0_W) (h1 : r ∉ hostOps1_W) (h3 : r ∉ hostOps3_W)
    (ho : r ∉ ([main_v3, main_v11, main_v12, main_v16] : List (Ref sig .tc))) :
    Y7 m c r = m ((c : Thread nD τ).loc r) := by
  have e3 : r ≠ main_v3 := fun e => ho (by rw [e]; decide)
  have e11 : r ≠ main_v11 := fun e => ho (by rw [e]; decide)
  have e12 : r ≠ main_v12 := fun e => ho (by rw [e]; decide)
  have e16 : r ≠ main_v16 := fun e => ho (by rw [e]; decide)
  calc Y7 m c r
    _ = Y6 m c r := Y7_of_ne m c r e16
    _ = Y5 m c r := StableHlo.after_of_writes_sub hostOps3 _ hostOps3_writes h3
    _ = Y4 m c r := Y5_of_ne m c r e12
    _ = Y3 m c r := Y4_of_ne m c r e11
    _ = Y2 m c r := StableHlo.after_of_writes_sub hostOps1 _ hostOps1_writes h1
    _ = Y1 m c r := Y2_of_ne m c r e3
    _ = m ((c : Thread nD τ).loc r) := StableHlo.after_of_writes_sub hostOps0 _ hostOps0_writes h0

theorem Y7_main_arg0 (c : Dev nD) : Y7 m c main_arg0 = m ((c : Thread nD τ).loc main_arg0) :=
  Y7_unwritten m c main_arg0 (by decide) (by decide) (by decide) (by decide)
theorem Y7_main_arg1 (c : Dev nD) : Y7 m c main_arg1 = m ((c : Thread nD τ).loc main_arg1) :=
  Y7_unwritten m c main_arg1 (by decide) (by decide) (by decide) (by decide)
theorem Y7_main_arg2 (c : Dev nD) : Y7 m c main_arg2 = m ((c : Thread nD τ).loc main_arg2) :=
  Y7_unwritten m c main_arg2 (by decide) (by decide) (by decide) (by decide)
theorem Y7_main_arg3 (c : Dev nD) : Y7 m c main_arg3 = m ((c : Thread nD τ).loc main_arg3) :=
  Y7_unwritten m c main_arg3 (by decide) (by decide) (by decide) (by decide)
theorem Y7_main_arg4 (c : Dev nD) : Y7 m c main_arg4 = m ((c : Thread nD τ).loc main_arg4) :=
  Y7_unwritten m c main_arg4 (by decide) (by decide) (by decide) (by decide)
theorem Y7_main_arg5 (c : Dev nD) : Y7 m c main_arg5 = m ((c : Thread nD τ).loc main_arg5) :=
  Y7_unwritten m c main_arg5 (by decide) (by decide) (by decide) (by decide)

end Cert.Kernel.Hand

end
-- ==== Proof.K.Share3.lean ====
/-
  Two windows of the score-softmax launch read ONE array, the embedding matrix. The core holds that matrix's buffer
  once, at the whole share; the pipeline wants one holding per window. This module passes between the two pictures:
  at entry the core's unscoped buffers, each whole at the full share, are regrouped as the launch's four windowed
  arrays — the embedding matrix's share cut in its two halves, one per window reading it, the offsets' and the
  output's buffers whole — beside the buffers no window names; at exit the two halves are put together again and the
  output's buffer stands at whatever the launch left in it.
-/
import proofs.«412745_j39127152066566_3_alg».proof.Proof.K.Reg3
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The buffers behind the windows -/

/-- The four windows name three buffers: the embedding matrix (twice), the offsets, the output. -/
theorem arrImage3 : Finset.univ.image (Pipeline.arrRef spec3) = {main_v12, main_v15, main_v16} := by decide

/-- No window's array is one of the core's scoped buffers. -/
theorem arrUnscoped3 : ∀ w, (Pipeline.arrRef spec3 w).isScoped = false := by decide

/-- The three buffers, each whole at the full share, one by one. -/
theorem arrBufs3_eq (c : Dev nD) (W : (b : Ref sig .tc) → Buf (Elt F) ((c : Thread nD τ).loc b)) :
    (Pipeline.arrBufs (Ix := Unit) (Name := ℕ) (U := UR sig nD τ) (Lvl := ℕ) spec3 c W : sProp 𝕄)
      = iprop((((c : Thread nD τ).loc main_v12) ↦{fullShare} W main_v12) ∗ (((c : Thread nD τ).loc main_v15) ↦{fullShare} W main_v15)
          ∗ (((c : Thread nD τ).loc main_v16) ↦{fullShare} W main_v16)) := by
  unfold Pipeline.arrBufs
  rw [arrImage3, bigSep_insert (by decide), bigSep_insert (by decide), bigSep_singleton]
  rfl

/-- The launch's windowed arrays, window by window: the embedding matrix's buffer at the left half of the share for
    the rows' window and at the right half for the whole-matrix window, the offsets' and the output's at the whole
    share. -/
theorem arrays3_eq (c : Dev nD) (G : (w : Fin cfg3.W) → Buf (Elt F) ((cfg3.win w).arr.view.loc (c : Thread nD τ))) :
    (pd3 V c).arrays G
      = iprop((((c : Thread nD τ).loc main_v12) ↦{fullShare.left} G 0) ∗ (((c : Thread nD τ).loc main_v12) ↦{fullShare.right} G 1)
          ∗ (((c : Thread nD τ).loc main_v15) ↦{fullShare} G 2) ∗ (((c : Thread nD τ).loc main_v16) ↦{fullShare} G 3)) := by
  unfold Dat.arrays
  rw [bigSep_W3]
  have h0 : (cfg3.win 0).arr.view.set = Finset.univ := (arr_whole3 0).set_eq_univ
  have h2 : (cfg3.win 2).arr.view.set = Finset.univ := (arr_whole3 2).set_eq_univ
  have h3 : (cfg3.win 3).arr.view.set = Finset.univ := (arr_whole3 3).set_eq_univ
  rw [h0, h2, h3]
  rfl

/-- The core's unscoped buffers at any contents: the three buffers the windows name, and the rest. -/
theorem split3 (c : Dev nD) (W : (b : Ref sig .tc) → Buf (Elt F) ((c : Thread nD τ).loc b)) :
    (unscopedBufs c W : sProp 𝕄)
      = iprop(Pipeline.arrBufs (Ix := Unit) (Name := ℕ) (U := UR sig nD τ) (Lvl := ℕ) spec3 c W
          ∗ Pipeline.unscopedRest (Ix := Unit) (Name := ℕ) (U := UR sig nD τ) (Lvl := ℕ) spec3 c W) :=
  Pipeline.unscopedBufs_split₀ cfgs 3 arrUnscoped3 c W

/-! ## Entry and exit -/

/-- ENTRY: the core's unscoped buffers at the contents the launch finds are its windowed arrays at those contents,
    the embedding matrix's full share cut in two along its halves, and the buffers no window names. -/
theorem entry3 (c : Dev nD) :
    (unscopedBufs c (V c) : sProp 𝕄)
      ⊢ iprop((pd3 V c).arrays ((pd3 V c).arrAt · 0)
          ∗ Pipeline.unscopedRest (Ix := Unit) (Name := ℕ) (U := UR sig nD τ) (Lvl := ℕ) spec3 c (V c)) := by
  rw [split3, arrBufs3_eq, arrays3_eq]
  refine sep_mono ?_ .rfl
  iintro ⟨H12, H15, H16⟩
  ihave H := (pointsTo_share (PosShare.mem_left_op_right fullShare)).1 $$ H12
  icases H with ⟨Hl, Hr⟩
  isplitl [Hl]; · iexact Hl
  isplitl [Hr]; · iexact Hr
  isplitl [H15]; · iexact H15
  iexact H16

/-- EXIT: the windowed arrays as the launch leaves them and the buffers no window names are the core's unscoped
    buffers at any contents that have each windowed array at what the launch left and the rest as before: the two
    halves of the embedding matrix's share, both at the contents found, make the full share again. -/
theorem exit3 (c : Dev nD) (V' : (b : Ref sig .tc) → Buf (Elt F) ((c : Thread nD τ).loc b))
    (hF : ∀ w, (pd3 V c).arrAt w cfg3.N = V' (Pipeline.arrRef spec3 w))
    (hrest : ∀ b, b ∉ Finset.univ.image (Pipeline.arrRef spec3) → V' b = V c b) :
    iprop((pd3 V c).arrays ((pd3 V c).arrAt · cfg3.N)
        ∗ Pipeline.unscopedRest (Ix := Unit) (Name := ℕ) (U := UR sig nD τ) (Lvl := ℕ) spec3 c (V c))
      ⊢ (unscopedBufs c V' : sProp 𝕄) := by
  rw [split3, arrBufs3_eq, arrays3_eq]
  refine sep_mono ?_ (Entails.of_eq ?_)
  · rw [hF 0, hF 1, hF 2, hF 3]
    iintro ⟨Hl, Hr, H15, H16⟩
    isplitl [Hl Hr]
    · iapply (pointsTo_share (PosShare.mem_left_op_right fullShare)).2
      isplitl [Hl]; · iexact Hl
      iexact Hr
    isplitl [H15]; · iexact H15
    iexact H16
  · unfold Pipeline.unscopedRest
    exact bigSep_congr fun b hb => by rw [hrest b (Finset.mem_sdiff.mp hb).2]

end

end Cert.Kernel.Hand

end
-- ==== Proof.K.Regs.lean ====
/-
  The four launches of the program as steps of one run.

  Between two items a core holds every buffer that is no staging buffer whole, at the contents the fold of the program
  gives for that boundary, beside its generator register and the record that it owes nothing. A launch takes its windows'
  arrays out of those buffers, runs its pipeline over them, and puts them back at the contents its pipeline leaves: this
  module says so once for any launch, and then four times, with the proof data and the per-point obligations of the
  four launches. The first three launches read distinct arrays, each held whole; the last reads one array through two
  windows, each holding half of it.
-/
import proofs.«412745_j39127152066566_3_alg».proof.Proof.K.Chain
import proofs.«412745_j39127152066566_3_alg».proof.Proof.K.Share3
import Idealize.ShloMosaic.Lib.Pipeline.Kit
import Idealize.ShloMosaic.Lib.Pipeline.Frame
import Idealize.ShloMosaic.Lib.Pipeline.Regions
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The proof data, and what rides beside the buffers -/

/-- Each launch's proof data, at the contents the launch is entered from. -/
def pdats : (p : Fin 4) → (c : Dev nD) → Dat τ (Elt F) Unit ℕ (UR sig nD τ) ℕ (Pipeline.pin (pcfgs (F := F)) adm p) c
  | ⟨0, _⟩ => fun c => pd0 (fun c b => Y1 m c b) c
  | ⟨1, _⟩ => fun c => pd1 (fun c b => Y3 m c b) c
  | ⟨2, _⟩ => fun c => pd2 (fun c b => Y4 m c b) c
  | ⟨3, _⟩ => fun c => pd3 (fun c b => Y6 m c b) c

/-- No variant, no level: no core owes another anything in this program. -/
abbrev 𝒱₀ : Variants := Variants.none
abbrev L : GSem nD τ sig → Finset Unit := fun _ => ∅
abbrev lv : GSem nD τ sig → Unit → ℕ := fun _ _ => 0

/-- Beside its buffers a core carries its generator register, at some state, and the record that it owes nothing. -/
abbrev R (c : Dev nD) : sProp 𝕄 :=
  iprop((∃ r, prngReg c r) ∗ ∃ W, owes (c : Thread nD τ) (0 : CellTallies nD τ sig Unit) W)

/-- A stretch of conversions, constructions or reductions as a step: from every unscoped buffer at W to the same
    buffers with each operation's result written, the rest untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## Into a launch and out of it, whatever the launch -/

section Generic
variable {cfg : Pipeline.Cfg sig Λ₀} (c : Dev nD) (dat : Dat τ (Elt F) Unit ℕ (UR sig nD τ) ℕ cfg c)

/-- ENTRY. If the buffers at V split into the launch's arrays as its proof data find them and a remainder Z, and the
    data owe nothing at the first point and bound the recorded pairs by nothing, then the core's state at V gives the
    arrays, whatever T costs nothing, the record of owing nothing, the generator register, and Z. What else is offered
    (S) is not needed. -/
theorem enter (V : Valuation τ sig (Elt F)) (T Z S : sProp 𝕄)
    (hsplit : (StableHlo.held (c : Thread nD τ) (Pipeline.ucRefs τ sig) V : sProp 𝕄) ⊢ iprop(dat.arrays (dat.arrAt · 0) ∗ Z))
    (hT : (BI.emp : sProp 𝕄) ⊢ T) (howed : dat.owed 0 = 0) (hrec : dat.recorded 0 = Set.univ) :
    iprop((StableHlo.held (c : Thread nD τ) (Pipeline.ucRefs τ sig) V ∗ R c) ∗ S)
      ⊢ |={Set.univ}=> iprop(dat.arrays (dat.arrAt · 0) ∗ T ∗ dat.owesAt () 0 ∗ (∃ r, prngReg c r) ∗ Z) := by
  iintro ⟨⟨Hh, Hp, HO⟩, -⟩
  ihave H := hsplit $$ Hh
  icases H with ⟨Ha, Hz⟩
  imodintro
  isplitl [Ha]; · iexact Ha
  isplitr; · iapply hT; iempintro
  isplitl [HO]
  · unfold Pipeline.Dat.owesAt Pipeline.owesWithin
    rw [howed]
    icases HO with ⟨%W, HO⟩
    iexists W
    isplitr; · ipureintro; exact fun x _ => Or.inl (hrec ▸ Set.mem_univ x)
    iexact HO
  isplitl [Hp]; · iexact Hp
  iexact Hz

/-- EXIT. If the launch's arrays at G and the remainder Z join into the buffers at V', and the data owe nothing after
    the last point, then arrays, record, register and remainder give the core's state at V'. -/
theorem leave (V' : Valuation τ sig (Elt F)) (Z : sProp 𝕄)
    (G : (w : Fin cfg.W) → Buf (Elt F) ((cfg.win w).arr.view.loc (c : Thread nD τ)))
    (hjoin : iprop(dat.arrays G ∗ Z) ⊢ (StableHlo.held (c : Thread nD τ) (Pipeline.ucRefs τ sig) V' : sProp 𝕄))
    (howed : dat.owed (Fin.last cfg.N) = 0) :
    iprop(dat.arrays G ∗ dat.owesAt () (Fin.last cfg.N) ∗ (∃ r, prngReg c r) ∗ Z) ⊢ |={Set.univ}=> iprop(StableHlo.held (c : Thread nD τ) (Pipeline.ucRefs τ sig) V' ∗ R c) := by
  iintro ⟨Ha, HO, Hp, Hz⟩
  imodintro
  isplitl [Ha Hz]
  · iapply hjoin; isplitl [Ha] <;> iassumption
  isplitl [Hp]; · iexact Hp
  unfold Pipeline.Dat.owesAt Pipeline.owesWithin
  rw [howed]
  icases HO with ⟨%W, -, HO⟩
  iexists W; iexact HO

end Generic

/-- The plain invariant of a launch — the scoped buffers no window stages, and the generator register — is made of the
    register and those buffers; -/
theorem inv_in {gr W : Nat} (win : Fin W → Pipeline.WinSpec sig gr) (c : Dev nD) (T : sProp 𝕄) :
    iprop((∃ r, prngReg c r) ∗ T ∗ Pipeline.scopedRest win c)
      ⊢ (Pipeline.ΦA (U := UR sig nD τ) (Val := Elt F) win c : sProp 𝕄) := by
  unfold Pipeline.ΦA
  iintro ⟨Hp, -, Hr⟩
  isplitl [Hr]; · iexact Hr
  iexact Hp

/-- and gives them back, beside the kernel's own semaphores at zero when it has none. -/
theorem inv_out {gr W : Nat} (win : Fin W → Pipeline.WinSpec sig gr) (c : Dev nD) :
    (Pipeline.ΦA (U := UR sig nD τ) (Val := Elt F) win c : sProp 𝕄)
      ⊢ iprop((∃ r, prngReg c r) ∗ Pipeline.ownSems0 (fun k : PEmpty => k.elim) c ∗ Pipeline.scopedRest win c) := by
  rw [Pipeline.ownSems0_none]
  unfold Pipeline.ΦA
  iintro ⟨Hr, Hp⟩
  isplitl [Hp]; · iexact Hp
  isplitr; · iempintro
  iexact Hr

/-! ## The four launches -/

set_option backward.isDefEq.respectTransparency.types false in
/-- THE FIRST PRODUCT: entered from the contents after the conversions, left with the products' array rewritten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0 (fun c b => Y1 m c b) c).loose
  hwaits := Pipeline.hwaits_of_owed_zero _ _ _ _ L lv 0 fun _ _ => rfl
  pre c := iprop(StableHlo.held (c : Thread nD τ) (Pipeline.ucRefs τ sig) (Y1 m c) ∗ R c)
  post c := iprop(StableHlo.held (c : Thread nD τ) (Pipeline.ucRefs τ sig) (Y2 m c) ∗ R c)
  X c := iprop(∃ r, prngReg c r)
  Y c := iprop(∃ r, prngReg c r)
  Z c := Pipeline.unscopedRest (Ix := Unit) (Name := ℕ) (U := UR sig nD τ) (Lvl := ℕ) spec0 c (fun b => Y1 m c b)
  hentry c := enter c (pdats m 0 c) (Y1 m c) _ _ _
    (by
      have h := Pipeline.arrays_of_unscopedBufs (p := 0) (pcfgs (F := F)) adm (pdats m) launch0.win launch0.arr_whole c
        ((pdats m 0 c).share_full fun _ => rfl) (fun b => Y1 m c b) fun _ => rfl
      rwa [Pipeline.unscopedBufs_held] at h)
    (by unfold Pipeline.prefHeld; rw [show (Finset.univ : Finset (Fin 0)) = ∅ from rfl, BI.bigSep_empty])
    rfl rfl
  hin c := inv_in spec0 c _
  hout c := inv_out spec0 c
  hexit c := leave c (pdats m 0 c) (Y2 m c) _ _
    (by
      have h := Pipeline.unscopedBufs_of_arrays (p := 0) (pcfgs (F := F)) adm (Ix := Unit) (Name := ℕ) (U := UR sig nD τ) (Lvl := ℕ)
        launch0.win launch0.arr_whole c (pdats m) ((pdats m 0 c).share_full fun _ => rfl)
        (fun b => Y1 m c b) (fun b => Y2 m c b) ((pdats m 0 c).arrAt · cfg0.N) (Y2_arr m c) (Y2_rest m c)
      rwa [Pipeline.unscopedBufs_held] at h)
    rfl

set_option backward.isDefEq.respectTransparency.types false in
/-- THE SECOND LAUNCH: entered from the contents after the adjacency matrix is built, left with its output array rewritten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1 (fun c b => Y3 m c b) c).loose
  hwaits := Pipeline.hwaits_of_owed_zero _ _ _ _ L lv 1 fun _ _ => rfl
  pre c := iprop(StableHlo.held (c : Thread nD τ) (Pipeline.ucRefs τ sig) (Y3 m c) ∗ R c)
  post c := iprop(StableHlo.held (c : Thread nD τ) (Pipeline.ucRefs τ sig) (Y4 m c) ∗ R c)
  X c := iprop(∃ r, prngReg c r)
  Y c := iprop(∃ r, prngReg c r)
  Z c := Pipeline.unscopedRest (Ix := Unit) (Name := ℕ) (U := UR sig nD τ) (Lvl := ℕ) spec1 c (fun b => Y3 m c b)
  hentry c := enter c (pdats m 1 c) (Y3 m c) _ _ _
    (by
      have h := Pipeline.arrays_of_unscopedBufs (p := 1) (pcfgs (F := F)) adm (pdats m) launch1.win launch1.arr_whole c
        ((pdats m 1 c).share_full fun _ => rfl) (fun b => Y3 m c b) fun _ => rfl
      rwa [Pipeline.unscopedBufs_held] at h)
    (by unfold Pipeline.prefHeld; rw [show (Finset.univ : Finset (Fin 0)) = ∅ from rfl, BI.bigSep_empty])
    rfl rfl
  hin c := inv_in spec1 c _
  hout c := inv_out spec1 c
  hexit c := leave c (pdats m 1 c) (Y4 m c) _ _
    (by
      have h := Pipeline.unscopedBufs_of_arrays (p := 1) (pcfgs (F := F)) adm (Ix := Unit) (Name := ℕ) (U := UR sig nD τ) (Lvl := ℕ)
        launch1.win launch1.arr_whole c (pdats m) ((pdats m 1 c).share_full fun _ => rfl)
        (fun b => Y3 m c b) (fun b => Y4 m c b) ((pdats m 1 c).arrAt · cfg1.N) (Y4_arr m c) (Y4_rest m c)
      rwa [Pipeline.unscopedBufs_held] at h)
    rfl

set_option backward.isDefEq.respectTransparency.types false in
/-- THE THIRD LAUNCH: entered where the second left, left with its output array rewritten. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body2 (fun c b => Y4 m c b) c).loose
  hwaits := Pipeline.hwaits_of_owed_zero _ _ _ _ L lv 2 fun _ _ => rfl
  pre c := iprop(StableHlo.held (c : Thread nD τ) (Pipeline.ucRefs τ sig) (Y4 m c) ∗ R c)
  post c := iprop(StableHlo.held (c : Thread nD τ) (Pipeline.ucRefs τ sig) (Y5 m c) ∗ R c)
  X c := iprop(∃ r, prngReg c r)
  Y c := iprop(∃ r, prngReg c r)
  Z c := Pipeline.unscopedRest (Ix := Unit) (Name := ℕ) (U := UR sig nD τ) (Lvl := ℕ) spec2 c (fun b => Y4 m c b)
  hentry c := enter c (pdats m 2 c) (Y4 m c) _ _ _
    (by
      have h := Pipeline.arrays_of_unscopedBufs (p := 2) (pcfgs (F := F)) adm (pdats m) launch2.win launch2.arr_whole c
        ((pdats m 2 c).share_full fun _ => rfl) (fun b => Y4 m c b) fun _ => rfl
      rwa [Pipeline.unscopedBufs_held] at h)
    (by unfold Pipeline.prefHeld; rw [show (Finset.univ : Finset (Fin 0)) = ∅ from rfl, BI.bigSep_empty])
    rfl rfl
  hin c := inv_in spec2 c _
  hout c := inv_out spec2 c
  hexit c := leave c (pdats m 2 c) (Y5 m c) _ _
    (by
      have h := Pipeline.unscopedBufs_of_arrays (p := 2) (pcfgs (F := F)) adm (Ix := Unit) (Name := ℕ) (U := UR sig nD τ) (Lvl := ℕ)
        launch2.win launch2.arr_whole c (pdats m) ((pdats m 2 c).share_full fun _ => rfl)
        (fun b => Y4 m c b) (fun b => Y5 m c b) ((pdats m 2 c).arrAt · cfg2.N) (Y5_arr m c) (Y5_rest m c)
      rwa [Pipeline.unscopedBufs_held] at h)
    rfl

set_option backward.isDefEq.respectTransparency.types false in
/-- THE LAST LAUNCH: entered from the contents after the row reductions, left with the result array rewritten. Two of its windows read one array, half a share each; taking the arrays out and putting them back is the work of the module on that sharing. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body3 (fun c b => Y6 m c b) c).loose
  hwaits := Pipeline.hwaits_of_owed_zero _ _ _ _ L lv 3 fun _ _ => rfl
  pre c := iprop(StableHlo.held (c : Thread nD τ) (Pipeline.ucRefs τ sig) (Y6 m c) ∗ R c)
  post c := iprop(StableHlo.held (c : Thread nD τ) (Pipeline.ucRefs τ sig) (Y7 m c) ∗ R c)
  X c := iprop(∃ r, prngReg c r)
  Y c := iprop(∃ r, prngReg c r)
  Z c := Pipeline.unscopedRest (Ix := Unit) (Name := ℕ) (U := UR sig nD τ) (Lvl := ℕ) spec3 c (fun b => Y6 m c b)
  hentry c := enter c (pdats m 3 c) (Y6 m c) _ _ _
    (by
      have h := entry3 (fun c b => Y6 m c b) c
      beta_reduce at h
      rw [Pipeline.unscopedBufs_held] at h
      exact h)
    (by unfold Pipeline.prefHeld; rw [show (Finset.univ : Finset (Fin 0)) = ∅ from rfl, BI.bigSep_empty])
    rfl rfl
  hin c := inv_in spec3 c _
  hout c := inv_out spec3 c
  hexit c := leave c (pdats m 3 c) (Y7 m c) _ _
    (by
      have h := exit3 (fun c b => Y6 m c b) c (fun b => Y7 m c b) (Y7_arr m c) (Y7_rest m c)
      beta_reduce at h
      rw [Pipeline.unscopedBufs_held] at h
      exact h)
    rfl

end Cert.Kernel.Hand

end
-- ==== Proof.K.Run.lean ====
/-
  The whole program, run.

  The program is seven items in a row: three conversions, the first pipelined product, nine operations that build the
  dense adjacency matrix, two pipelined products with it, four operations that reduce the squared rows, and the last
  pipelined launch. Between two items the core holds every unscoped buffer whole, at contents that are a function of the
  launch memory alone; beside them ride the generator register, at some state, and the core's dues, at nothing. Each
  stretch of host operations takes the buffers from the contents at its boundary to those contents folded through its
  operations; each launch is entered from the contents before it and left at those with its output array rewritten to
  what its pipeline leaves. So every link of the chain is an identity, and the last state — read against a final memory —
  gives the result buffer at what the last launch leaves and each argument buffer at what the launch memory held.
-/
import proofs.«412745_j39127152066566_3_alg».proof.Proof.K.Regs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## The program as a list of segments -/

/-- What the core's unscoped buffers hold at the launch. -/
abbrev launchVal (c : Dev nD) : Valuation τ sig (Elt F) := fun b => m (c, b)

/-- The last thread state without what the core owes: every unscoped buffer at the contents at the return, the
    generator register at some state. -/
abbrev lastState (c : Dev nD) : sProp 𝕄 :=
  iprop(StableHlo.held (c : Thread nD τ) (Pipeline.ucRefs τ sig) (Y7 m c) ∗ ∃ r, prngReg c r)

/-- The program's seven items in order: each stretch of host operations from the contents at its boundary, each
    launch its region record. -/
abbrev runSegs : List (Pipeline.Seg (pcfgs (F := F)) adm (pdats m) () defs₀ 𝒱₀ L lv) :=
  [ .host (hseg hostOps0 hostOps0_sub hostOps0_fresh (launchVal m)),
    .region (reg0 m),
    .host (hseg hostOps1 hostOps1_sub hostOps1_fresh (Y2 m)),
    .region (reg1 m),
    .region (reg2 m),
    .host (hseg hostOps3 hostOps3_sub hostOps3_fresh (Y5 m)),
    .region (reg3 m) ]

/-- An unscoped reference of the core is among those the thread state holds. -/
theorem ucMem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The two ends of the chain -/

/-- The launch element is the pipelines' own, and no core is handed a ghost resource. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  -- owning the launch element in the user algebra is, by definition, owning its image
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  rw [BI.bigSep_emp_const]
  iintro Hown
  imodintro
  isplitl [Hown]
  · iapply hown; iexact Hown
  · iempintro

/-- What the last launch leaves — the buffers at the return beside the register and the dues — regrouped: the dues,
    at nothing, stand apart from the rest. -/
theorem last_regroup (c : Dev nD) :
    (iprop(StableHlo.held (c : Thread nD τ) (Pipeline.ucRefs τ sig) (Y7 m c) ∗ R c) : sProp 𝕄)
      ⊢ iprop(lastState m c ∗ ∃ W, owes (c : Thread nD τ) (0 : CellTallies nD τ sig Unit) W) := by
  iintro ⟨Hbufs, Hreg, Hdues⟩
  isplitr [Hdues]
  · isplitl [Hbufs]
    · iexact Hbufs
    · iexact Hreg
  · iexact Hdues

/-! ## The run -/

set_option backward.isDefEq.respectTransparency.types false in
/-- From any memory with every counter at zero, every weakly fair execution of the program terminates; at the end
    the result buffer holds what the last launch's pipeline leaves there — the folded write-backs, a function of the
    launch memory alone — and every argument buffer what it held at the launch. -/
theorem run_full (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v16) = o16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit (pcfgs (F := F)) adm (pdats m) () cellOf_inj emb₁ defs₀ 𝒱₀ L lv m ρ main (runSegs m)
    (fun c Q => ?hmain) ?hnd (O₀ := 0) (hL := fun _ _ => rfl) (G := fun _ => iprop(emp))
    (u₀ := initOf (Pipeline.cells cfgs cellOf_inj) (Pipeline.launchToks cfgs cellOf_inj)) (hu₀ := launch_ghost)
    (T₀ := fun c => iprop(StableHlo.held (c : Thread nD τ) (Pipeline.ucRefs τ sig) (launchVal m c) ∗ R c))
    (Tₙ := lastState m)
    (hch := ⟨fun _ => .rfl, fun _ => .rfl, fun _ => .rfl, fun _ => .rfl, fun _ => .rfl, fun _ => .rfl, fun _ => .rfl,
      fun c => last_regroup m c⟩)
    (hinit := ?hinit)
    (QY := fun c s => s.mem ((c.tc : Thread nD τ).loc main_v16) = o16 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?hfin) (hQ := fun _ h => h)
  case hmain =>
    -- the program is the run of its seven items
    rewrite [main_segs adm (pdats m) () 𝒱₀ L lv
      (hseg hostOps0 hostOps0_sub hostOps0_fresh (launchVal m))
      (hseg hostOps1 hostOps1_sub hostOps1_fresh (Y2 m))
      (hseg hostOps3 hostOps3_sub hostOps3_fresh (Y5 m))
      (reg0 m) (reg1 m) (reg2 m) (reg3 m) rfl rfl rfl c]
    exact .rfl
  case hnd =>
    -- the four pipelines are entered once each
    simp only [runSegs, Pipeline.Seg.pipes_host, Pipeline.Seg.pipes_region, Pipeline.Seg.pipes_nil]
    decide
  case hinit =>
    -- core by core: the unscoped buffers at the launch memory are the first state's buffers; the generator register and
    -- the dues (nothing, to nobody) are the rest; the counters, the credit and the level facts are not needed
    refine Pipeline.initEach L lv fun c => ?_
    rw [Pipeline.unscopedBufs_held c (launchVal m c)]
    iintro ⟨⟨Hbufs, -, Hdues, -, Hreg, -⟩, -⟩
    imodintro
    isplitl [Hbufs]
    · iexact Hbufs
    · isplitl [Hreg]
      · iexists (ρ c); iexact Hreg
      · iexists ∅; iexact Hdues
  case hfin =>
    -- the last state against a final memory: every unscoped buffer is read at the contents at the return, which have
    -- the result at what the last launch leaves and each argument at its launch contents
    iintro ⟨⟨Hbufs, -⟩, HSI⟩
    unfold StableHlo.held
    ihave Hread := (pointsTo_read_all (Pipeline.ucRefs τ sig) (fun b => ((c : Thread nD τ).1, b)) (Y7 m c) s') $$ [Hbufs HSI]
    · isplitl [Hbufs] <;> iassumption
    icases Hread with ⟨%hmem, HSI⟩
    imodintro
    isplitr
    · ipureintro
      exact ⟨(hmem _ (ucMem main_v16 (by decide))).trans (Y7_main_v16 m c),
        (hmem _ (ucMem main_arg0 (by decide))).trans (Y7_main_arg0 m c),
        (hmem _ (ucMem main_arg1 (by decide))).trans (Y7_main_arg1 m c),
        (hmem _ (ucMem main_arg2 (by decide))).trans (Y7_main_arg2 m c),
        (hmem _ (ucMem main_arg3 (by decide))).trans (Y7_main_arg3 m c),
        (hmem _ (ucMem main_arg4 (by decide))).trans (Y7_main_arg4 m c),
        (hmem _ (ucMem main_arg5 (by decide))).trans (Y7_main_arg5 m c)⟩
    · iexact HSI

end Cert.Kernel.Hand

end
-- ==== Proof.KI.Reg0.lean ====
/-
  The first matrix product, X · W1, as one pipelined launch: 16 grid points, point t taking rows 512 t … 512 t + 511
  of the (converted) feature matrix and the whole weight matrix, and leaving the 512 × 256 block of products.

  This module states, for ANY contents V of the core's buffers at the moment the launch is entered: what block of its
  array each window hands the body at a point; what the body leaves in the output window's buffer as a function of
  the two input blocks (its single whole-block store of the product); that the body, run on buffers holding those
  blocks, terminates leaving exactly that and its inputs untouched; and, from this, the per-point obligation the
  pipeline asks of the body, over proof data that record the arrays at V and, after each point, each input buffer at
  its block and the output buffer at the product.
-/
import proofs.«412745_j39127152066566_3_alg».proof.Proof.Gen.KernelIdeal.Launch
import proofs.«412745_j39127152066566_3_alg».proof.Proof.Gen.KernelIdeal.Skeleton
import proofs.«412745_j39127152066566_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the windows hand the body -/

/-- Window w's block at point t: the part of its array, as the launch finds it, that the window's index map selects. -/
def inBlk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The rows' window: whatever proof data record the array at V and leave the block in place, its buffer holds the
    point's block, whether or not a transfer brought it at this very point. -/
theorem holds0_0 {c : Dev nD} (pd : Dat τ (Elt F) Unit ℕ (UR sig nD τ) ℕ cfg0 c) (hA : pd.A 0 = V c (Pipeline.arrRef spec0 0))
    (hkeep : ∀ t, pd.after 0 t = inBlk0 V c 0 t) (t : Fin cfg0.N) (d) : pd.before 0 t d = inBlk0 V c 0 t :=
  (pd.before_in_eq_fetched 0 rfl (fun _ => rfl) (fun _ _ _ => rfl)
    (fun t => by rw [hkeep]; unfold Dat.blockOf inBlk0; rw [hA]; try rfl) t d).trans
    (by unfold Dat.fetched Dat.blockOf inBlk0; rw [hA]; try rfl)

/-- The weights' window, brought once and kept: the same. -/
theorem holds0_1 {c : Dev nD} (pd : Dat τ (Elt F) Unit ℕ (UR sig nD τ) ℕ cfg0 c) (hA : pd.A 1 = V c (Pipeline.arrRef spec0 1))
    (hkeep : ∀ t, pd.after 1 t = inBlk0 V c 1 t) (t : Fin cfg0.N) (d) : pd.before 1 t d = inBlk0 V c 1 t :=
  (pd.before_in_eq_fetched 1 rfl (fun _ => rfl) (fun _ _ _ => rfl)
    (fun t => by rw [hkeep]; unfold Dat.blockOf inBlk0; rw [hA]; try rfl) t d).trans
    (by unfold Dat.fetched Dat.blockOf inBlk0; rw [hA]; try rfl)

/-! ## What the body leaves -/

/-- The whole 512 × 1024 block, the whole 1024 × 256 block and the whole 512 × 256 block, as rectangles. -/
abbrev whole0_a : Rect S512x1024 := Rect.unit (s := S512x1024) ![0, 0] S512x1024.size inb_S512x1024_S512x1024_0_0
abbrev whole0_b : Rect S1024x256 := Rect.unit (s := S1024x256) ![0, 0] S1024x256.size inb_S1024x256_S1024x256_0_0
abbrev whole0_o : Rect S512x256 := Rect.unit (s := S512x256) ![0, 0] S512x256.size inb_S512x256_S512x256_0_0

/-- The output buffer after the body: its one store, of the product of the two loaded blocks, over the whole buffer. -/
def res0 (a : Vec F S512x1024 .bf16) (b : Vec F S1024x256 .bf16) : Vec F S512x256 .bf16 :=
  View.canon [⟨whole0_o, k0_pay1 (View.ld a whole0_a) (View.ld b whole0_b)⟩]

/-- That store covers the buffer. -/
theorem covers0 (v : Vec F S512x256 .bf16) (y : S512x256.Idx) :
    ∃ pc ∈ ([⟨whole0_o, v⟩] : List (View.Piece (Elt F) S512x256 .bf16)), y ∈ pc.1.set :=
  View.cover_of_tiled [⟨whole0_o, v⟩] S512x256.size (by rfl) y

/-! ## The body runs -/

set_option maxHeartbeats 1000000 in
/-- On whole buffers, the inputs' holding a and b and the output's anything, the body terminates with the inputs'
    as they were and the output's at res0 a b. -/
theorem runs0 (c : Dev nD) (E : Set ℕ) (i : grid0.Coords)
    (arg1 : Memref sig .tc .vmem S512x1024 .bf16) (harg1 : arg1.IsWhole)
    (arg2 : Memref sig .tc .vmem S1024x256 .bf16) (harg2 : arg2.IsWhole)
    (arg3 : Memref sig .tc .vmem S512x256 .bf16) (harg3 : arg3.IsWhole)
    (a : Vec F S512x1024 .bf16) (b : Vec F S1024x256 .bf16) (K : PUnit → sProp 𝕄) :
    iprop(owns (c : Thread nD τ) arg1 fullShare a ∗ owns (c : Thread nD τ) arg2 fullShare b
        ∗ (∃ d, owns (c : Thread nD τ) arg3 fullShare d)
        ∗ (iprop(owns (c : Thread nD τ) arg1 fullShare a ∗ owns (c : Thread nD τ) arg2 fullShare b
            ∗ owns (c : Thread nD τ) arg3 fullShare (res0 a b)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-! ## The proof data and the obligation -/

/-- The launch's proof data on core c: the arrays as found (V); after the body at point t the two input buffers at
    their blocks and the output buffer at the blocks' product; the invariant the plain one (nothing of the core's own
    besides the staging buffers is touched); nothing owed; whole shares. -/
def pd0 (c : Dev nD) : Dat τ (Elt F) Unit ℕ (UR sig nD τ) ℕ cfg0 c where
  A w := V c (Pipeline.arrRef spec0 w)
  after w t := match w with
    | ⟨0, _⟩ => inBlk0 V c 0 t
    | ⟨1, _⟩ => inBlk0 V c 1 t
    | ⟨2, _⟩ => res0 (inBlk0 V c 0 t) (inBlk0 V c 1 t)
  Φ _ := Pipeline.ΦA spec0 c
  q _ := fullShare
  owed _ := 0

theorem pd0_A (c : Dev nD) (w : Fin cfg0.W) : (pd0 V c).A w = V c (Pipeline.arrRef spec0 w) := by
  dsimp only [pd0]

theorem pd0_after_0 (c : Dev nD) (t : Fin cfg0.N) : (pd0 V c).after 0 t = inBlk0 V c 0 t := by dsimp only [pd0]
theorem pd0_after_1 (c : Dev nD) (t : Fin cfg0.N) : (pd0 V c).after 1 t = inBlk0 V c 1 t := by dsimp only [pd0]
theorem pd0_after_2 (c : Dev nD) (t : Fin cfg0.N) :
    (pd0 V c).after 2 t = res0 (inBlk0 V c 0 t) (inBlk0 V c 1 t) := by dsimp only [pd0]

theorem pd0_before_0 (c : Dev nD) (t : Fin cfg0.N) (d) : (pd0 V c).before 0 t d = inBlk0 V c 0 t :=
  holds0_0 V (pd0 V c) (pd0_A V c 0) (pd0_after_0 V c) t d
theorem pd0_before_1 (c : Dev nD) (t : Fin cfg0.N) (d) : (pd0 V c).before 1 t d = inBlk0 V c 1 t :=
  holds0_1 V (pd0 V c) (pd0_A V c 1) (pd0_after_1 V c) t d

/-- What the body is handed at point t, the windows one by one, -/
def handed0 (c : Dev nD) (t : Fin cfg0.N) : sProp 𝕄 :=
  iprop((pd0 V c).Φ t.castSucc ∗ (pd0 V c).owesAt () t.castSucc
    ∗ (∃ d, owns (c : Thread nD τ) (st0_0 t) fullShare ((pd0 V c).before 0 t d))
    ∗ (∃ d, owns (c : Thread nD τ) (st0_1 t) fullShare ((pd0 V c).before 1 t d))
    ∗ (∃ d, owns (c : Thread nD τ) (st0_2 t) fullShare ((pd0 V c).before 2 t d)))

/-- and what it hands back. -/
def returned0 (c : Dev nD) (t : Fin cfg0.N) : sProp 𝕄 :=
  iprop((pd0 V c).Φ t.succ ∗ (pd0 V c).owesAt () t.succ
    ∗ owns (c : Thread nD τ) (st0_0 t) fullShare ((pd0 V c).after 0 t)
    ∗ owns (c : Thread nD τ) (st0_1 t) fullShare ((pd0 V c).after 1 t)
    ∗ owns (c : Thread nD τ) (st0_2 t) fullShare ((pd0 V c).after 2 t))

/-- The body at any point: the input buffers hold their blocks, so runs0 applies; the invariant and what the core owes
    pass through unread. -/
theorem point0 (c : Dev nD) (t : Fin cfg0.N) :
    handed0 V c t ⊢ wp frame (wpE (defs₀ (F := F)) Variants.none c none) Set.univ (bodyAt0 t) (fun _ => returned0 V c t) := by
  unfold handed0 returned0 bodyAt0
  simp only [pd0_before_0, pd0_before_1]
  rw [show (pd0 V c).Φ t.succ = (pd0 V c).Φ t.castSucc from rfl,
    show (pd0 V c).owesAt () t.succ = (pd0 V c).owesAt () t.castSucc from rfl,
    pd0_after_0, pd0_after_1, pd0_after_2]
  iintro ⟨HΦ, Ho, ⟨%d0, H0⟩, ⟨%d1, H1⟩, ⟨%d2, H2⟩⟩
  iapply (runs0 c Set.univ _ _ _ _ _ _ _ (inBlk0 V c 0 t) (inBlk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body0 (c : Dev nD) : BodyObligation (pd0 (F := F) V c) (defs₀ (F := F)) Variants.none () Set.univ := fun t => by
  rw [bigSep_W0, bigSep_W0]
  exact point0 V c t

end

end Cert.KernelIdeal.Hand

end
-- ==== Proof.KI.Reg1.lean ====
/-
  The aggregation with the two-layer tail, relu (A · H) · W2, as one pipelined launch: 32 grid points, point t taking
  rows 256 t … 256 t + 255 of the 8192 × 8192 matrix A together with the whole 8192 × 256 matrix H and the whole
  256 × 64 matrix W2, and leaving the 256 × 64 block of results.

  This module states, for ANY contents V of the core's buffers at the moment the launch is entered: what block of its
  array each window hands the body at a point; what the body leaves in the output window's buffer as a function of
  the three input blocks (its single whole-block store); that the body, run on buffers holding those blocks,
  terminates leaving exactly that and its inputs untouched; and, from this, the per-point obligation the pipeline
  asks of the body, over proof data that record the arrays at V and, after each point, each input buffer at its
  block and the output buffer at the value computed from them.
-/
import proofs.«412745_j39127152066566_3_alg».proof.Proof.Gen.KernelIdeal.Launch
import proofs.«412745_j39127152066566_3_alg».proof.Proof.Gen.KernelIdeal.Skeleton
import proofs.«412745_j39127152066566_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the windows hand the body -/

/-- Window w's block at point t: the part of its array, as the launch finds it, that the window's index map selects. -/
def inBlk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The window on the rows of A: whatever proof data record the array at V and leave the block in place, its buffer
    holds the point's block, whether or not a transfer brought it at this very point. -/
theorem holds1_0 {c : Dev nD} (pd : Dat τ (Elt F) Unit ℕ (UR sig nD τ) ℕ cfg1 c) (hA : pd.A 0 = V c (Pipeline.arrRef spec1 0))
    (hkeep : ∀ t, pd.after 0 t = inBlk1 V c 0 t) (t : Fin cfg1.N) (d) : pd.before 0 t d = inBlk1 V c 0 t :=
  (pd.before_in_eq_fetched 0 rfl (fun _ => rfl) (fun _ _ _ => rfl)
    (fun t => by rw [hkeep]; unfold Dat.blockOf inBlk1; rw [hA]; try rfl) t d).trans
    (by unfold Dat.fetched Dat.blockOf inBlk1; rw [hA]; try rfl)

/-- The window on H, brought once and kept: the same. -/
theorem holds1_1 {c : Dev nD} (pd : Dat τ (Elt F) Unit ℕ (UR sig nD τ) ℕ cfg1 c) (hA : pd.A 1 = V c (Pipeline.arrRef spec1 1))
    (hkeep : ∀ t, pd.after 1 t = inBlk1 V c 1 t) (t : Fin cfg1.N) (d) : pd.before 1 t d = inBlk1 V c 1 t :=
  (pd.before_in_eq_fetched 1 rfl (fun _ => rfl) (fun _ _ _ => rfl)
    (fun t => by rw [hkeep]; unfold Dat.blockOf inBlk1; rw [hA]; try rfl) t d).trans
    (by unfold Dat.fetched Dat.blockOf inBlk1; rw [hA]; try rfl)

/-- The window on W2, brought once and kept: the same. -/
theorem holds1_2 {c : Dev nD} (pd : Dat τ (Elt F) Unit ℕ (UR sig nD τ) ℕ cfg1 c) (hA : pd.A 2 = V c (Pipeline.arrRef spec1 2))
    (hkeep : ∀ t, pd.after 2 t = inBlk1 V c 2 t) (t : Fin cfg1.N) (d) : pd.before 2 t d = inBlk1 V c 2 t :=
  (pd.before_in_eq_fetched 2 rfl (fun _ => rfl) (fun _ _ _ => rfl)
    (fun t => by rw [hkeep]; unfold Dat.blockOf inBlk1; rw [hA]; try rfl) t d).trans
    (by unfold Dat.fetched Dat.blockOf inBlk1; rw [hA]; try rfl)

/-! ## What the body leaves -/

/-- The whole 256 × 8192 block, the whole 8192 × 256 block and the whole 256 × 64 block, as rectangles. -/
abbrev whole1_a : Rect S256x8192 := Rect.unit (s := S256x8192) ![0, 0] S256x8192.size inb_S256x8192_S256x8192_0_0
abbrev whole1_h : Rect S8192x256 := Rect.unit (s := S8192x256) ![0, 0] S8192x256.size inb_S8192x256_S8192x256_0_0
abbrev whole1_o : Rect S256x64 := Rect.unit (s := S256x64) ![0, 0] S256x64.size inb_S256x64_S256x64_0_0

/-- The output buffer after the body: its one store, of the value computed from the three loaded blocks, over the
    whole buffer. -/
def res1 (a : Vec F S256x8192 .f32) (h : Vec F S8192x256 .bf16) (w : Vec F S256x64 .bf16) : Vec F S256x64 .f32 :=
  View.canon [⟨whole1_o, k1_pay1 (View.ld a whole1_a) (View.ld h whole1_h) (View.ld w whole1_o)⟩]

/-- That store covers the buffer. -/
theorem covers1 (v : Vec F S256x64 .f32) (y : S256x64.Idx) :
    ∃ pc ∈ ([⟨whole1_o, v⟩] : List (View.Piece (Elt F) S256x64 .f32)), y ∈ pc.1.set :=
  View.cover_of_tiled [⟨whole1_o, v⟩] S256x64.size (by rfl) y

/-! ## The body runs -/

set_option maxHeartbeats 1000000 in
/-- On whole buffers, the inputs' holding a, h and w and the output's anything, the body terminates with the inputs'
    as they were and the output's at res1 a h w. -/
theorem runs1 (c : Dev nD) (E : Set ℕ) (i : grid1.Coords)
    (arg1 : Memref sig .tc .vmem S256x8192 .f32) (harg1 : arg1.IsWhole)
    (arg2 : Memref sig .tc .vmem S8192x256 .bf16) (harg2 : arg2.IsWhole)
    (arg3 : Memref sig .tc .vmem S256x64 .bf16) (harg3 : arg3.IsWhole)
    (arg4 : Memref sig .tc .vmem S256x64 .f32) (harg4 : arg4.IsWhole)
    (a : Vec F S256x8192 .f32) (h : Vec F S8192x256 .bf16) (w : Vec F S256x64 .bf16) (K : PUnit → sProp 𝕄) :
    iprop(owns (c : Thread nD τ) arg1 fullShare a ∗ owns (c : Thread nD τ) arg2 fullShare h
        ∗ owns (c : Thread nD τ) arg3 fullShare w
        ∗ (∃ d, owns (c : Thread nD τ) arg4 fullShare d)
        ∗ (iprop(owns (c : Thread nD τ) arg1 fullShare a ∗ owns (c : Thread nD τ) arg2 fullShare h
            ∗ owns (c : Thread nD τ) arg3 fullShare w
            ∗ owns (c : Thread nD τ) arg4 fullShare (res1 a h w)) -∗ K ⟨⟩))
      ⊢ wp frame (wpE (defs₀ (F := F)) Variants.none c none) E
          (cc1__spmm_relu_mlp2_kernel i arg1 harg1 arg2 harg2 arg3 harg3 arg4 harg4) K := by
  simp only [cc1__spmm_relu_mlp2_kernel_eq_skeleton]; unfold cc1__spmm_relu_mlp2_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers1 _)

/-! ## The proof data and the obligation -/

/-- The launch's proof data on core c: the arrays as found (V); after the body at point t the three input buffers at
    their blocks and the output buffer at the value computed from those blocks; the invariant the plain one (nothing
    of the core's own besides the staging buffers is touched); nothing owed; whole shares. -/
def pd1 (c : Dev nD) : Dat τ (Elt F) Unit ℕ (UR sig nD τ) ℕ cfg1 c where
  A w := V c (Pipeline.arrRef spec1 w)
  after w t := match w with
    | ⟨0, _⟩ => inBlk1 V c 0 t
    | ⟨1, _⟩ => inBlk1 V c 1 t
    | ⟨2, _⟩ => inBlk1 V c 2 t
    | ⟨3, _⟩ => res1 (inBlk1 V c 0 t) (inBlk1 V c 1 t) (inBlk1 V c 2 t)
  Φ _ := Pipeline.ΦA spec1 c
  q _ := fullShare
  owed _ := 0

theorem pd1_A (c : Dev nD) (w : Fin cfg1.W) : (pd1 V c).A w = V c (Pipeline.arrRef spec1 w) := by
  dsimp only [pd1]

theorem pd1_after_0 (c : Dev nD) (t : Fin cfg1.N) : (pd1 V c).after 0 t = inBlk1 V c 0 t := by dsimp only [pd1]
theorem pd1_after_1 (c : Dev nD) (t : Fin cfg1.N) : (pd1 V c).after 1 t = inBlk1 V c 1 t := by dsimp only [pd1]
theorem pd1_after_2 (c : Dev nD) (t : Fin cfg1.N) : (pd1 V c).after 2 t = inBlk1 V c 2 t := by dsimp only [pd1]
theorem pd1_after_3 (c : Dev nD) (t : Fin cfg1.N) :
    (pd1 V c).after 3 t = res1 (inBlk1 V c 0 t) (inBlk1 V c 1 t) (inBlk1 V c 2 t) := by dsimp only [pd1]

theorem pd1_before_0 (c : Dev nD) (t : Fin cfg1.N) (d) : (pd1 V c).before 0 t d = inBlk1 V c 0 t :=
  holds1_0 V (pd1 V c) (pd1_A V c 0) (pd1_after_0 V c) t d
theorem pd1_before_1 (c : Dev nD) (t : Fin cfg1.N) (d) : (pd1 V c).before 1 t d = inBlk1 V c 1 t :=
  holds1_1 V (pd1 V c) (pd1_A V c 1) (pd1_after_1 V c) t d
theorem pd1_before_2 (c : Dev nD) (t : Fin cfg1.N) (d) : (pd1 V c).before 2 t d = inBlk1 V c 2 t :=
  holds1_2 V (pd1 V c) (pd1_A V c 2) (pd1_after_2 V c) t d

/-- What the body is handed at point t, the windows one by one, -/
def handed1 (c : Dev nD) (t : Fin cfg1.N) : sProp 𝕄 :=
  iprop((pd1 V c).Φ t.castSucc ∗ (pd1 V c).owesAt () t.castSucc
    ∗ (∃ d, owns (c : Thread nD τ) (st1_0 t) fullShare ((pd1 V c).before 0 t d))
    ∗ (∃ d, owns (c : Thread nD τ) (st1_1 t) fullShare ((pd1 V c).before 1 t d))
    ∗ (∃ d, owns (c : Thread nD τ) (st1_2 t) fullShare ((pd1 V c).before 2 t d))
    ∗ (∃ d, owns (c : Thread nD τ) (st1_3 t) fullShare ((pd1 V c).before 3 t d)))

/-- and what it hands back. -/
def returned1 (c : Dev nD) (t : Fin cfg1.N) : sProp 𝕄 :=
  iprop((pd1 V c).Φ t.succ ∗ (pd1 V c).owesAt () t.succ
    ∗ owns (c : Thread nD τ) (st1_0 t) fullShare ((pd1 V c).after 0 t)
    ∗ owns (c : Thread nD τ) (st1_1 t) fullShare ((pd1 V c).after 1 t)
    ∗ owns (c : Thread nD τ) (st1_2 t) fullShare ((pd1 V c).after 2 t)
    ∗ owns (c : Thread nD τ) (st1_3 t) fullShare ((pd1 V c).after 3 t))

/-- The body at any point: the input buffers hold their blocks, so runs1 applies; the invariant and what the core owes
    pass through unread. -/
theorem point1 (c : Dev nD) (t : Fin cfg1.N) :
    handed1 V c t ⊢ wp frame (wpE (defs₀ (F := F)) Variants.none c none) Set.univ (bodyAt1 t) (fun _ => returned1 V c t) := by
  unfold handed1 returned1 bodyAt1
  simp only [pd1_before_0, pd1_before_1, pd1_before_2]
  rw [show (pd1 V c).Φ t.succ = (pd1 V c).Φ t.castSucc from rfl,
    show (pd1 V c).owesAt () t.succ = (pd1 V c).owesAt () t.castSucc from rfl,
    pd1_after_0, pd1_after_1, pd1_after_2, pd1_after_3]
  iintro ⟨HΦ, Ho, ⟨%d0, H0⟩, ⟨%d1, H1⟩, ⟨%d2, H2⟩, ⟨%d3, H3⟩⟩
  iapply (runs1 c Set.univ _ _ _ _ _ _ _ _ _ (inBlk1 V c 0 t) (inBlk1 V c 1 t) (inBlk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of the body, at every point. -/
theorem body1 (c : Dev nD) : BodyObligation (pd1 (F := F) V c) (defs₀ (F := F)) Variants.none () Set.univ := fun t => by
  rw [bigSep_W1, bigSep_W1]
  exact point1 V c t

end

end Cert.KernelIdeal.Hand

end
-- ==== Proof.KI.Reg2.lean ====
/-
  The last matrix product, the 8192 × 8192 row-normalised matrix times the 8192 × 64 matrix, as one pipelined
  launch: 32 grid points, point t taking rows 256 t … 256 t + 255 of the left matrix and the whole right matrix, and
  leaving the 256 × 64 block of products.

  This module states, for ANY contents V of the core's buffers at the moment the launch is entered: what block of its
  array each window hands the body at a point; what the body leaves in the output window's buffer as a function of
  the two input blocks (its single whole-block store of the product); that the body, run on buffers holding those
  blocks, terminates leaving exactly that and its inputs untouched; and, from this, the per-point obligation the
  pipeline asks of the body, over proof data that record the arrays at V and, after each point, each input buffer at
  its block and the output buffer at the product.
-/
import proofs.«412745_j39127152066566_3_alg».proof.Proof.Gen.KernelIdeal.Launch
import proofs.«412745_j39127152066566_3_alg».proof.Proof.Gen.KernelIdeal.Skeleton
import proofs.«412745_j39127152066566_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the windows hand the body -/

/-- Window w's block at point t: the part of its array, as the launch finds it, that the window's index map selects. -/
def inBlk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The rows' window: whatever proof data record the array at V and leave the block in place, its buffer holds the
    point's block, whether or not a transfer brought it at this very point. -/
theorem holds2_0 {c : Dev nD} (pd : Dat τ (Elt F) Unit ℕ (UR sig nD τ) ℕ cfg2 c) (hA : pd.A 0 = V c (Pipeline.arrRef spec2 0))
    (hkeep : ∀ t, pd.after 0 t = inBlk2 V c 0 t) (t : Fin cfg2.N) (d) : pd.before 0 t d = inBlk2 V c 0 t :=
  (pd.before_in_eq_fetched 0 rfl (fun _ => rfl) (fun _ _ _ => rfl)
    (fun t => by rw [hkeep]; unfold Dat.blockOf inBlk2; rw [hA]; try rfl) t d).trans
    (by unfold Dat.fetched Dat.blockOf inBlk2; rw [hA]; try rfl)

/-- The right matrix's window, brought once and kept: the same. -/
theorem holds2_1 {c : Dev nD} (pd : Dat τ (Elt F) Unit ℕ (UR sig nD τ) ℕ cfg2 c) (hA : pd.A 1 = V c (Pipeline.arrRef spec2 1))
    (hkeep : ∀ t, pd.after 1 t = inBlk2 V c 1 t) (t : Fin cfg2.N) (d) : pd.before 1 t d = inBlk2 V c 1 t :=
  (pd.before_in_eq_fetched 1 rfl (fun _ => rfl) (fun _ _ _ => rfl)
    (fun t => by rw [hkeep]; unfold Dat.blockOf inBlk2; rw [hA]; try rfl) t d).trans
    (by unfold Dat.fetched Dat.blockOf inBlk2; rw [hA]; try rfl)

/-! ## What the body leaves -/

/-- The whole 256 × 8192 block, the whole 8192 × 64 block and the whole 256 × 64 block, as rectangles. -/
abbrev whole2_a : Rect S256x8192 := Rect.unit (s := S256x8192) ![0, 0] S256x8192.size inb_S256x8192_S256x8192_0_0
abbrev whole2_b : Rect S8192x64 := Rect.unit (s := S8192x64) ![0, 0] S8192x64.size inb_S8192x64_S8192x64_0_0
abbrev whole2_o : Rect S256x64 := Rect.unit (s := S256x64) ![0, 0] S256x64.size inb_S256x64_S256x64_0_0

/-- The output buffer after the body: its one store, of the product of the two loaded blocks, over the whole buffer. -/
def res2 (a : Vec F S256x8192 .f32) (b : Vec F S8192x64 .f32) : Vec F S256x64 .f32 :=
  View.canon [⟨whole2_o, k2_pay1 (View.ld a whole2_a) (View.ld b whole2_b)⟩]

/-- That store covers the buffer. -/
theorem covers2 (v : Vec F S256x64 .f32) (y : S256x64.Idx) :
    ∃ pc ∈ ([⟨whole2_o, v⟩] : List (View.Piece (Elt F) S256x64 .f32)), y ∈ pc.1.set :=
  View.cover_of_tiled [⟨whole2_o, v⟩] S256x64.size (by rfl) y

/-! ## The proof data -/

/-- The launch's proof data on core c: the arrays as found (V); after the body at point t the two input buffers at
    their blocks and the output buffer at the blocks' product; the invariant the plain one (nothing of the core's own
    besides the staging buffers is touched); nothing owed; whole shares. -/
def pd2 (c : Dev nD) : Dat τ (Elt F) Unit ℕ (UR sig nD τ) ℕ cfg2 c where
  A w := V c (Pipeline.arrRef spec2 w)
  after w t := match w with
    | ⟨0, _⟩ => inBlk2 V c 0 t
    | ⟨1, _⟩ => inBlk2 V c 1 t
    | ⟨2, _⟩ => res2 (inBlk2 V c 0 t) (inBlk2 V c 1 t)
  Φ _ := Pipeline.ΦA spec2 c
  q _ := fullShare
  owed _ := 0

theorem pd2_A (c : Dev nD) (w : Fin cfg2.W) : (pd2 V c).A w = V c (Pipeline.arrRef spec2 w) := by
  dsimp only [pd2]

theorem pd2_after_0 (c : Dev nD) (t : Fin cfg2.N) : (pd2 V c).after 0 t = inBlk2 V c 0 t := by dsimp only [pd2]
theorem pd2_after_1 (c : Dev nD) (t : Fin cfg2.N) : (pd2 V c).after 1 t = inBlk2 V c 1 t := by dsimp only [pd2]
theorem pd2_after_2 (c : Dev nD) (t : Fin cfg2.N) :
    (pd2 V c).after 2 t = res2 (inBlk2 V c 0 t) (inBlk2 V c 1 t) := by dsimp only [pd2]

theorem pd2_before_0 (c : Dev nD) (t : Fin cfg2.N) (d) : (pd2 V c).before 0 t d = inBlk2 V c 0 t :=
  holds2_0 V (pd2 V c) (pd2_A V c 0) (pd2_after_0 V c) t d
theorem pd2_before_1 (c : Dev nD) (t : Fin cfg2.N) (d) : (pd2 V c).before 1 t d = inBlk2 V c 1 t :=
  holds2_1 V (pd2 V c) (pd2_A V c 1) (pd2_after_1 V c) t d

/-! ## The body runs -/

set_option maxHeartbeats 1000000 in
/-- On whole buffers, the inputs' holding a and b and the output's anything, the body terminates with the inputs'
    as they were and the output's at res2 a b. -/
theorem runs2 (c : Dev nD) (E : Set ℕ) (i : grid2.Coords)
    (arg1 : Memref sig .tc .vmem S256x8192 .f32) (harg1 : arg1.IsWhole)
    (arg2 : Memref sig .tc .vmem S8192x64 .f32) (harg2 : arg2.IsWhole)
    (arg3 : Memref sig .tc .vmem S256x64 .f32) (harg3 : arg3.IsWhole)
    (a : Vec F S256x8192 .f32) (b : Vec F S8192x64 .f32) (K : PUnit → sProp 𝕄) :
    iprop(owns (c : Thread nD τ) arg1 fullShare a ∗ owns (c : Thread nD τ) arg2 fullShare b
        ∗ (∃ d, owns (c : Thread nD τ) arg3 fullShare d)
        ∗ (iprop(owns (c : Thread nD τ) arg1 fullShare a ∗ owns (c : Thread nD τ) arg2 fullShare b
            ∗ owns (c : Thread nD τ) arg3 fullShare (res2 a b)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-! ## The obligation -/

/-- What the body is handed at point t, the windows one by one, -/
def handed2 (c : Dev nD) (t : Fin cfg2.N) : sProp 𝕄 :=
  iprop((pd2 V c).Φ t.castSucc ∗ (pd2 V c).owesAt () t.castSucc
    ∗ (∃ d, owns (c : Thread nD τ) (st2_0 t) fullShare ((pd2 V c).before 0 t d))
    ∗ (∃ d, owns (c : Thread nD τ) (st2_1 t) fullShare ((pd2 V c).before 1 t d))
    ∗ (∃ d, owns (c : Thread nD τ) (st2_2 t) fullShare ((pd2 V c).before 2 t d)))

/-- and what it hands back. -/
def returned2 (c : Dev nD) (t : Fin cfg2.N) : sProp 𝕄 :=
  iprop((pd2 V c).Φ t.succ ∗ (pd2 V c).owesAt () t.succ
    ∗ owns (c : Thread nD τ) (st2_0 t) fullShare ((pd2 V c).after 0 t)
    ∗ owns (c : Thread nD τ) (st2_1 t) fullShare ((pd2 V c).after 1 t)
    ∗ owns (c : Thread nD τ) (st2_2 t) fullShare ((pd2 V c).after 2 t))

/-- The body at any point: the input buffers hold their blocks, so runs2 applies; the invariant and what the core owes
    pass through unread. -/
theorem point2 (c : Dev nD) (t : Fin cfg2.N) :
    handed2 V c t ⊢ wp frame (wpE (defs₀ (F := F)) Variants.none c none) Set.univ (bodyAt2 t) (fun _ => returned2 V c t) := by
  unfold handed2 returned2 bodyAt2
  simp only [pd2_before_0, pd2_before_1]
  rw [show (pd2 V c).Φ t.succ = (pd2 V c).Φ t.castSucc from rfl,
    show (pd2 V c).owesAt () t.succ = (pd2 V c).owesAt () t.castSucc from rfl,
    pd2_after_0, pd2_after_1, pd2_after_2]
  iintro ⟨HΦ, Ho, ⟨%d0, H0⟩, ⟨%d1, H1⟩, ⟨%d2, H2⟩⟩
  iapply (runs2 c Set.univ _ _ _ _ _ _ _ (inBlk2 V c 0 t) (inBlk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of the body, at every point. -/
theorem body2 (c : Dev nD) : BodyObligation (pd2 (F := F) V c) (defs₀ (F := F)) Variants.none () Set.univ := fun t => by
  rw [bigSep_W2, bigSep_W2]
  exact point2 V c t

end

end Cert.KernelIdeal.Hand

end
-- ==== Proof.KI.Reg3.lean ====
/-
  The pairwise-score softmax as one pipelined launch: 64 grid points, point t taking rows 128 t … 128 t + 127 of the
  8192 × 64 embedding matrix through one window, the WHOLE of that same matrix through a second window, the 1 × 8192
  row of offsets through a third, and leaving the 128 × 8192 block of normalised scores.

  This module states, for ANY contents V of the core's buffers at the moment the launch is entered: what block of its
  array each window hands the body at a point; what the body leaves in the output window's buffer as a function of
  the three input blocks (its single whole-block store); that the body, run on buffers holding those blocks,
  terminates leaving exactly that and its inputs untouched; and, from this, the per-point obligation the pipeline
  asks of the body, over proof data that record the arrays at V and, after each point, each input buffer at its
  block and the output buffer at the stored block. Two windows read one array, so the proof data give each of them
  one half of that array's share.
-/
import proofs.«412745_j39127152066566_3_alg».proof.Proof.Gen.KernelIdeal.Launch
import proofs.«412745_j39127152066566_3_alg».proof.Proof.Gen.KernelIdeal.Skeleton
import proofs.«412745_j39127152066566_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the windows hand the body -/

/-- Window w's block at point t: the part of its array, as the launch finds it, that the window's index map selects. -/
def inBlk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The rows' window: whatever proof data record the array at V and leave the block in place, its buffer holds the
    point's block, whether or not a transfer brought it at this very point. -/
theorem holds3_0 {c : Dev nD} (pd : Dat τ (Elt F) Unit ℕ (UR sig nD τ) ℕ cfg3 c) (hA : pd.A 0 = V c (Pipeline.arrRef spec3 0))
    (hkeep : ∀ t, pd.after 0 t = inBlk3 V c 0 t) (t : Fin cfg3.N) (d) : pd.before 0 t d = inBlk3 V c 0 t :=
  (pd.before_in_eq_fetched 0 rfl (fun _ => rfl) (fun _ _ _ => rfl)
    (fun t => by rw [hkeep]; unfold Dat.blockOf inBlk3; rw [hA]; try rfl) t d).trans
    (by unfold Dat.fetched Dat.blockOf inBlk3; rw [hA]; try rfl)

/-- The whole matrix's window, brought once and kept: the same. -/
theorem holds3_1 {c : Dev nD} (pd : Dat τ (Elt F) Unit ℕ (UR sig nD τ) ℕ cfg3 c) (hA : pd.A 1 = V c (Pipeline.arrRef spec3 1))
    (hkeep : ∀ t, pd.after 1 t = inBlk3 V c 1 t) (t : Fin cfg3.N) (d) : pd.before 1 t d = inBlk3 V c 1 t :=
  (pd.before_in_eq_fetched 1 rfl (fun _ => rfl) (fun _ _ _ => rfl)
    (fun t => by rw [hkeep]; unfold Dat.blockOf inBlk3; rw [hA]; try rfl) t d).trans
    (by unfold Dat.fetched Dat.blockOf inBlk3; rw [hA]; try rfl)

/-- The offsets' window, brought once and kept: the same. -/
theorem holds3_2 {c : Dev nD} (pd : Dat τ (Elt F) Unit ℕ (UR sig nD τ) ℕ cfg3 c) (hA : pd.A 2 = V c (Pipeline.arrRef spec3 2))
    (hkeep : ∀ t, pd.after 2 t = inBlk3 V c 2 t) (t : Fin cfg3.N) (d) : pd.before 2 t d = inBlk3 V c 2 t :=
  (pd.before_in_eq_fetched 2 rfl (fun _ => rfl) (fun _ _ _ => rfl)
    (fun t => by rw [hkeep]; unfold Dat.blockOf inBlk3; rw [hA]; try rfl) t d).trans
    (by unfold Dat.fetched Dat.blockOf inBlk3; rw [hA]; try rfl)

/-! ## What the body leaves -/

/-- The whole 128 × 64 block, the whole 8192 × 64 block, the whole 1 × 8192 block and the whole 128 × 8192 block, as
    rectangles. -/
abbrev whole3_a : Rect S128x64 := Rect.unit (s := S128x64) ![0, 0] S128x64.size inb_S128x64_S128x64_0_0
abbrev whole3_b : Rect S8192x64 := Rect.unit (s := S8192x64) ![0, 0] S8192x64.size inb_S8192x64_S8192x64_0_0
abbrev whole3_m : Rect S1x8192 := Rect.unit (s := S1x8192) ![0, 0] S1x8192.size inb_S1x8192_S1x8192_0_0
abbrev whole3_o : Rect S128x8192 := Rect.unit (s := S128x8192) ![0, 0] S128x8192.size inb_S128x8192_S128x8192_0_0

/-- The output buffer after the body: its one store, of the normalised scores of the three loaded blocks, over the
    whole buffer. -/
def res3 (a : Vec F S128x64 .f32) (b : Vec F S8192x64 .f32) (m : Vec F S1x8192 .f32) : Vec F S128x8192 .f32 :=
  View.canon [⟨whole3_o, k3_pay1 (View.ld a whole3_a) (View.ld b whole3_b) (View.ld m whole3_m)⟩]

/-- That store covers the buffer. -/
theorem covers3 (v : Vec F S128x8192 .f32) (y : S128x8192.Idx) :
    ∃ pc ∈ ([⟨whole3_o, v⟩] : List (View.Piece (Elt F) S128x8192 .f32)), y ∈ pc.1.set :=
  View.cover_of_tiled [⟨whole3_o, v⟩] S128x8192.size (by rfl) y

/-! ## The body runs -/

set_option maxHeartbeats 1000000 in
/-- On whole buffers, the inputs' holding a, b and m and the output's anything, the body terminates with the inputs'
    as they were and the output's at res3 a b m. -/
theorem runs3 (c : Dev nD) (E : Set ℕ) (i : grid3.Coords)
    (arg1 : Memref sig .tc .vmem S128x64 .f32) (harg1 : arg1.IsWhole)
    (arg2 : Memref sig .tc .vmem S8192x64 .f32) (harg2 : arg2.IsWhole)
    (arg3 : Memref sig .tc .vmem S1x8192 .f32) (harg3 : arg3.IsWhole)
    (arg4 : Memref sig .tc .vmem S128x8192 .f32) (harg4 : arg4.IsWhole)
    (a : Vec F S128x64 .f32) (b : Vec F S8192x64 .f32) (m : Vec F S1x8192 .f32) (K : PUnit → sProp 𝕄) :
    iprop(owns (c : Thread nD τ) arg1 fullShare a ∗ owns (c : Thread nD τ) arg2 fullShare b
        ∗ owns (c : Thread nD τ) arg3 fullShare m
        ∗ (∃ d, owns (c : Thread nD τ) arg4 fullShare d)
        ∗ (iprop(owns (c : Thread nD τ) arg1 fullShare a ∗ owns (c : Thread nD τ) arg2 fullShare b
            ∗ owns (c : Thread nD τ) arg3 fullShare m
            ∗ owns (c : Thread nD τ) arg4 fullShare (res3 a b m)) -∗ K ⟨⟩))
      ⊢ wp frame (wpE (defs₀ (F := F)) Variants.none c none) E (cc3__dist_softmax_kernel i arg1 harg1 arg2 harg2 arg3 harg3 arg4 harg4) K := by
  simp only [cc3__dist_softmax_kernel_eq_skeleton]; unfold cc3__dist_softmax_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers3 _)

/-! ## The proof data and the obligation -/

/-- The launch's proof data on core c: the arrays as found (V); after the body at point t the three input buffers at
    their blocks and the output buffer at the block the body stores; the invariant the plain one (nothing of the core's
    own besides the staging buffers is touched); nothing owed; the embedding matrix, read through two windows, held
    at one half of its share for each, the offsets at the whole share. -/
def pd3 (c : Dev nD) : Dat τ (Elt F) Unit ℕ (UR sig nD τ) ℕ cfg3 c where
  A w := V c (Pipeline.arrRef spec3 w)
  after w t := match w with
    | ⟨0, _⟩ => inBlk3 V c 0 t
    | ⟨1, _⟩ => inBlk3 V c 1 t
    | ⟨2, _⟩ => inBlk3 V c 2 t
    | ⟨3, _⟩ => res3 (inBlk3 V c 0 t) (inBlk3 V c 1 t) (inBlk3 V c 2 t)
  Φ _ := Pipeline.ΦA spec3 c
  q w := match w with
    | ⟨0, _⟩ => fullShare.left
    | ⟨1, _⟩ => fullShare.right
    | ⟨2, _⟩ => fullShare
    | ⟨3, _⟩ => fullShare
  owed _ := 0

theorem pd3_A (c : Dev nD) (w : Fin cfg3.W) : (pd3 V c).A w = V c (Pipeline.arrRef spec3 w) := by
  dsimp only [pd3]

theorem pd3_after_0 (c : Dev nD) (t : Fin cfg3.N) : (pd3 V c).after 0 t = inBlk3 V c 0 t := by dsimp only [pd3]
theorem pd3_after_1 (c : Dev nD) (t : Fin cfg3.N) : (pd3 V c).after 1 t = inBlk3 V c 1 t := by dsimp only [pd3]
theorem pd3_after_2 (c : Dev nD) (t : Fin cfg3.N) : (pd3 V c).after 2 t = inBlk3 V c 2 t := by dsimp only [pd3]
theorem pd3_after_3 (c : Dev nD) (t : Fin cfg3.N) :
    (pd3 V c).after 3 t = res3 (inBlk3 V c 0 t) (inBlk3 V c 1 t) (inBlk3 V c 2 t) := by dsimp only [pd3]

theorem pd3_q_0 (c : Dev nD) : (pd3 V c).q 0 = fullShare.left := by dsimp only [pd3]
theorem pd3_q_1 (c : Dev nD) : (pd3 V c).q 1 = fullShare.right := by dsimp only [pd3]
theorem pd3_q_2 (c : Dev nD) : (pd3 V c).q 2 = fullShare := by dsimp only [pd3]

theorem pd3_before_0 (c : Dev nD) (t : Fin cfg3.N) (d) : (pd3 V c).before 0 t d = inBlk3 V c 0 t :=
  holds3_0 V (pd3 V c) (pd3_A V c 0) (pd3_after_0 V c) t d
theorem pd3_before_1 (c : Dev nD) (t : Fin cfg3.N) (d) : (pd3 V c).before 1 t d = inBlk3 V c 1 t :=
  holds3_1 V (pd3 V c) (pd3_A V c 1) (pd3_after_1 V c) t d
theorem pd3_before_2 (c : Dev nD) (t : Fin cfg3.N) (d) : (pd3 V c).before 2 t d = inBlk3 V c 2 t :=
  holds3_2 V (pd3 V c) (pd3_A V c 2) (pd3_after_2 V c) t d

/-- What the body is handed at point t, the windows one by one, -/
def handed3 (c : Dev nD) (t : Fin cfg3.N) : sProp 𝕄 :=
  iprop((pd3 V c).Φ t.castSucc ∗ (pd3 V c).owesAt () t.castSucc
    ∗ (∃ d, owns (c : Thread nD τ) (st3_0 t) fullShare ((pd3 V c).before 0 t d))
    ∗ (∃ d, owns (c : Thread nD τ) (st3_1 t) fullShare ((pd3 V c).before 1 t d))
    ∗ (∃ d, owns (c : Thread nD τ) (st3_2 t) fullShare ((pd3 V c).before 2 t d))
    ∗ (∃ d, owns (c : Thread nD τ) (st3_3 t) fullShare ((pd3 V c).before 3 t d)))

/-- and what it hands back. -/
def returned3 (c : Dev nD) (t : Fin cfg3.N) : sProp 𝕄 :=
  iprop((pd3 V c).Φ t.succ ∗ (pd3 V c).owesAt () t.succ
    ∗ owns (c : Thread nD τ) (st3_0 t) fullShare ((pd3 V c).after 0 t)
    ∗ owns (c : Thread nD τ) (st3_1 t) fullShare ((pd3 V c).after 1 t)
    ∗ owns (c : Thread nD τ) (st3_2 t) fullShare ((pd3 V c).after 2 t)
    ∗ owns (c : Thread nD τ) (st3_3 t) fullShare ((pd3 V c).after 3 t))

/-- The body at any point: the input buffers hold their blocks, so runs3 applies; the invariant and what the core owes
    pass through unread. -/
theorem point3 (c : Dev nD) (t : Fin cfg3.N) :
    handed3 V c t ⊢ wp frame (wpE (defs₀ (F := F)) Variants.none c none) Set.univ (bodyAt3 t) (fun _ => returned3 V c t) := by
  unfold handed3 returned3 bodyAt3
  simp only [pd3_before_0, pd3_before_1, pd3_before_2]
  rw [show (pd3 V c).Φ t.succ = (pd3 V c).Φ t.castSucc from rfl,
    show (pd3 V c).owesAt () t.succ = (pd3 V c).owesAt () t.castSucc from rfl,
    pd3_after_0, pd3_after_1, pd3_after_2, pd3_after_3]
  iintro ⟨HΦ, Ho, ⟨%d0, H0⟩, ⟨%d1, H1⟩, ⟨%d2, H2⟩, ⟨%d3, H3⟩⟩
  iapply (runs3 c Set.univ _ _ _ _ _ _ _ _ _ (inBlk3 V c 0 t) (inBlk3 V c 1 t) (inBlk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of the body, at every point. -/
theorem body3 (c : Dev nD) : BodyObligation (pd3 (F := F) V c) (defs₀ (F := F)) Variants.none () Set.univ := fun t => by
  rw [bigSep_W3, bigSep_W3]
  exact point3 V c t

end

end Cert.KernelIdeal.Hand

end
-- ==== Proof.KI.Chain.lean ====
/-
  What each of the core's buffers holds between the items of the program, from the launch to the return.

  The program is: three conversions, the first matrix product, nine operations that build the dense adjacency
  matrix, two products with it, four operations that reduce the squared rows, and the last launch. A conversion or a
  reduction rewrites the buffers it names and leaves the rest; a launch rewrites its output array — at what its
  pipeline leaves there after the last point's write-back — and leaves the rest. Folding these through the program
  gives the contents at every boundary as a function of the launch memory alone. Recorded here: those contents; that
  each launch's arrays hold at its exit what its pipeline leaves (an input's array what it held, the output's the
  folded write-backs) and every other buffer what it held at entry; and that no item writes an argument.
-/
import proofs.«412745_j39127152066566_3_alg».proof.Proof.KI.Reg0
import proofs.«412745_j39127152066566_3_alg».proof.Proof.KI.Reg1
import proofs.«412745_j39127152066566_3_alg».proof.Proof.KI.Reg2
import proofs.«412745_j39127152066566_3_alg».proof.Proof.KI.Reg3
import proofs.«412745_j39127152066566_3_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

variable (m : (ℓ : Loc nD τ sig) → Buf (Elt F) ℓ)

/-! ## The contents, boundary by boundary -/

/-- After the three conversions: where the first product is entered. -/
abbrev Y1 (c : Dev nD) : Valuation τ sig (Elt F) := StableHlo.after hostOps0 (fun b => m (c, b))

/-- What the first product leaves in its output array: every point's block written back, in point order. -/
def o3 (c : Dev nD) : Buf (Elt F) ((c : Thread nD τ).loc main_v3) :=
  (pd0 (fun c b => Y1 m c b) c).arrAt 2 cfg0.N

/-- After the first product: that array rewritten, nothing else. -/
def Y2 (c : Dev nD) : Valuation τ sig (Elt F) := Function.update (Y1 m c) main_v3 (o3 m c)

/-- After the nine operations that build the adjacency matrix: where the second launch is entered. -/
abbrev Y3 (c : Dev nD) : Valuation τ sig (Elt F) := StableHlo.after hostOps1 (Y2 m c)

/-- What the second launch leaves in its output array. -/
def o11 (c : Dev nD) : Buf (Elt F) ((c : Thread nD τ).loc main_v11) :=
  (pd1 (fun c b => Y3 m c b) c).arrAt 3 cfg1.N

/-- After the second launch: where the third is entered. -/
def Y4 (c : Dev nD) : Valuation τ sig (Elt F) := Function.update (Y3 m c) main_v11 (o11 m c)

/-- What the third launch leaves in its output array. -/
def o12 (c : Dev nD) : Buf (Elt F) ((c : Thread nD τ).loc main_v12) :=
  (pd2 (fun c b => Y4 m c b) c).arrAt 2 cfg2.N

/-- After the third launch. -/
def Y5 (c : Dev nD) : Valuation τ sig (Elt F) := Function.update (Y4 m c) main_v12 (o12 m c)

/-- After the four operations that reduce the squared rows: where the last launch is entered. -/
abbrev Y6 (c : Dev nD) : Valuation τ sig (Elt F) := StableHlo.after hostOps3 (Y5 m c)

/-- What the last launch leaves in its output array: the program's result. -/
def o16 (c : Dev nD) : Buf (Elt F) ((c : Thread nD τ).loc main_v16) :=
  (pd3 (fun c b => Y6 m c b) c).arrAt 3 cfg3.N

/-- At the return. -/
def Y7 (c : Dev nD) : Valuation τ sig (Elt F) := Function.update (Y6 m c) main_v16 (o16 m c)

/-! ## A launch rewrites its output array and nothing else -/

theorem Y2_main_v3 (c : Dev nD) : Y2 m c main_v3 = o3 m c := by
  unfold Y2; exact Function.update_self ..
theorem Y2_of_ne (c : Dev nD) (r : Ref sig .tc) (h : r ≠ main_v3) : Y2 m c r = Y1 m c r := by
  unfold Y2
  exact Function.update_of_ne (StableHlo.devRef_ne_of_ne h : (Proc.devRef .tc r : DevRef τ sig) ≠ Proc.devRef .tc main_v3) ..

theorem Y4_main_v11 (c : Dev nD) : Y4 m c main_v11 = o11 m c := by
  unfold Y4; exact Function.update_self ..
theorem Y4_of_ne (c : Dev nD) (r : Ref sig .tc) (h : r ≠ main_v11) : Y4 m c r = Y3 m c r := by
  unfold Y4
  exact Function.update_of_ne (StableHlo.devRef_ne_of_ne h : (Proc.devRef .tc r : DevRef τ sig) ≠ Proc.devRef .tc main_v11) ..

theorem Y5_main_v12 (c : Dev nD) : Y5 m c main_v12 = o12 m c := by
  unfold Y5; exact Function.update_self ..
theorem Y5_of_ne (c : Dev nD) (r : Ref sig .tc) (h : r ≠ main_v12) : Y5 m c r = Y4 m c r := by
  unfold Y5
  exact Function.update_of_ne (StableHlo.devRef_ne_of_ne h : (Proc.devRef .tc r : DevRef τ sig) ≠ Proc.devRef .tc main_v12) ..

/-- The result buffer at the return holds what the last launch left there. -/
theorem Y7_main_v16 (c : Dev nD) : Y7 m c main_v16 = o16 m c := by
  unfold Y7; exact Function.update_self ..
theorem Y7_of_ne (c : Dev nD) (r : Ref sig .tc) (h : r ≠ main_v16) : Y7 m c r = Y6 m c r := by
  unfold Y7
  exact Function.update_of_ne (StableHlo.devRef_ne_of_ne h : (Proc.devRef .tc r : DevRef τ sig) ≠ Proc.devRef .tc main_v16) ..

/-! ## Each launch's arrays at its exit, and the buffers it passes by

An input window's array is never written, so at every point it holds what the launch found; the output window's
array after the last point is by definition what the exit contents have there. A buffer that is no window's array is
in particular not the output's. -/

/-- The first product: the rows' and the weights' arrays as found, the products' array as left. -/
theorem Y2_arr (c : Dev nD) (w : Fin cfg0.W) :
    (pd0 (fun c b => Y1 m c b) c).arrAt w cfg0.N = Y2 m c (Pipeline.arrRef spec0 w) :=
  match w with
  | ⟨0, _⟩ => ((pd0 (fun c b => Y1 m c b) c).arrAt_in 0 rfl _).trans
      ((pd0_A (fun c b => Y1 m c b) c 0).trans (Y2_of_ne m c main_v0 (by decide)).symm)
  | ⟨1, _⟩ => ((pd0 (fun c b => Y1 m c b) c).arrAt_in 1 rfl _).trans
      ((pd0_A (fun c b => Y1 m c b) c 1).trans (Y2_of_ne m c main_v1 (by decide)).symm)
  | ⟨2, _⟩ => (Y2_main_v3 m c).symm
theorem Y2_rest (c : Dev nD) : ∀ b, b ∉ Finset.univ.image (Pipeline.arrRef spec0) → Y2 m c b = Y1 m c b :=
  fun b hb => Y2_of_ne m c b fun e => hb (Finset.mem_image.mpr ⟨2, Finset.mem_univ _, e.symm⟩)

/-- The second launch: three inputs as found, its output as left. -/
theorem Y4_arr (c : Dev nD) (w : Fin cfg1.W) :
    (pd1 (fun c b => Y3 m c b) c).arrAt w cfg1.N = Y4 m c (Pipeline.arrRef spec1 w) :=
  match w with
  | ⟨0, _⟩ => ((pd1 (fun c b => Y3 m c b) c).arrAt_in 0 rfl _).trans
      ((pd1_A (fun c b => Y3 m c b) c 0).trans (Y4_of_ne m c main_v10 (by decide)).symm)
  | ⟨1, _⟩ => ((pd1 (fun c b => Y3 m c b) c).arrAt_in 1 rfl _).trans
      ((pd1_A (fun c b => Y3 m c b) c 1).trans (Y4_of_ne m c main_v3 (by decide)).symm)
  | ⟨2, _⟩ => ((pd1 (fun c b => Y3 m c b) c).arrAt_in 2 rfl _).trans
      ((pd1_A (fun c b => Y3 m c b) c 2).trans (Y4_of_ne m c main_v2 (by decide)).symm)
  | ⟨3, _⟩ => (Y4_main_v11 m c).symm
theorem Y4_rest (c : Dev nD) : ∀ b, b ∉ Finset.univ.image (Pipeline.arrRef spec1) → Y4 m c b = Y3 m c b :=
  fun b hb => Y4_of_ne m c b fun e => hb (Finset.mem_image.mpr ⟨3, Finset.mem_univ _, e.symm⟩)

/-- The third launch: two inputs as found, its output as left. -/
theorem Y5_arr (c : Dev nD) (w : Fin cfg2.W) :
    (pd2 (fun c b => Y4 m c b) c).arrAt w cfg2.N = Y5 m c (Pipeline.arrRef spec2 w) :=
  match w with
  | ⟨0, _⟩ => ((pd2 (fun c b => Y4 m c b) c).arrAt_in 0 rfl _).trans
      ((pd2_A (fun c b => Y4 m c b) c 0).trans (Y5_of_ne m c main_v10 (by decide)).symm)
  | ⟨1, _⟩ => ((pd2 (fun c b => Y4 m c b) c).arrAt_in 1 rfl _).trans
      ((pd2_A (fun c b => Y4 m c b) c 1).trans (Y5_of_ne m c main_v11 (by decide)).symm)
  | ⟨2, _⟩ => (Y5_main_v12 m c).symm
theorem Y5_rest (c : Dev nD) : ∀ b, b ∉ Finset.univ.image (Pipeline.arrRef spec2) → Y5 m c b = Y4 m c b :=
  fun b hb => Y5_of_ne m c b fun e => hb (Finset.mem_image.mpr ⟨2, Finset.mem_univ _, e.symm⟩)

/-- The last launch: its first two windows read one array, found and left alike; the row norms' array as found;
    its output as left. -/
theorem Y7_arr (c : Dev nD) (w : Fin cfg3.W) :
    (pd3 (fun c b => Y6 m c b) c).arrAt w cfg3.N = Y7 m c (Pipeline.arrRef spec3 w) :=
  match w with
  | ⟨0, _⟩ => ((pd3 (fun c b => Y6 m c b) c).arrAt_in 0 rfl _).trans
      ((pd3_A (fun c b => Y6 m c b) c 0).trans (Y7_of_ne m c main_v12 (by decide)).symm)
  | ⟨1, _⟩ => ((pd3 (fun c b => Y6 m c b) c).arrAt_in 1 rfl _).trans
      ((pd3_A (fun c b => Y6 m c b) c 1).trans (Y7_of_ne m c main_v12 (by decide)).symm)
  | ⟨2, _⟩ => ((pd3 (fun c b => Y6 m c b) c).arrAt_in 2 rfl _).trans
      ((pd3_A (fun c b => Y6 m c b) c 2).trans (Y7_of_ne m c main_v15 (by decide)).symm)
  | ⟨3, _⟩ => (Y7_main_v16 m c).symm
theorem Y7_rest (c : Dev nD) : ∀ b, b ∉ Finset.univ.image (Pipeline.arrRef spec3) → Y7 m c b = Y6 m c b :=
  fun b hb => Y7_of_ne m c b fun e => hb (Finset.mem_image.mpr ⟨3, Finset.mem_univ _, e.symm⟩)

/-! ## The arguments end as launched -/

/-- A buffer that no conversion, no construction step and no reduction names as its result, and that is no
    launch's output array, holds at the return what the launch memory held. -/
theorem Y7_unwritten (c : Dev nD) (r : Ref sig .tc)
    (h0 : r ∉ hostOps0_W) (h1 : r ∉ hostOps1_W) (h3 : r ∉ hostOps3_W)
    (ho : r ∉ ([main_v3, main_v11, main_v12, main_v16] : List (Ref sig .tc))) :
    Y7 m c r = m ((c : Thread nD τ).loc r) := by
  have e3 : r ≠ main_v3 := fun e => ho (by rw [e]; decide)
  have e11 : r ≠ main_v11 := fun e => ho (by rw [e]; decide)
  have e12 : r ≠ main_v12 := fun e => ho (by rw [e]; decide)
  have e16 : r ≠ main_v16 := fun e => ho (by rw [e]; decide)
  calc Y7 m c r
    _ = Y6 m c r := Y7_of_ne m c r e16
    _ = Y5 m c r := StableHlo.after_of_writes_sub hostOps3 _ hostOps3_writes h3
    _ = Y4 m c r := Y5_of_ne m c r e12
    _ = Y3 m c r := Y4_of_ne m c r e11
    _ = Y2 m c r := StableHlo.after_of_writes_sub hostOps1 _ hostOps1_writes h1
    _ = Y1 m c r := Y2_of_ne m c r e3
    _ = m ((c : Thread nD τ).loc r) := StableHlo.after_of_writes_sub hostOps0 _ hostOps0_writes h0

theorem Y7_main_arg0 (c : Dev nD) : Y7 m c main_arg0 = m ((c : Thread nD τ).loc main_arg0) :=
  Y7_unwritten m c main_arg0 (by decide) (by decide) (by decide) (by decide)
theorem Y7_main_arg1 (c : Dev nD) : Y7 m c main_arg1 = m ((c : Thread nD τ).loc main_arg1) :=
  Y7_unwritten m c main_arg1 (by decide) (by decide) (by decide) (by decide)
theorem Y7_main_arg2 (c : Dev nD) : Y7 m c main_arg2 = m ((c : Thread nD τ).loc main_arg2) :=
  Y7_unwritten m c main_arg2 (by decide) (by decide) (by decide) (by decide)
theorem Y7_main_arg3 (c : Dev nD) : Y7 m c main_arg3 = m ((c : Thread nD τ).loc main_arg3) :=
  Y7_unwritten m c main_arg3 (by decide) (by decide) (by decide) (by decide)
theorem Y7_main_arg4 (c : Dev nD) : Y7 m c main_arg4 = m ((c : Thread nD τ).loc main_arg4) :=
  Y7_unwritten m c main_arg4 (by decide) (by decide) (by decide) (by decide)
theorem Y7_main_arg5 (c : Dev nD) : Y7 m c main_arg5 = m ((c : Thread nD τ).loc main_arg5) :=
  Y7_unwritten m c main_arg5 (by decide) (by decide) (by decide) (by decide)

end Cert.KernelIdeal.Hand

end
-- ==== Proof.KI.Share3.lean ====
/-
  Two windows of the score-softmax launch read ONE array, the embedding matrix. The core holds that matrix's buffer
  once, at the whole share; the pipeline wants one holding per window. This module passes between the two pictures:
  at entry the core's unscoped buffers, each whole at the full share, are regrouped as the launch's four windowed
  arrays — the embedding matrix's share cut in its two halves, one per window reading it, the offsets' and the
  output's buffers whole — beside the buffers no window names; at exit the two halves are put together again and the
  output's buffer stands at whatever the launch left in it.
-/
import proofs.«412745_j39127152066566_3_alg».proof.Proof.KI.Reg3
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The buffers behind the windows -/

/-- The four windows name three buffers: the embedding matrix (twice), the offsets, the output. -/
theorem arrImage3 : Finset.univ.image (Pipeline.arrRef spec3) = {main_v12, main_v15, main_v16} := by decide

/-- No window's array is one of the core's scoped buffers. -/
theorem arrUnscoped3 : ∀ w, (Pipeline.arrRef spec3 w).isScoped = false := by decide

/-- The three buffers, each whole at the full share, one by one. -/
theorem arrBufs3_eq (c : Dev nD) (W : (b : Ref sig .tc) → Buf (Elt F) ((c : Thread nD τ).loc b)) :
    (Pipeline.arrBufs (Ix := Unit) (Name := ℕ) (U := UR sig nD τ) (Lvl := ℕ) spec3 c W : sProp 𝕄)
      = iprop((((c : Thread nD τ).loc main_v12) ↦{fullShare} W main_v12) ∗ (((c : Thread nD τ).loc main_v15) ↦{fullShare} W main_v15)
          ∗ (((c : Thread nD τ).loc main_v16) ↦{fullShare} W main_v16)) := by
  unfold Pipeline.arrBufs
  rw [arrImage3, bigSep_insert (by decide), bigSep_insert (by decide), bigSep_singleton]
  rfl

/-- The launch's windowed arrays, window by window: the embedding matrix's buffer at the left half of the share for
    the rows' window and at the right half for the whole-matrix window, the offsets' and the output's at the whole
    share. -/
theorem arrays3_eq (c : Dev nD) (G : (w : Fin cfg3.W) → Buf (Elt F) ((cfg3.win w).arr.view.loc (c : Thread nD τ))) :
    (pd3 V c).arrays G
      = iprop((((c : Thread nD τ).loc main_v12) ↦{fullShare.left} G 0) ∗ (((c : Thread nD τ).loc main_v12) ↦{fullShare.right} G 1)
          ∗ (((c : Thread nD τ).loc main_v15) ↦{fullShare} G 2) ∗ (((c : Thread nD τ).loc main_v16) ↦{fullShare} G 3)) := by
  unfold Dat.arrays
  rw [bigSep_W3]
  have h0 : (cfg3.win 0).arr.view.set = Finset.univ := (arr_whole3 0).set_eq_univ
  have h2 : (cfg3.win 2).arr.view.set = Finset.univ := (arr_whole3 2).set_eq_univ
  have h3 : (cfg3.win 3).arr.view.set = Finset.univ := (arr_whole3 3).set_eq_univ
  rw [h0, h2, h3]
  rfl

/-- The core's unscoped buffers at any contents: the three buffers the windows name, and the rest. -/
theorem split3 (c : Dev nD) (W : (b : Ref sig .tc) → Buf (Elt F) ((c : Thread nD τ).loc b)) :
    (unscopedBufs c W : sProp 𝕄)
      = iprop(Pipeline.arrBufs (Ix := Unit) (Name := ℕ) (U := UR sig nD τ) (Lvl := ℕ) spec3 c W
          ∗ Pipeline.unscopedRest (Ix := Unit) (Name := ℕ) (U := UR sig nD τ) (Lvl := ℕ) spec3 c W) :=
  Pipeline.unscopedBufs_split₀ cfgs 3 arrUnscoped3 c W

/-! ## Entry and exit -/

/-- ENTRY: the core's unscoped buffers at the contents the launch finds are its windowed arrays at those contents,
    the embedding matrix's full share cut in two along its halves, and the buffers no window names. -/
theorem entry3 (c : Dev nD) :
    (unscopedBufs c (V c) : sProp 𝕄)
      ⊢ iprop((pd3 V c).arrays ((pd3 V c).arrAt · 0)
          ∗ Pipeline.unscopedRest (Ix := Unit) (Name := ℕ) (U := UR sig nD τ) (Lvl := ℕ) spec3 c (V c)) := by
  rw [split3, arrBufs3_eq, arrays3_eq]
  refine sep_mono ?_ .rfl
  iintro ⟨H12, H15, H16⟩
  ihave H := (pointsTo_share (PosShare.mem_left_op_right fullShare)).1 $$ H12
  icases H with ⟨Hl, Hr⟩
  isplitl [Hl]; · iexact Hl
  isplitl [Hr]; · iexact Hr
  isplitl [H15]; · iexact H15
  iexact H16

/-- EXIT: the windowed arrays as the launch leaves them and the buffers no window names are the core's unscoped
    buffers at any contents that have each windowed array at what the launch left and the rest as before: the two
    halves of the embedding matrix's share, both at the contents found, make the full share again. -/
theorem exit3 (c : Dev nD) (V' : (b : Ref sig .tc) → Buf (Elt F) ((c : Thread nD τ).loc b))
    (hF : ∀ w, (pd3 V c).arrAt w cfg3.N = V' (Pipeline.arrRef spec3 w))
    (hrest : ∀ b, b ∉ Finset.univ.image (Pipeline.arrRef spec3) → V' b = V c b) :
    iprop((pd3 V c).arrays ((pd3 V c).arrAt · cfg3.N)
        ∗ Pipeline.unscopedRest (Ix := Unit) (Name := ℕ) (U := UR sig nD τ) (Lvl := ℕ) spec3 c (V c))
      ⊢ (unscopedBufs c V' : sProp 𝕄) := by
  rw [split3, arrBufs3_eq, arrays3_eq]
  refine sep_mono ?_ (Entails.of_eq ?_)
  · rw [hF 0, hF 1, hF 2, hF 3]
    iintro ⟨Hl, Hr, H15, H16⟩
    isplitl [Hl Hr]
    · iapply (pointsTo_share (PosShare.mem_left_op_right fullShare)).2
      isplitl [Hl]; · iexact Hl
      iexact Hr
    isplitl [H15]; · iexact H15
    iexact H16
  · unfold Pipeline.unscopedRest
    exact bigSep_congr fun b hb => by rw [hrest b (Finset.mem_sdiff.mp hb).2]

end

end Cert.KernelIdeal.Hand

end
-- ==== Proof.KI.Regs.lean ====
/-
  The four launches of the program as steps of one run.

  Between two items a core holds every buffer that is no staging buffer whole, at the contents the fold of the program
  gives for that boundary, beside its generator register and the record that it owes nothing. A launch takes its windows'
  arrays out of those buffers, runs its pipeline over them, and puts them back at the contents its pipeline leaves: this
  module says so once for any launch, and then four times, with the proof data and the per-point obligations of the
  four launches. The first three launches read distinct arrays, each held whole; the last reads one array through two
  windows, each holding half of it.
-/
import proofs.«412745_j39127152066566_3_alg».proof.Proof.KI.Chain
import proofs.«412745_j39127152066566_3_alg».proof.Proof.KI.Share3
import Idealize.ShloMosaic.Lib.Pipeline.Kit
import Idealize.ShloMosaic.Lib.Pipeline.Frame
import Idealize.ShloMosaic.Lib.Pipeline.Regions
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The proof data, and what rides beside the buffers -/

/-- Each launch's proof data, at the contents the launch is entered from. -/
def pdats : (p : Fin 4) → (c : Dev nD) → Dat τ (Elt F) Unit ℕ (UR sig nD τ) ℕ (Pipeline.pin (pcfgs (F := F)) adm p) c
  | ⟨0, _⟩ => fun c => pd0 (fun c b => Y1 m c b) c
  | ⟨1, _⟩ => fun c => pd1 (fun c b => Y3 m c b) c
  | ⟨2, _⟩ => fun c => pd2 (fun c b => Y4 m c b) c
  | ⟨3, _⟩ => fun c => pd3 (fun c b => Y6 m c b) c

/-- No variant, no level: no core owes another anything in this program. -/
abbrev 𝒱₀ : Variants := Variants.none
abbrev L : GSem nD τ sig → Finset Unit := fun _ => ∅
abbrev lv : GSem nD τ sig → Unit → ℕ := fun _ _ => 0

/-- Beside its buffers a core carries its generator register, at some state, and the record that it owes nothing. -/
abbrev R (c : Dev nD) : sProp 𝕄 :=
  iprop((∃ r, prngReg c r) ∗ ∃ W, owes (c : Thread nD τ) (0 : CellTallies nD τ sig Unit) W)

/-- A stretch of conversions, constructions or reductions as a step: from every unscoped buffer at W to the same
    buffers with each operation's result written, the rest untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## Into a launch and out of it, whatever the launch -/

section Generic
variable {cfg : Pipeline.Cfg sig Λ₀} (c : Dev nD) (dat : Dat τ (Elt F) Unit ℕ (UR sig nD τ) ℕ cfg c)

/-- ENTRY. If the buffers at V split into the launch's arrays as its proof data find them and a remainder Z, and the
    data owe nothing at the first point and bound the recorded pairs by nothing, then the core's state at V gives the
    arrays, whatever T costs nothing, the record of owing nothing, the generator register, and Z. What else is offered
    (S) is not needed. -/
theorem enter (V : Valuation τ sig (Elt F)) (T Z S : sProp 𝕄)
    (hsplit : (StableHlo.held (c : Thread nD τ) (Pipeline.ucRefs τ sig) V : sProp 𝕄) ⊢ iprop(dat.arrays (dat.arrAt · 0) ∗ Z))
    (hT : (BI.emp : sProp 𝕄) ⊢ T) (howed : dat.owed 0 = 0) (hrec : dat.recorded 0 = Set.univ) :
    iprop((StableHlo.held (c : Thread nD τ) (Pipeline.ucRefs τ sig) V ∗ R c) ∗ S)
      ⊢ |={Set.univ}=> iprop(dat.arrays (dat.arrAt · 0) ∗ T ∗ dat.owesAt () 0 ∗ (∃ r, prngReg c r) ∗ Z) := by
  iintro ⟨⟨Hh, Hp, HO⟩, -⟩
  ihave H := hsplit $$ Hh
  icases H with ⟨Ha, Hz⟩
  imodintro
  isplitl [Ha]; · iexact Ha
  isplitr; · iapply hT; iempintro
  isplitl [HO]
  · unfold Pipeline.Dat.owesAt Pipeline.owesWithin
    rw [howed]
    icases HO with ⟨%W, HO⟩
    iexists W
    isplitr; · ipureintro; exact fun x _ => Or.inl (hrec ▸ Set.mem_univ x)
    iexact HO
  isplitl [Hp]; · iexact Hp
  iexact Hz

/-- EXIT. If the launch's arrays at G and the remainder Z join into the buffers at V', and the data owe nothing after
    the last point, then arrays, record, register and remainder give the core's state at V'. -/
theorem leave (V' : Valuation τ sig (Elt F)) (Z : sProp 𝕄)
    (G : (w : Fin cfg.W) → Buf (Elt F) ((cfg.win w).arr.view.loc (c : Thread nD τ)))
    (hjoin : iprop(dat.arrays G ∗ Z) ⊢ (StableHlo.held (c : Thread nD τ) (Pipeline.ucRefs τ sig) V' : sProp 𝕄))
    (howed : dat.owed (Fin.last cfg.N) = 0) :
    iprop(dat.arrays G ∗ dat.owesAt () (Fin.last cfg.N) ∗ (∃ r, prngReg c r) ∗ Z) ⊢ |={Set.univ}=> iprop(StableHlo.held (c : Thread nD τ) (Pipeline.ucRefs τ sig) V' ∗ R c) := by
  iintro ⟨Ha, HO, Hp, Hz⟩
  imodintro
  isplitl [Ha Hz]
  · iapply hjoin; isplitl [Ha] <;> iassumption
  isplitl [Hp]; · iexact Hp
  unfold Pipeline.Dat.owesAt Pipeline.owesWithin
  rw [howed]
  icases HO with ⟨%W, -, HO⟩
  iexists W; iexact HO

end Generic

/-- The plain invariant of a launch — the scoped buffers no window stages, and the generator register — is made of the
    register and those buffers; -/
theorem inv_in {gr W : Nat} (win : Fin W → Pipeline.WinSpec sig gr) (c : Dev nD) (T : sProp 𝕄) :
    iprop((∃ r, prngReg c r) ∗ T ∗ Pipeline.scopedRest win c)
      ⊢ (Pipeline.ΦA (U := UR sig nD τ) (Val := Elt F) win c : sProp 𝕄) := by
  unfold Pipeline.ΦA
  iintro ⟨Hp, -, Hr⟩
  isplitl [Hr]; · iexact Hr
  iexact Hp

/-- and gives them back, beside the kernel's own semaphores at zero when it has none. -/
theorem inv_out {gr W : Nat} (win : Fin W → Pipeline.WinSpec sig gr) (c : Dev nD) :
    (Pipeline.ΦA (U := UR sig nD τ) (Val := Elt F) win c : sProp 𝕄)
      ⊢ iprop((∃ r, prngReg c r) ∗ Pipeline.ownSems0 (fun k : PEmpty => k.elim) c ∗ Pipeline.scopedRest win c) := by
  rw [Pipeline.ownSems0_none]
  unfold Pipeline.ΦA
  iintro ⟨Hr, Hp⟩
  isplitl [Hp]; · iexact Hp
  isplitr; · iempintro
  iexact Hr

/-! ## The four launches -/

set_option backward.isDefEq.respectTransparency.types false in
/-- THE FIRST PRODUCT: entered from the contents after the conversions, left with the products' array rewritten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0 (fun c b => Y1 m c b) c).loose
  hwaits := Pipeline.hwaits_of_owed_zero _ _ _ _ L lv 0 fun _ _ => rfl
  pre c := iprop(StableHlo.held (c : Thread nD τ) (Pipeline.ucRefs τ sig) (Y1 m c) ∗ R c)
  post c := iprop(StableHlo.held (c : Thread nD τ) (Pipeline.ucRefs τ sig) (Y2 m c) ∗ R c)
  X c := iprop(∃ r, prngReg c r)
  Y c := iprop(∃ r, prngReg c r)
  Z c := Pipeline.unscopedRest (Ix := Unit) (Name := ℕ) (U := UR sig nD τ) (Lvl := ℕ) spec0 c (fun b => Y1 m c b)
  hentry c := enter c (pdats m 0 c) (Y1 m c) _ _ _
    (by
      have h := Pipeline.arrays_of_unscopedBufs (p := 0) (pcfgs (F := F)) adm (pdats m) launch0.win launch0.arr_whole c
        ((pdats m 0 c).share_full fun _ => rfl) (fun b => Y1 m c b) fun _ => rfl
      rwa [Pipeline.unscopedBufs_held] at h)
    (by unfold Pipeline.prefHeld; rw [show (Finset.univ : Finset (Fin 0)) = ∅ from rfl, BI.bigSep_empty])
    rfl rfl
  hin c := inv_in spec0 c _
  hout c := inv_out spec0 c
  hexit c := leave c (pdats m 0 c) (Y2 m c) _ _
    (by
      have h := Pipeline.unscopedBufs_of_arrays (p := 0) (pcfgs (F := F)) adm (Ix := Unit) (Name := ℕ) (U := UR sig nD τ) (Lvl := ℕ)
        launch0.win launch0.arr_whole c (pdats m) ((pdats m 0 c).share_full fun _ => rfl)
        (fun b => Y1 m c b) (fun b => Y2 m c b) ((pdats m 0 c).arrAt · cfg0.N) (Y2_arr m c) (Y2_rest m c)
      rwa [Pipeline.unscopedBufs_held] at h)
    rfl

set_option backward.isDefEq.respectTransparency.types false in
/-- THE SECOND LAUNCH: entered from the contents after the adjacency matrix is built, left with its output array rewritten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1 (fun c b => Y3 m c b) c).loose
  hwaits := Pipeline.hwaits_of_owed_zero _ _ _ _ L lv 1 fun _ _ => rfl
  pre c := iprop(StableHlo.held (c : Thread nD τ) (Pipeline.ucRefs τ sig) (Y3 m c) ∗ R c)
  post c := iprop(StableHlo.held (c : Thread nD τ) (Pipeline.ucRefs τ sig) (Y4 m c) ∗ R c)
  X c := iprop(∃ r, prngReg c r)
  Y c := iprop(∃ r, prngReg c r)
  Z c := Pipeline.unscopedRest (Ix := Unit) (Name := ℕ) (U := UR sig nD τ) (Lvl := ℕ) spec1 c (fun b => Y3 m c b)
  hentry c := enter c (pdats m 1 c) (Y3 m c) _ _ _
    (by
      have h := Pipeline.arrays_of_unscopedBufs (p := 1) (pcfgs (F := F)) adm (pdats m) launch1.win launch1.arr_whole c
        ((pdats m 1 c).share_full fun _ => rfl) (fun b => Y3 m c b) fun _ => rfl
      rwa [Pipeline.unscopedBufs_held] at h)
    (by unfold Pipeline.prefHeld; rw [show (Finset.univ : Finset (Fin 0)) = ∅ from rfl, BI.bigSep_empty])
    rfl rfl
  hin c := inv_in spec1 c _
  hout c := inv_out spec1 c
  hexit c := leave c (pdats m 1 c) (Y4 m c) _ _
    (by
      have h := Pipeline.unscopedBufs_of_arrays (p := 1) (pcfgs (F := F)) adm (Ix := Unit) (Name := ℕ) (U := UR sig nD τ) (Lvl := ℕ)
        launch1.win launch1.arr_whole c (pdats m) ((pdats m 1 c).share_full fun _ => rfl)
        (fun b => Y3 m c b) (fun b => Y4 m c b) ((pdats m 1 c).arrAt · cfg1.N) (Y4_arr m c) (Y4_rest m c)
      rwa [Pipeline.unscopedBufs_held] at h)
    rfl

set_option backward.isDefEq.respectTransparency.types false in
/-- THE THIRD LAUNCH: entered where the second left, left with its output array rewritten. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body2 (fun c b => Y4 m c b) c).loose
  hwaits := Pipeline.hwaits_of_owed_zero _ _ _ _ L lv 2 fun _ _ => rfl
  pre c := iprop(StableHlo.held (c : Thread nD τ) (Pipeline.ucRefs τ sig) (Y4 m c) ∗ R c)
  post c := iprop(StableHlo.held (c : Thread nD τ) (Pipeline.ucRefs τ sig) (Y5 m c) ∗ R c)
  X c := iprop(∃ r, prngReg c r)
  Y c := iprop(∃ r, prngReg c r)
  Z c := Pipeline.unscopedRest (Ix := Unit) (Name := ℕ) (U := UR sig nD τ) (Lvl := ℕ) spec2 c (fun b => Y4 m c b)
  hentry c := enter c (pdats m 2 c) (Y4 m c) _ _ _
    (by
      have h := Pipeline.arrays_of_unscopedBufs (p := 2) (pcfgs (F := F)) adm (pdats m) launch2.win launch2.arr_whole c
        ((pdats m 2 c).share_full fun _ => rfl) (fun b => Y4 m c b) fun _ => rfl
      rwa [Pipeline.unscopedBufs_held] at h)
    (by unfold Pipeline.prefHeld; rw [show (Finset.univ : Finset (Fin 0)) = ∅ from rfl, BI.bigSep_empty])
    rfl rfl
  hin c := inv_in spec2 c _
  hout c := inv_out spec2 c
  hexit c := leave c (pdats m 2 c) (Y5 m c) _ _
    (by
      have h := Pipeline.unscopedBufs_of_arrays (p := 2) (pcfgs (F := F)) adm (Ix := Unit) (Name := ℕ) (U := UR sig nD τ) (Lvl := ℕ)
        launch2.win launch2.arr_whole c (pdats m) ((pdats m 2 c).share_full fun _ => rfl)
        (fun b => Y4 m c b) (fun b => Y5 m c b) ((pdats m 2 c).arrAt · cfg2.N) (Y5_arr m c) (Y5_rest m c)
      rwa [Pipeline.unscopedBufs_held] at h)
    rfl

set_option backward.isDefEq.respectTransparency.types false in
/-- THE LAST LAUNCH: entered from the contents after the row reductions, left with the result array rewritten. Two of its windows read one array, half a share each; taking the arrays out and putting them back is the work of the module on that sharing. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body3 (fun c b => Y6 m c b) c).loose
  hwaits := Pipeline.hwaits_of_owed_zero _ _ _ _ L lv 3 fun _ _ => rfl
  pre c := iprop(StableHlo.held (c : Thread nD τ) (Pipeline.ucRefs τ sig) (Y6 m c) ∗ R c)
  post c := iprop(StableHlo.held (c : Thread nD τ) (Pipeline.ucRefs τ sig) (Y7 m c) ∗ R c)
  X c := iprop(∃ r, prngReg c r)
  Y c := iprop(∃ r, prngReg c r)
  Z c := Pipeline.unscopedRest (Ix := Unit) (Name := ℕ) (U := UR sig nD τ) (Lvl := ℕ) spec3 c (fun b => Y6 m c b)
  hentry c := enter c (pdats m 3 c) (Y6 m c) _ _ _
    (by
      have h := entry3 (fun c b => Y6 m c b) c
      beta_reduce at h
      rw [Pipeline.unscopedBufs_held] at h
      exact h)
    (by unfold Pipeline.prefHeld; rw [show (Finset.univ : Finset (Fin 0)) = ∅ from rfl, BI.bigSep_empty])
    rfl rfl
  hin c := inv_in spec3 c _
  hout c := inv_out spec3 c
  hexit c := leave c (pdats m 3 c) (Y7 m c) _ _
    (by
      have h := exit3 (fun c b => Y6 m c b) c (fun b => Y7 m c b) (Y7_arr m c) (Y7_rest m c)
      beta_reduce at h
      rw [Pipeline.unscopedBufs_held] at h
      exact h)
    rfl

end Cert.KernelIdeal.Hand

end
-- ==== Proof.KI.Run.lean ====
/-
  The whole program, run.

  The program is seven items in a row: three conversions, the first pipelined product, nine operations that build the
  dense adjacency matrix, two pipelined products with it, four operations that reduce the squared rows, and the last
  pipelined launch. Between two items the core holds every unscoped buffer whole, at contents that are a function of the
  launch memory alone; beside them ride the generator register, at some state, and the core's dues, at nothing. Each
  stretch of host operations takes the buffers from the contents at its boundary to those contents folded through its
  operations; each launch is entered from the contents before it and left at those with its output array rewritten to
  what its pipeline leaves. So every link of the chain is an identity, and the last state — read against a final memory —
  gives the result buffer at what the last launch leaves and each argument buffer at what the launch memory held.
-/
import proofs.«412745_j39127152066566_3_alg».proof.Proof.KI.Regs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## The program as a list of segments -/

/-- What the core's unscoped buffers hold at the launch. -/
abbrev launchVal (c : Dev nD) : Valuation τ sig (Elt F) := fun b => m (c, b)

/-- The last thread state without what the core owes: every unscoped buffer at the contents at the return, the
    generator register at some state. -/
abbrev lastState (c : Dev nD) : sProp 𝕄 :=
  iprop(StableHlo.held (c : Thread nD τ) (Pipeline.ucRefs τ sig) (Y7 m c) ∗ ∃ r, prngReg c r)

/-- The program's seven items in order: each stretch of host operations from the contents at its boundary, each
    launch its region record. -/
abbrev runSegs : List (Pipeline.Seg (pcfgs (F := F)) adm (pdats m) () defs₀ 𝒱₀ L lv) :=
  [ .host (hseg hostOps0 hostOps0_sub hostOps0_fresh (launchVal m)),
    .region (reg0 m),
    .host (hseg hostOps1 hostOps1_sub hostOps1_fresh (Y2 m)),
    .region (reg1 m),
    .region (reg2 m),
    .host (hseg hostOps3 hostOps3_sub hostOps3_fresh (Y5 m)),
    .region (reg3 m) ]

/-- An unscoped reference of the core is among those the thread state holds. -/
theorem ucMem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The two ends of the chain -/

/-- The launch element is the pipelines' own, and no core is handed a ghost resource. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  -- owning the launch element in the user algebra is, by definition, owning its image
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  rw [BI.bigSep_emp_const]
  iintro Hown
  imodintro
  isplitl [Hown]
  · iapply hown; iexact Hown
  · iempintro

/-- What the last launch leaves — the buffers at the return beside the register and the dues — regrouped: the dues,
    at nothing, stand apart from the rest. -/
theorem last_regroup (c : Dev nD) :
    (iprop(StableHlo.held (c : Thread nD τ) (Pipeline.ucRefs τ sig) (Y7 m c) ∗ R c) : sProp 𝕄)
      ⊢ iprop(lastState m c ∗ ∃ W, owes (c : Thread nD τ) (0 : CellTallies nD τ sig Unit) W) := by
  iintro ⟨Hbufs, Hreg, Hdues⟩
  isplitr [Hdues]
  · isplitl [Hbufs]
    · iexact Hbufs
    · iexact Hreg
  · iexact Hdues

/-! ## The run -/

set_option backward.isDefEq.respectTransparency.types false in
/-- From any memory with every counter at zero, every weakly fair execution of the program terminates; at the end
    the result buffer holds what the last launch's pipeline leaves there — the folded write-backs, a function of the
    launch memory alone — and every argument buffer what it held at the launch. -/
theorem run_full (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v16) = o16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit (pcfgs (F := F)) adm (pdats m) () cellOf_inj emb₁ defs₀ 𝒱₀ L lv m ρ main (runSegs m)
    (fun c Q => ?hmain) ?hnd (O₀ := 0) (hL := fun _ _ => rfl) (G := fun _ => iprop(emp))
    (u₀ := initOf (Pipeline.cells cfgs cellOf_inj) (Pipeline.launchToks cfgs cellOf_inj)) (hu₀ := launch_ghost)
    (T₀ := fun c => iprop(StableHlo.held (c : Thread nD τ) (Pipeline.ucRefs τ sig) (launchVal m c) ∗ R c))
    (Tₙ := lastState m)
    (hch := ⟨fun _ => .rfl, fun _ => .rfl, fun _ => .rfl, fun _ => .rfl, fun _ => .rfl, fun _ => .rfl, fun _ => .rfl,
      fun c => last_regroup m c⟩)
    (hinit := ?hinit)
    (QY := fun c s => s.mem ((c.tc : Thread nD τ).loc main_v16) = o16 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?hfin) (hQ := fun _ h => h)
  case hmain =>
    -- the program is the run of its seven items
    rewrite [main_segs adm (pdats m) () 𝒱₀ L lv
      (hseg hostOps0 hostOps0_sub hostOps0_fresh (launchVal m))
      (hseg hostOps1 hostOps1_sub hostOps1_fresh (Y2 m))
      (hseg hostOps3 hostOps3_sub hostOps3_fresh (Y5 m))
      (reg0 m) (reg1 m) (reg2 m) (reg3 m) rfl rfl rfl c]
    exact .rfl
  case hnd =>
    -- the four pipelines are entered once each
    simp only [runSegs, Pipeline.Seg.pipes_host, Pipeline.Seg.pipes_region, Pipeline.Seg.pipes_nil]
    decide
  case hinit =>
    -- core by core: the unscoped buffers at the launch memory are the first state's buffers; the generator register and
    -- the dues (nothing, to nobody) are the rest; the counters, the credit and the level facts are not needed
    refine Pipeline.initEach L lv fun c => ?_
    rw [Pipeline.unscopedBufs_held c (launchVal m c)]
    iintro ⟨⟨Hbufs, -, Hdues, -, Hreg, -⟩, -⟩
    imodintro
    isplitl [Hbufs]
    · iexact Hbufs
    · isplitl [Hreg]
      · iexists (ρ c); iexact Hreg
      · iexists ∅; iexact Hdues
  case hfin =>
    -- the last state against a final memory: every unscoped buffer is read at the contents at the return, which have
    -- the result at what the last launch leaves and each argument at its launch contents
    iintro ⟨⟨Hbufs, -⟩, HSI⟩
    unfold StableHlo.held
    ihave Hread := (pointsTo_read_all (Pipeline.ucRefs τ sig) (fun b => ((c : Thread nD τ).1, b)) (Y7 m c) s') $$ [Hbufs HSI]
    · isplitl [Hbufs] <;> iassumption
    icases Hread with ⟨%hmem, HSI⟩
    imodintro
    isplitr
    · ipureintro
      exact ⟨(hmem _ (ucMem main_v16 (by decide))).trans (Y7_main_v16 m c),
        (hmem _ (ucMem main_arg0 (by decide))).trans (Y7_main_arg0 m c),
        (hmem _ (ucMem main_arg1 (by decide))).trans (Y7_main_arg1 m c),
        (hmem _ (ucMem main_arg2 (by decide))).trans (Y7_main_arg2 m c),
        (hmem _ (ucMem main_arg3 (by decide))).trans (Y7_main_arg3 m c),
        (hmem _ (ucMem main_arg4 (by decide))).trans (Y7_main_arg4 m c),
        (hmem _ (ucMem main_arg5 (by decide))).trans (Y7_main_arg5 m c)⟩
    · iexact HSI

end Cert.KernelIdeal.Hand

end
-- ==== Proof.Formulas.lean ====
/-
  The two programs' results as index-by-index formulas over the extended reals.

  Both programs take a node-feature matrix X [8192, 1024], two weight matrices W1 [1024, 256] and W2 [256, 64], and a
  sparse matrix in coordinate form: 65536 entries, entry e carrying a value, a column (source) and a row (destination).
  Both compute emb = L · (relu (L · (X · W1)) · W2) for the sparse matrix L, then, row by row, the softmax of the negated
  squared distances between the rows of emb, plus a small constant.

  They differ in how L acts. One side first makes L dense — entry e is added at the flat position row · 8192 + column of
  an [8192 · 8192] array, read back as a matrix `adj` — and multiplies by it (`embK`); the other gathers the source row
  of each entry, scales it by the entry's value and adds it into the destination row (`embR`). And the first side drops
  the row-constant term of the distance before the softmax (`logitK`), where the second keeps it (`negR`).

  The functions below are stated over plain `Fin`-indexed families so that they mention no program; the modules that read
  each program's result at an index land on exactly these terms.
-/
import Idealize.ShloMosaic.PureOps.Ideal

noncomputable section

open scoped BigOperators

namespace Cert.Formulas

open Idealize.ShloMosaic

/-- What both formulas are functions of. `srcN e` is the row of the feature table entry `e` reads (its source);
    `dstI e` the entry's destination row read as a signed integer; `flat e` the signed reading of the flat position
    `destination · 8192 + source` as the dense side computes it in 32-bit words; `two` and `eps` the two float
    literals both programs carry (2 and 1e-10). -/
structure Inputs where
  X : Fin 8192 → Fin 1024 → EReal
  W1 : Fin 1024 → Fin 256 → EReal
  W2 : Fin 256 → Fin 64 → EReal
  val : Fin 65536 → EReal
  srcN : Fin 65536 → Fin 8192
  dstI : Fin 65536 → ℤ
  flat : Fin 65536 → ℤ
  two : EReal
  eps : EReal

variable (I : Inputs)

/-- X · W1. -/
def H1 (p : Fin 8192) (o : Fin 256) : EReal := ∑ k : Fin 1024, I.X p k * I.W1 k o

/-! ## The dense side -/

/-- The dense matrix: at (p, r) the sum of the values of the entries whose flat position is p · 8192 + r. -/
def adj (p r : Fin 8192) : EReal :=
  ∑ e ∈ Finset.univ.filter (fun e : Fin 65536 => I.flat e = (p.val : ℤ) * 8192 + (r.val : ℤ)), I.val e

/-- relu (adj · H1) · W2. -/
def hK (p : Fin 8192) (j : Fin 64) : EReal :=
  ∑ q : Fin 256, max (∑ r : Fin 8192, adj I p r * H1 I r q) 0 * I.W2 q j

/-- adj · hK. -/
def embK (p : Fin 8192) (j : Fin 64) : EReal := ∑ r : Fin 8192, adj I p r * hK I r j

/-- The squared norm of a row of embK. -/
def sqK (r : Fin 8192) : EReal := ∑ j : Fin 64, embK I r j * embK I r j

/-- 2 · ⟨emb p, emb q⟩ − |emb q|²: the negated squared distance without its term constant along the row. -/
def logitK (p q : Fin 8192) : EReal := I.two * (∑ j : Fin 64, embK I p j * embK I q j) - sqK I q

/-- The row's maximum, as the fold of max from −∞. -/
def rowmaxK (p : Fin 8192) : EReal := (Finset.univ : Finset (Fin 8192)).fold max ⊥ (logitK I p)

/-- The dense side's result. -/
def outK (p q : Fin 8192) : EReal :=
  Ideal.div (Ideal.exp (logitK I p q - rowmaxK I p)) (∑ q' : Fin 8192, Ideal.exp (logitK I p q' - rowmaxK I p)) + I.eps

/-! ## The gathering side -/

/-- L · H for a table H of rows: into row r, the sum over the entries whose destination is r of value · (source row of H). -/
def spmm {C : ℕ} (H : Fin 8192 → Fin C → EReal) (r : Fin 8192) (o : Fin C) : EReal :=
  ∑ e ∈ Finset.univ.filter (fun e : Fin 65536 => I.dstI e = (r.val : ℤ)), I.val e * H (I.srcN e) o

/-- relu (L · H1). -/
def hR (r : Fin 8192) (q : Fin 256) : EReal := max (spmm I (H1 I) r q) 0

/-- hR · W2. -/
def gR (r : Fin 8192) (j : Fin 64) : EReal := ∑ q : Fin 256, hR I r q * I.W2 q j

/-- L · gR. -/
def embR (r : Fin 8192) (j : Fin 64) : EReal := spmm I (gR I) r j

/-- The squared norm of a row of embR. -/
def sqR (r : Fin 8192) : EReal := ∑ j : Fin 64, embR I r j * embR I r j

/-- The negated squared distance −(|emb p|² + |emb q|² − 2 ⟨emb p, emb q⟩). -/
def negR (p q : Fin 8192) : EReal := -((sqR I p + sqR I q) - I.two * (∑ j : Fin 64, embR I p j * embR I q j))

/-- The row's maximum, as the fold of max from −∞. -/
def rowmaxR (p : Fin 8192) : EReal := (Finset.univ : Finset (Fin 8192)).fold max ⊥ (negR I p)

/-- The gathering side's result. -/
def outR (p q : Fin 8192) : EReal :=
  Ideal.div (Ideal.exp (negR I p q - rowmaxR I p)) (∑ q' : Fin 8192, Ideal.exp (negR I p q' - rowmaxR I p)) + I.eps

/-! ## When the two agree -/

/-- The hypotheses under which the two sides agree: every float a real number, every destination a row of the matrix,
    the flat position the one the destination and the source give without wrapping, and `two` the number 2. -/
structure Good : Prop where
  hX : ∀ p k, ∃ x : ℝ, I.X p k = (x : EReal)
  hW1 : ∀ k o, ∃ x : ℝ, I.W1 k o = (x : EReal)
  hW2 : ∀ q j, ∃ x : ℝ, I.W2 q j = (x : EReal)
  hval : ∀ e, ∃ x : ℝ, I.val e = (x : EReal)
  hdst : ∀ e, 0 ≤ I.dstI e ∧ I.dstI e < 8192
  hflat : ∀ e, I.flat e = I.dstI e * 8192 + ((I.srcN e).val : ℤ)
  htwo : I.two = ((2 : ℝ) : EReal)

end Cert.Formulas

end
-- ==== Proof.InputsOf.lean ====
/-
  The formulas' inputs read off the six argument arrays.

  The feature and weight matrices and the entries' values are read coordinate by coordinate. An entry's source index is
  read the way an array lookup reads it: a negative index is first moved up by the table's length 8192, and the
  result, read as a signed integer, is clamped into [0, 8191]. An entry's destination is its word read as a signed
  integer. The flat position is destination · 8192 + source computed in 32-bit words, then read signed.
-/
import proofs.«412745_j39127152066566_3_alg».proof.Proof.Formulas
import Idealize.ShloMosaic.Lib.ValueIdx

noncomputable section

namespace Cert.Formulas

open Idealize.ShloMosaic Idealize.ShloMosaic.ValueIdx

/-- A source index as the lookup normalises it: moved up by 8192 when negative. -/
def normSrc (w : BitVec 32) : BitVec 32 := Scalar.select (IntOp.cmpi .slt w 0#32) (IntOp.addi w 8192#32) w

/-- The flat position of an entry in 32-bit words: destination · 8192 + source. -/
def flatWord (d s : BitVec 32) : BitVec 32 := IntOp.addi (IntOp.muli d 8192#32) s

/-- The formulas' inputs, from the argument arrays. -/
def inputsOf (X : (⟨2, ![8192, 1024]⟩ : Shape).Idx → EReal) (W1 : (⟨2, ![1024, 256]⟩ : Shape).Idx → EReal)
    (W2 : (⟨2, ![256, 64]⟩ : Shape).Idx → EReal) (val : (⟨1, ![65536]⟩ : Shape).Idx → EReal)
    (src dst : IVec ⟨1, ![65536]⟩ 32) : Inputs where
  X p k := X (ix2 p k)
  W1 k o := W1 (ix2 k o)
  W2 q j := W2 (ix2 q j)
  val e := val (ix1 e)
  srcN e := ⟨min (normSrc (src (ix1 e))).toInt.toNat (8192 - 1), by omega⟩
  dstI e := (dst (ix1 e)).toInt
  flat e := (flatWord (dst (ix1 e)) (src (ix1 e))).toInt
  two := Ideal.ofBits .f32 0x40000000#32
  eps := Ideal.ofBits .f32 0x2EDBE6FF#32

/-- A family indexed by (row, column) as an [8192, 8192] array. -/
def asArray (f : Fin 8192 → Fin 8192 → EReal) : (⟨2, ![8192, 8192]⟩ : Shape).Idx → EReal := fun i => f (i 0) (i 1)

theorem asArray_apply (f : Fin 8192 → Fin 8192 → EReal) (p q : Fin 8192) : asArray f (ix2 p q) = f p q := rfl

end Cert.Formulas

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.KI.Val0.lean ====
/-
  The first matrix product's output array, read at an index.

  The launch X · W1 runs over 16 points; point t is handed rows 512 t … 512 t + 511 of the converted feature matrix
  and the whole weight matrix, and its body stores the 512 × 256 block of their product. Here that block is read at an
  index as a sum over the contracted axis; every point's block is shown to be the restriction, to the point's rows, of
  ONE function of the two whole arrays (entry (r, o) is the sum over k of X (r, k) · W (k, o)); the sixteen blocks are
  shown to cover the output array; and so the array after the last point is that function, whatever the arrays held
  when the launch was entered.
-/
import proofs.«412745_j39127152066566_3_alg».proof.Proof.KI.Reg0
import proofs.«412745_j39127152066566_3_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The product's dimension numbers: which operand entry each output entry and contraction index reads -/

/-- The left operand's row is the output's row. -/
theorem lhs_k0_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
/-- The left operand's column is the contraction index. -/
theorem lhs_k0_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
/-- The right operand's row is the contraction index. -/
theorem rhs_k0_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
/-- The right operand's column is the output's column. -/
theorem rhs_k0_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-! ## The stored block at an index -/

/-- Entry (p, o) of what the body stores: the casts to the same shape and the narrowing of the format change nothing at
    the ideal values, and the product accumulated into zero is the sum over the contracted axis. -/
theorem pay0_apply (a : Vec Ideal S512x1024 .bf16) (b : Vec Ideal S1024x256 .bf16) (p : Fin 512) (o : Fin 256) :
    k0_pay1 (F := Ideal) a b (ix2 p o) = ∑ k : Fin 1024, a (ix2 p k) * b (ix2 k o) := by
  unfold k0_pay1
  show FloatOps.matmul dot_S512x1024_S1024x256_S512x256_1_0_0_1_n_n none (shapeCast S512x1024 a shapeCasts_S512x1024_S512x1024)
      (shapeCast S1024x256 b shapeCasts_S1024x256_S1024x256) (constant (F := Ideal) S512x256 .f32 0x00000000#32) (ix2 p o) = _
  refine (congrArg (fun l => FloatOps.matmul dot_S512x1024_S1024x256_S512x256_1_0_0_1_n_n none l
      (shapeCast S1024x256 b shapeCasts_S1024x256_S1024x256) (constant (F := Ideal) S512x256 .f32 0x00000000#32) (ix2 p o))
    (shapeCast_self a shapeCasts_S512x1024_S512x1024)).trans ?_
  refine (congrArg (fun r => FloatOps.matmul dot_S512x1024_S1024x256_S512x256_1_0_0_1_n_n none a r
      (constant (F := Ideal) S512x256 .f32 0x00000000#32) (ix2 p o))
    (shapeCast_self b shapeCasts_S1024x256_S1024x256)).trans ?_
  exact Cert.LibPlainMatmul.matmul_zero_apply dot_S512x1024_S1024x256_S512x256_1_0_0_1_n_n none rfl rfl
    lhs_k0_0 lhs_k0_1 rhs_k0_0 rhs_k0_1 a b p o

/-! ## One function of the whole arrays -/

/-- The product of a whole 8192 × 1024 array and a whole 1024 × 256 array, entry by entry. -/
abbrev G0 (X : S8192x1024.Idx → EReal) (W : S1024x256.Idx → EReal) : S8192x256.Idx → EReal :=
  fun i => ∑ k : Fin 1024, X (ix2 (i 0) k) * W (ix2 k (i 1))

/-- A stored block whose left operand is rows 512 r … 512 r + 511 of X and whose right operand is W is those rows of
    the whole product: the block's entry j is the product's entry i whenever i is j moved down by 512 r rows. -/
theorem block_product0 (X : S8192x1024.Idx → EReal) (W : S1024x256.Idx → EReal)
    (a : Vec Ideal S512x1024 .bf16) (b : Vec Ideal S1024x256 .bf16) (r : ℕ)
    (ha : ∀ (x : S512x1024.Idx) (y : S8192x1024.Idx), (y 0).val = r * 512 + (x 0).val → (y 1).val = (x 1).val → a x = X y)
    (hb : ∀ x : S1024x256.Idx, b x = W x)
    (j : S512x256.Idx) (i : S8192x256.Idx) (h0 : (i 0).val = r * 512 + (j 0).val) (h1 : (i 1).val = (j 1).val) :
    k0_pay1 (F := Ideal) a b j = G0 X W i := by
  obtain ⟨p, o, rfl⟩ : ∃ (p : Fin 512) (o : Fin 256), j = ix2 p o := ⟨j 0, j 1, eq_ix2 j⟩
  rw [pay0_apply]
  show _ = ∑ k : Fin 1024, X (ix2 (i 0) k) * W (ix2 k (i 1))
  have e1 : i 1 = o := Fin.ext h1
  rw [e1]
  refine Finset.sum_congr rfl fun k _ => ?_
  rw [ha (ix2 p k) (ix2 (i 0) k) h0 rfl, hb]

section
variable (V : (c : Dev nD) → (b : Ref sig .tc) → Buf (Elt Ideal) ((c : Thread nD τ).loc b))

/-! ## Where each window's block sits in its array -/

theorem offsets0_zero : (![0, 0] : Fin 2 → Nat) = fun _ => 0 := funext fun a => by fin_cases a <;> rfl

/-- The index maps over the grid: the rows' window and the output's window are at block row t, column block 0; the
    weights' window is at block (0, 0) at every point. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows' block at point t is rows 512 t … 512 t + 511 of the first array. -/
theorem inBlk0_0_apply (c : Dev nD) (t : Fin cfg0.N) (x : S512x1024.Idx) (y : S8192x1024.Idx)
    (h0 : (y 0).val = t.val * 512 + (x 0).val) (h1 : (y 1).val = (x 1).val) :
    (inBlk0 V c 0 t : Vec Ideal S512x1024 .bf16) x = (V c main_v0 : S8192x1024.Idx → EReal) y := by
  obtain ⟨e0, e1, -, -, -, -⟩ := blockIdx0 t
  unfold inBlk0
  rw [View.read_apply]
  show V c main_v0 _ = V c main_v0 _
  congr 1
  funext a
  apply Fin.ext
  match a with
  | ⟨0, _⟩ => show win0_0.index t (0 : Fin 2) * 512 + 1 * (x 0).val = (y 0).val; rw [e0, h0]; omega
  | ⟨1, _⟩ => show win0_0.index t (1 : Fin 2) * 1024 + 1 * (x 1).val = (y 1).val; rw [e1, h1]; omega

/-- The weights' block at every point is the whole second array. -/
theorem inBlk0_1_apply (c : Dev nD) (t : Fin cfg0.N) (x : S1024x256.Idx) :
    (inBlk0 V c 1 t : Vec Ideal S1024x256 .bf16) x = (V c main_v1 : S1024x256.Idx → EReal) x := by
  obtain ⟨-, -, e2, e3, -, -⟩ := blockIdx0 t
  unfold inBlk0
  rw [View.read_apply]
  show V c main_v1 _ = V c main_v1 _
  congr 1
  funext a
  apply Fin.ext
  match a with
  | ⟨0, _⟩ => show win0_1.index t (0 : Fin 2) * 1024 + 1 * (x 0).val = (x 0).val; rw [e2]; omega
  | ⟨1, _⟩ => show win0_1.index t (1 : Fin 2) * 256 + 1 * (x 1).val = (x 1).val; rw [e3]; omega

/-! ## What a point writes back -/

/-- Point t writes back the restriction of the whole product to its block. -/
theorem flushed0_eq (c : Dev nD) (t : Fin cfg0.N) :
    (pd0 V c).flushed 2 t = ((cfg0.win 2).blk t).view.read (Elt Ideal) (G0 (V c main_v0) (V c main_v1)) := by
  show (cfg0.win 2).cut (grid0.coords t) ((pd0 V c).after 2 t) = _
  rw [pd0_after_2]
  unfold res0
  rw [View.canon_unit_zero offsets0_zero]
  simp only [View.ld_unit_zero (S := S512x1024) offsets0_zero, View.ld_unit_zero (S := S1024x256) offsets0_zero]
  obtain ⟨-, -, -, -, e4, e5⟩ := blockIdx0 t
  funext j
  show k0_pay1 (F := Ideal) (inBlk0 V c 0 t) (inBlk0 V c 1 t) j
    = G0 (V c main_v0) (V c main_v1) (((cfg0.win 2).blk t).view.emb j)
  refine block_product0 (V c main_v0) (V c main_v1) (inBlk0 V c 0 t) (inBlk0 V c 1 t) t.val
    (fun x y h0 h1 => inBlk0_0_apply V c t x y h0 h1) (fun x => inBlk0_1_apply V c t x)
    j (((cfg0.win 2).blk t).view.emb j) ?_ ?_
  · show win0_2.index t (0 : Fin 2) * 512 + 1 * (j 0).val = t.val * 512 + (j 0).val
    rw [e4]; omega
  · show win0_2.index t (1 : Fin 2) * 256 + 1 * (j 1).val = (j 1).val
    rw [e5]; omega

/-! ## The blocks cover the output -/

/-- Output row r is in the block of point r / 512. -/
theorem cover0 (i : S8192x256.Idx) :
    ∃ t : Fin cfg0.N, (cfg0.win 2).flush t = true ∧ i ∈ ((cfg0.win 2).blk t).view.set := by
  have hi0 : (i 0).val < 8192 := idx2_lt0 i
  have hi1 : (i 1).val < 256 := idx2_lt1 i
  have hN : cfg0.N = 16 := N_0
  obtain ⟨t, ht⟩ : ∃ t : Fin cfg0.N, t.val = (i 0).val / 512 := ⟨⟨(i 0).val / 512, by rw [hN]; omega⟩, rfl⟩
  obtain ⟨-, -, -, -, e4, e5⟩ := blockIdx0 t
  refine ⟨t, flush0_2 t, ?_⟩
  show i ∈ ((View.whole main_v3).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    rw [e4, ht]; omega
  | ⟨1, _⟩ =>
    show win0_2.index t (1 : Fin 2) * 256 ≤ (i 1).val ∧ (i 1).val < win0_2.index t (1 : Fin 2) * 256 + 256
    rw [e5]; omega

/-! ## The array after the last point -/

/-- The output array after the launch is the whole product of the two arrays the launch found. -/
theorem final0 (c : Dev nD) : (pd0 V c).arrAt 2 cfg0.N = G0 (V c main_v0) (V c main_v1) :=
  (pd0 V c).arrAt_eq_of_cover 2 (G0 (V c main_v0) (V c main_v1)) (fun t _ => flushed0_eq V c t) cover0

/-- The same, entry by entry. -/
theorem final0_apply (c : Dev nD) (p : Fin 8192) (o : Fin 256) :
    (pd0 V c).arrAt 2 cfg0.N (ix2 p o)
      = ∑ k : Fin 1024, @HMul.hMul EReal EReal EReal instHMul (V c main_v0 (ix2 p k)) (V c main_v1 (ix2 k o)) :=
  congrFun (final0 V c) (ix2 p o)

/-- The same over the two arrays named by their literal types: with A and B the arrays the launch found, entry (p, o) of
    the output is the sum over k of A (p, k) · B (k, o). -/
theorem final0_apply_of (c : Dev nD) (A : S8192x1024.Idx → EReal) (B : S1024x256.Idx → EReal)
    (hA : V c main_v0 = A) (hB : V c main_v1 = B) (p : Fin 8192) (o : Fin 256) :
    (pd0 V c).arrAt 2 cfg0.N (ix2 p o) = ∑ k : Fin 1024, A (ix2 p k) * B (ix2 k o) := by
  subst hA; subst hB
  exact final0_apply V c p o

end

end Cert.KernelIdeal.Hand

end
-- ==== Proof.KI.Val1.lean ====
/-
  The aggregation launch read as a value, at the ideal numbers: with A the 8192 × 8192 matrix, H the 8192 × 256 matrix and
  W the 256 × 64 matrix the launch finds in its three input arrays, its output array ends holding

      (p, j)  ↦  ∑ q, max (∑ r, A (p, r) · H (r, q)) 0 · W (q, j).

  The steps: the two matrix products of the body read at an index (each contracts the left operand's columns with the
  right operand's rows, the narrowing conversions between them being the identity on ideal numbers); the value the body
  stores, at an index of its block, over arbitrary blocks; the three input blocks of a grid point as parts of their
  arrays (rows 256 t … 256 t + 255 of A; all of H; all of W), hence what the point writes back as the restriction to rows
  256 t … 256 t + 255 of one function of the three arrays; the 32 row blocks cover the output array, so after the last
  point the array is that function.
-/
import proofs.«412745_j39127152066566_3_alg».proof.Proof.KI.Reg1
import proofs.«412745_j39127152066566_3_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open scoped BigOperators
open Cert.KernelIdeal Cert.KernelIdeal.Gen
open Idealize.ShloMosaic Idealize.ShloMosaic.TcCoe Idealize.ShloMosaic.ValueIdx
open Idealize.SL.Sem
open Idealize.ShloMosaic.Pipeline (Dat)

/-! ## The two products' index maps

Both products keep the left operand's rows and the right operand's columns and contract the left operand's axis 1 with
the right operand's axis 0. For each of the two records, the four facts that say so. -/

theorem lhs_ah_0 (i : S256x256.Idx) (q : dot_S256x8192_S8192x256_S256x256_1_0_0_1_n_n.contr.Idx) :
    (dot_S256x8192_S8192x256_S256x256_1_0_0_1_n_n.lhsIdx i q 0).val = (i 0).val := by
  unfold DotDims.lhsIdx
  rw [dif_neg (show ¬(0 : Fin S256x8192.rank) ∈ dot_S256x8192_S8192x256_S256x256_1_0_0_1_n_n.lhsBatch by decide), dif_pos (show (0 : Fin S256x8192.rank) ∈ dot_S256x8192_S8192x256_S256x256_1_0_0_1_n_n.lhsNonContracting by decide)]
  rfl
theorem lhs_ah_1 (i : S256x256.Idx) (q : dot_S256x8192_S8192x256_S256x256_1_0_0_1_n_n.contr.Idx) :
    (dot_S256x8192_S8192x256_S256x256_1_0_0_1_n_n.lhsIdx i q 1).val = (q ⟨0, by decide⟩).val :=
  dot_S256x8192_S8192x256_S256x256_1_0_0_1_n_n.lhsIdx_val_of_single rfl i q
theorem rhs_ah_0 (i : S256x256.Idx) (q : dot_S256x8192_S8192x256_S256x256_1_0_0_1_n_n.contr.Idx) :
    (dot_S256x8192_S8192x256_S256x256_1_0_0_1_n_n.rhsIdx i q 0).val = (q ⟨0, by decide⟩).val :=
  dot_S256x8192_S8192x256_S256x256_1_0_0_1_n_n.rhsIdx_val_of_single rfl i q
theorem rhs_ah_1 (i : S256x256.Idx) (q : dot_S256x8192_S8192x256_S256x256_1_0_0_1_n_n.contr.Idx) :
    (dot_S256x8192_S8192x256_S256x256_1_0_0_1_n_n.rhsIdx i q 1).val = (i 1).val := by
  unfold DotDims.rhsIdx
  rw [dif_neg (show ¬(1 : Fin S8192x256.rank) ∈ dot_S256x8192_S8192x256_S256x256_1_0_0_1_n_n.rhsBatch by decide), dif_pos (show (1 : Fin S8192x256.rank) ∈ dot_S256x8192_S8192x256_S256x256_1_0_0_1_n_n.rhsNonContracting by decide)]
  rfl

theorem lhs_zw_0 (i : S256x64.Idx) (q : dot_S256x256_S256x64_S256x64_1_0_0_1_n_n.contr.Idx) :
    (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem lhs_zw_1 (i : S256x64.Idx) (q : dot_S256x256_S256x64_S256x64_1_0_0_1_n_n.contr.Idx) :
    (dot_S256x256_S256x64_S256x64_1_0_0_1_n_n.lhsIdx i q 1).val = (q ⟨0, by decide⟩).val :=
  dot_S256x256_S256x64_S256x64_1_0_0_1_n_n.lhsIdx_val_of_single rfl i q
theorem rhs_zw_0 (i : S256x64.Idx) (q : dot_S256x256_S256x64_S256x64_1_0_0_1_n_n.contr.Idx) :
    (dot_S256x256_S256x64_S256x64_1_0_0_1_n_n.rhsIdx i q 0).val = (q ⟨0, by decide⟩).val :=
  dot_S256x256_S256x64_S256x64_1_0_0_1_n_n.rhsIdx_val_of_single rfl i q
theorem rhs_zw_1 (i : S256x64.Idx) (q : dot_S256x256_S256x64_S256x64_1_0_0_1_n_n.contr.Idx) :
    (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-! ## The body's value at an index -/

/-- The inner product A · H of the loaded blocks, at (p, q). -/
theorem inner_apply (x0 : Vec Ideal S256x8192 .f32) (x3 : Vec Ideal S8192x256 .bf16) (p : Fin 256) (q : Fin 256) :
    FloatOps.matmul dot_S256x8192_S8192x256_S256x256_1_0_0_1_n_n none
        (truncf .bf16 (shapeCast S256x8192 x0 shapeCasts_S256x8192_S256x8192) bitsLt_bf16_f32 : FVec Ideal S256x8192 .bf16)
        (shapeCast S8192x256 x3 shapeCasts_S8192x256_S8192x256 : FVec Ideal S8192x256 .bf16)
        (constant (F := Ideal) S256x256 .f32 0x00000000#32) (ix2 p q)
      = ∑ r : Fin 8192, x0 (ix2 p r) * x3 (ix2 r q) := by
  refine (Cert.LibPlainMatmul.matmul_zero_apply dot_S256x8192_S8192x256_S256x256_1_0_0_1_n_n none rfl rfl
    lhs_ah_0 lhs_ah_1 rhs_ah_0 rhs_ah_1 _ _ p q).trans ?_
  refine Finset.sum_congr rfl fun r _ => ?_
  rw [shapeCast_self, shapeCast_self]
  rfl

/-- The body's stored value at (p, j): relu of the inner product's row p against column j of the third block. -/
theorem pay1_apply (x0 : Vec Ideal S256x8192 .f32) (x3 : Vec Ideal S8192x256 .bf16) (x9 : Vec Ideal S256x64 .bf16)
    (p : Fin 256) (j : Fin 64) :
    k1_pay1 x0 x3 x9 (ix2 p j)
      = ∑ q : Fin 256, max (∑ r : Fin 8192, x0 (ix2 p r) * x3 (ix2 r q)) 0 * x9 (ix2 q j) := by
  unfold k1_pay1
  refine (Cert.LibPlainMatmul.matmul_zero_apply dot_S256x256_S256x64_S256x64_1_0_0_1_n_n none rfl rfl
    lhs_zw_0 lhs_zw_1 rhs_zw_0 rhs_zw_1 _ _ p j).trans ?_
  refine Finset.sum_congr rfl fun q _ => ?_
  refine congrArg₂ (· * ·) ?_ (congrFun (shapeCast_self x9 _) _)
  exact congrArg₂ max (inner_apply x0 x3 p q) Ideal.ofBits_zero_f32

/-! ## From the blocks to the array -/

section
variable (V : (c : Dev nD) → (b : Ref sig .tc) → Buf (Elt Ideal) ((c : Thread nD τ).loc b))

theorem zero_offsets : (![0, 0] : Fin 2 → Nat) = fun _ => 0 := funext fun a => by fin_cases a <;> rfl

/-- The whole result as one function of the three arrays: entry (P, j) is the sum over q of relu (A · H) (P, q) times
    W (q, j). -/
abbrev G1 (A : S8192x8192.Idx → EReal) (H : S8192x256.Idx → EReal) (W : S256x64.Idx → EReal) : S8192x64.Idx → EReal :=
  fun i => ∑ q : Fin 256, max (∑ r : Fin 8192, A (ix2 (i 0) r) * H (ix2 r q)) 0 * W (ix2 q (i 1))

/-- The windows' block indices over the grid: the rows' window and the output's move one block of rows a point; the
    two whole-array windows stay at block zero. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point t's block of A is rows 256 t … 256 t + 255 of it. -/
theorem blkA_apply (c : Dev nD) (t : Fin cfg1.N) (p : Fin 256) (r : Fin 8192) (P : Fin 8192)
    (hP : P.val = t.val * 256 + p.val) :
    (inBlk1 V c 0 t : S256x8192.Idx → EReal) (ix2 p r) = (V c main_v10 : S8192x8192.Idx → EReal) (ix2 P r) := by
  obtain ⟨e0, e1, -⟩ := idx_facts1 t
  show (V c main_v10 : S8192x8192.Idx → EReal) (((cfg1.win 0).blk t).view.emb (ix2 p r)) = _
  congr 1
  funext a; apply Fin.ext
  match a with
  | ⟨0, _⟩ => show win1_0.index t (0 : Fin 2) * 256 + 1 * p.val = P.val; omega
  | ⟨1, _⟩ => show win1_0.index t (1 : Fin 2) * 8192 + 1 * r.val = r.val; omega

/-- Every point's block of H is H. -/
theorem blkH_eq (c : Dev nD) (t : Fin cfg1.N) :
    (inBlk1 V c 1 t : S8192x256.Idx → EReal) = (V c main_v3 : S8192x256.Idx → EReal) := by
  obtain ⟨-, -, e0, e1, -⟩ := idx_facts1 t
  funext y
  show (V c main_v3 : S8192x256.Idx → EReal) (((cfg1.win 1).blk t).view.emb y) = _
  congr 1
  funext a; apply Fin.ext
  match a with
  | ⟨0, _⟩ => show win1_1.index t (0 : Fin 2) * 8192 + 1 * (y 0).val = (y 0).val; omega
  | ⟨1, _⟩ => show win1_1.index t (1 : Fin 2) * 256 + 1 * (y 1).val = (y 1).val; omega

/-- Every point's block of W is W. -/
theorem blkW_eq (c : Dev nD) (t : Fin cfg1.N) :
    (inBlk1 V c 2 t : S256x64.Idx → EReal) = (V c main_v2 : S256x64.Idx → EReal) := by
  obtain ⟨-, -, -, -, e0, e1, -⟩ := idx_facts1 t
  funext y
  show (V c main_v2 : S256x64.Idx → EReal) (((cfg1.win 2).blk t).view.emb y) = _
  congr 1
  funext a; apply Fin.ext
  match a with
  | ⟨0, _⟩ => show win1_2.index t (0 : Fin 2) * 256 + 1 * (y 0).val = (y 0).val; omega
  | ⟨1, _⟩ => show win1_2.index t (1 : Fin 2) * 64 + 1 * (y 1).val = (y 1).val; omega

/-- The value computed from three blocks of which the first is rows 256 n … of A and the others are H and W, at (p, j),
    is the whole result at (256 n + p, j). -/
theorem block_value (A : S8192x8192.Idx → EReal) (H : S8192x256.Idx → EReal) (W : S256x64.Idx → EReal)
    (x0 : Vec Ideal S256x8192 .f32) (x3 : Vec Ideal S8192x256 .bf16) (x9 : Vec Ideal S256x64 .bf16) (n : Nat)
    (hx0 : ∀ (p : Fin 256) (r : Fin 8192) (P : Fin 8192), P.val = n * 256 + p.val → x0 (ix2 p r) = A (ix2 P r))
    (hx3 : x3 = H) (hx9 : x9 = W)
    (p : Fin 256) (j : Fin 64) (P : Fin 8192) (hP : P.val = n * 256 + p.val) :
    res1 (F := Ideal) x0 x3 x9 (ix2 p j) = G1 A H W (ix2 P j) := by
  subst hx3; subst hx9
  unfold res1
  rw [View.canon_unit_zero zero_offsets]
  simp only [View.ld_unit_zero (S := S256x8192) zero_offsets, View.ld_unit_zero (S := S8192x256) zero_offsets,
    View.ld_unit_zero (S := S256x64) zero_offsets]
  refine (pay1_apply x0 x3 x9 p j).trans ?_
  refine Finset.sum_congr rfl fun q _ => ?_
  refine congrArg (fun z => max z 0 * x9 (ix2 q j)) ?_
  exact Finset.sum_congr rfl fun r _ => congrArg (· * x3 (ix2 r q)) (hx0 p r P hP)

/-- What point t writes back is its block of the whole result. -/
theorem flushed1_eq (c : Dev nD) (t : Fin cfg1.N) :
    (pd1 V c).flushed 3 t = ((cfg1.win 3).blk t).view.read (Elt Ideal)
      (G1 (V c main_v10) (V c main_v3) (V c main_v2)) := by
  show (cfg1.win 3).cut (grid1.coords t) ((pd1 V c).after 3 t) = _
  rw [pd1_after_3]
  obtain ⟨-, -, -, -, -, -, e0, e1⟩ := idx_facts1 t
  funext y
  obtain ⟨p, j, rfl⟩ : ∃ (p : Fin 256) (j : Fin 64), y = ix2 p j := ⟨y 0, y 1, eq_ix2 y⟩
  have hp : p.val < 256 := p.isLt
  have ht : t.val < 32 := lt_of_lt_of_eq t.isLt N_1
  show res1 (F := Ideal) (inBlk1 V c 0 t) (inBlk1 V c 1 t) (inBlk1 V c 2 t) (ix2 p j)
    = G1 (V c main_v10) (V c main_v3) (V c main_v2) (((cfg1.win 3).blk t).view.emb (ix2 p j))
  refine (block_value (V c main_v10) (V c main_v3) (V c main_v2) (inBlk1 V c 0 t) (inBlk1 V c 1 t) (inBlk1 V c 2 t)
    t.val (fun p r P hP => blkA_apply V c t p r P hP) (blkH_eq V c t) (blkW_eq V c t) p j
    ⟨t.val * 256 + p.val, by omega⟩ rfl).trans ?_
  refine congrArg (G1 (V c main_v10) (V c main_v3) (V c main_v2)) ?_
  funext a; apply Fin.ext
  match a with
  | ⟨0, _⟩ => show t.val * 256 + p.val = win1_3.index t (0 : Fin 2) * 256 + 1 * p.val; omega
  | ⟨1, _⟩ => show j.val = win1_3.index t (1 : Fin 2) * 64 + 1 * j.val; omega

end

section
variable (V : (c : Dev nD) → (b : Ref sig .tc) → Buf (Elt Ideal) ((c : Thread nD τ).loc b))

/-- An index of the result array is in point t's block iff each coordinate is in the block's range on its axis. -/
theorem mem_blk1 (t : Fin cfg1.N) (i : S8192x64.Idx) :
    i ∈ ((cfg1.win 3).blk t).view.set ↔ ∀ a : Fin 2, win1_3.index t a * S256x64.size a ≤ (i a).val
      ∧ (i a).val < win1_3.index t a * S256x64.size a + S256x64.size a := by
  show i ∈ ((View.whole main_v11).slice (win1_3.rect t)).set ↔ _
  rw [View.set_slice_whole, Rect.mem_set_unit]
  exact Iff.rfl

/-- Row P of the result lies in the block of point P / 256, which is written back. -/
theorem cover1 (i : S8192x64.Idx) :
    ∃ t : Fin cfg1.N, (cfg1.win 3).flush t = true ∧ i ∈ ((cfg1.win 3).blk t).view.set := by
  have h0 : (i 0).val < 8192 := (i 0).isLt
  have h1 : (i 1).val < 64 := (i 1).isLt
  have hN : cfg1.N = 32 := N_1
  refine ⟨⟨(i 0).val / 256, by rw [hN]; omega⟩, flush1_3 _, ?_⟩
  rw [mem_blk1]
  obtain ⟨-, -, -, -, -, -, e0, e1⟩ := idx_facts1 ⟨(i 0).val / 256, by rw [hN]; omega⟩
  intro a
  match a with
  | ⟨0, _⟩ =>
    show win1_3.index ⟨(i 0).val / 256, _⟩ (0 : Fin 2) * 256 ≤ (i 0).val
      ∧ (i 0).val < win1_3.index ⟨(i 0).val / 256, _⟩ (0 : Fin 2) * 256 + 256
    rw [e0]; show (i 0).val / 256 * 256 ≤ (i 0).val ∧ (i 0).val < (i 0).val / 256 * 256 + 256; omega
  | ⟨1, _⟩ =>
    show win1_3.index ⟨(i 0).val / 256, _⟩ (1 : Fin 2) * 64 ≤ (i 1).val
      ∧ (i 1).val < win1_3.index ⟨(i 0).val / 256, _⟩ (1 : Fin 2) * 64 + 64
    rw [e1]; omega

/-- The result array after the last point is the whole result of the three arrays the launch found. -/
theorem final1 (c : Dev nD) :
    (pd1 V c).arrAt 3 cfg1.N = G1 (V c main_v10) (V c main_v3) (V c main_v2) :=
  (pd1 V c).arrAt_eq_of_cover 3 (G1 (V c main_v10) (V c main_v3) (V c main_v2)) (fun t _ => flushed1_eq V c t) cover1

/-- The same, read at an index: entry (p, j) is ∑ q, max (∑ r, A (p, r) · H (r, q)) 0 · W (q, j) at the three arrays the
    launch found. -/
theorem final1_apply (c : Dev nD) (p : Fin 8192) (j : Fin 64) :
    (pd1 V c).arrAt 3 cfg1.N (ix2 p j) = G1 (V c main_v10) (V c main_v3) (V c main_v2) (ix2 p j) :=
  congrFun (final1 V c) (ix2 p j)

/-- The same with the three arrays named: whatever functions A, H, W the arrays the launch found are, entry (p, j) of
    the result is ∑ q, max (∑ r, A (p, r) · H (r, q)) 0 · W (q, j). -/
theorem final1_apply_of (c : Dev nD) (A : S8192x8192.Idx → EReal) (H : S8192x256.Idx → EReal) (W : S256x64.Idx → EReal)
    (hA : V c main_v10 = A) (hH : V c main_v3 = H) (hW : V c main_v2 = W) (p : Fin 8192) (j : Fin 64) :
    (pd1 V c).arrAt 3 cfg1.N (ix2 p j)
      = ∑ q : Fin 256, max (∑ r : Fin 8192, A (ix2 p r) * H (ix2 r q)) 0 * W (ix2 q j) := by
  subst hA; subst hH; subst hW
  exact final1_apply V c p j

end

end Cert.KernelIdeal.Hand

end
-- ==== Proof.KI.Val2.lean ====
/-
  The last matrix product's result array, read at an index.

  At the ideal values, whatever the launch finds in the core's buffers (V), the 8192 × 64 output array after the last
  grid point holds, at (p, j), the sum over r of the left array at (p, r) times the right array at (r, j).

  The steps: the body's product block read at an index is the sum over the contracted coordinate of the two loaded
  blocks' entries; a block's entry is the array's entry at block index × block extent + the coordinate inside the
  block, so what point t writes back is the restriction to its rows of ONE function of the two arrays, the full
  product; the 32 row blocks cover the array (row r lies in block r / 256); hence the array ends at that function.
-/
import proofs.«412745_j39127152066566_3_alg».proof.Proof.KI.Reg2
import proofs.«412745_j39127152066566_3_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The product block at an index -/

/-- The left operand's index at output (i, ·) and contraction k: its row is the output's row, -/
theorem lhs_prod2_0 (i : S256x64.Idx) (q : dot_S256x8192_S8192x64_S256x64_1_0_0_1_n_n.contr.Idx) :
    (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide), dif_pos (show (0 : Fin S256x8192.rank) ∈ dot_S256x8192_S8192x64_S256x64_1_0_0_1_n_n.lhsNonContracting by decide)]
  rfl
/-- its column the contracted coordinate. -/
theorem lhs_prod2_1 (i : S256x64.Idx) (q : dot_S256x8192_S8192x64_S256x64_1_0_0_1_n_n.contr.Idx) :
    (dot_S256x8192_S8192x64_S256x64_1_0_0_1_n_n.lhsIdx i q 1).val = (q ⟨0, by decide⟩).val :=
  dot_S256x8192_S8192x64_S256x64_1_0_0_1_n_n.lhsIdx_val_of_single rfl i q
/-- The right operand's: its row is the contracted coordinate, -/
theorem rhs_prod2_0 (i : S256x64.Idx) (q : dot_S256x8192_S8192x64_S256x64_1_0_0_1_n_n.contr.Idx) :
    (dot_S256x8192_S8192x64_S256x64_1_0_0_1_n_n.rhsIdx i q 0).val = (q ⟨0, by decide⟩).val :=
  dot_S256x8192_S8192x64_S256x64_1_0_0_1_n_n.rhsIdx_val_of_single rfl i q
/-- its column the output's column. -/
theorem rhs_prod2_1 (i : S256x64.Idx) (q : dot_S256x8192_S8192x64_S256x64_1_0_0_1_n_n.contr.Idx) :
    (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide), dif_pos (show (1 : Fin S8192x64.rank) ∈ dot_S256x8192_S8192x64_S256x64_1_0_0_1_n_n.rhsNonContracting by decide)]
  rfl

/-- The body's stored block at (p, o): the casts to the same shape are the identity and the product into the zero
    accumulator is the plain sum over the 8192 contracted coordinates. -/
theorem pay2_apply (x0 : Vec Ideal S256x8192 .f32) (x1 : Vec Ideal S8192x64 .f32) (p : Fin 256) (o : Fin 64) :
    k2_pay1 (F := Ideal) x0 x1 (ix2 p o) = ∑ k : Fin 8192, x0 (ix2 p k) * x1 (ix2 k o) := by
  unfold k2_pay1
  refine (Cert.LibPlainMatmul.matmul_zero_apply dot_S256x8192_S8192x64_S256x64_1_0_0_1_n_n (some .fp32) rfl rfl
    lhs_prod2_0 lhs_prod2_1 rhs_prod2_0 rhs_prod2_1
    (shapeCast S256x8192 x0 shapeCasts_S256x8192_S256x8192) (shapeCast S8192x64 x1 shapeCasts_S8192x64_S8192x64) p o).trans ?_
  rw [shapeCast_self, shapeCast_self]

/-! ## One function of the two arrays -/

/-- The full product of an 8192 × 8192 array and an 8192 × 64 array, index by index. -/
abbrev prod2 (a0 : S8192x8192.Idx → EReal) (a1 : S8192x64.Idx → EReal) : S8192x64.Idx → EReal :=
  fun i => ∑ r : Fin 8192, a0 (ix2 (n0 := 8192) (i 0) r) * a1 (ix2 (n1 := 64) r (i 1))

/-- A point's block of products is the full product's restriction: if the left block is rows T · 256 … of the left
    array (e0 places a block index in the array) and the right block is the right array (e1 likewise, at offset
    zero), the body's block at y is the full product at the index whose row is T · 256 + y's row and whose column
    is y's. -/
theorem point_prod2 (x0 : Vec Ideal S256x8192 .f32) (x1 : Vec Ideal S8192x64 .f32)
    (a0 : S8192x8192.Idx → EReal) (a1 : S8192x64.Idx → EReal)
    (e0 : S256x8192.Idx → S8192x8192.Idx) (e1 : S8192x64.Idx → S8192x64.Idx) (T : ℕ)
    (h0 : ∀ y, x0 y = a0 (e0 y)) (h1 : ∀ y, x1 y = a1 (e1 y))
    (c00 : ∀ y, (e0 y 0).val = T * 256 + (y 0).val) (c01 : ∀ y, (e0 y 1).val = (y 1).val)
    (c10 : ∀ y, (e1 y 0).val = (y 0).val) (c11 : ∀ y, (e1 y 1).val = (y 1).val)
    (y : S256x64.Idx) (i : S8192x64.Idx) (hi0 : (i 0).val = T * 256 + (y 0).val) (hi1 : (i 1).val = (y 1).val) :
    k2_pay1 (F := Ideal) x0 x1 y = prod2 a0 a1 i := by
  obtain ⟨p, o, rfl⟩ : ∃ (p : Fin 256) (o : Fin 64), y = ix2 p o := ⟨y 0, y 1, eq_ix2 y⟩
  rw [pay2_apply]
  refine Finset.sum_congr rfl fun k _ => ?_
  have ea : e0 (ix2 p k) = ix2 (n0 := 8192) (i 0) k := Shape.idx_ext₂ ((c00 _).trans hi0.symm) (c01 _)
  have eb : e1 (ix2 k o) = ix2 (n1 := 64) k (i 1) := Shape.idx_ext₂ (c10 _) ((c11 _).trans hi1.symm)
  rw [h0, h1, ea, eb]

/-! ## From blocks to the array -/

section
variable (V : (c : Dev nD) → (b : Ref sig .tc) → Buf (Elt Ideal) ((c : Thread nD τ).loc b))

theorem offsets2_zero : (![0, 0] : Fin 2 → Nat) = fun _ => 0 := funext fun a => by fin_cases a <;> rfl

/-- The index maps over the grid: the left window's and the output window's block row is the point's number, every
    other block coordinate is zero. -/
theorem idx_rows2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is its block of the full product of the two arrays as the launch finds them. -/
theorem flushed2_eq (c : Dev nD) (t : Fin cfg2.N) :
    (pd2 V c).flushed 2 t
      = ((cfg2.win 2).blk t).view.read (Elt Ideal) (prod2 (V c main_v10) (V c main_v11)) := by
  show (cfg2.win 2).cut (grid2.coords t) ((pd2 V c).after 2 t) = _
  rw [pd2_after_2]
  unfold res2
  rw [View.canon_unit_zero offsets2_zero]
  simp only [View.ld_unit_zero (S := S256x8192) offsets2_zero, View.ld_unit_zero (S := S8192x64) offsets2_zero]
  obtain ⟨e0, e1, e2, e3, e4, e5⟩ := idx_rows2 t
  funext y
  show k2_pay1 (F := Ideal) (inBlk2 V c 0 t) (inBlk2 V c 1 t) y
    = prod2 (V c main_v10) (V c main_v11) (((cfg2.win 2).blk t).view.emb y)
  refine point_prod2 (inBlk2 V c 0 t) (inBlk2 V c 1 t) (V c main_v10) (V c main_v11)
    (((cfg2.win 0).blk t).view.emb) (((cfg2.win 1).blk t).view.emb) t.val (fun _ => rfl) (fun _ => rfl)
    (fun z => ?_) (fun z => ?_) (fun z => ?_) (fun z => ?_) y (((cfg2.win 2).blk t).view.emb y) ?_ ?_
  · show win2_0.index t (0 : Fin 2) * 256 + 1 * (z 0).val = t.val * 256 + (z 0).val
    rw [e0]; omega
  · show win2_0.index t (1 : Fin 2) * 8192 + 1 * (z 1).val = (z 1).val
    rw [e1]; omega
  · show win2_1.index t (0 : Fin 2) * 8192 + 1 * (z 0).val = (z 0).val
    rw [e2]; omega
  · show win2_1.index t (1 : Fin 2) * 64 + 1 * (z 1).val = (z 1).val
    rw [e3]; omega
  · show win2_2.index t (0 : Fin 2) * 256 + 1 * (y 0).val = t.val * 256 + (y 0).val
    rw [e4]; omega
  · show win2_2.index t (1 : Fin 2) * 64 + 1 * (y 1).val = (y 1).val
    rw [e5]; omega

/-- An index of the output array is in point t's block iff each coordinate is in the block's range on its axis. -/
theorem mem_blk2 (t : Fin cfg2.N) (i : S8192x64.Idx) :
    i ∈ ((cfg2.win 2).blk t).view.set ↔ ∀ a : Fin 2, win2_2.index t a * S256x64.size a ≤ (i a).val
      ∧ (i a).val < win2_2.index t a * S256x64.size a + S256x64.size a := by
  show i ∈ ((View.whole main_v12).slice (win2_2.rect t)).set ↔ _
  rw [View.set_slice_whole, Rect.mem_set_unit]
  exact Iff.rfl

/-- The 32 row blocks cover the array: row r lies in the block of point r / 256. -/
theorem cover2 (i : S8192x64.Idx) :
    ∃ t : Fin cfg2.N, (cfg2.win 2).flush t = true ∧ i ∈ ((cfg2.win 2).blk t).view.set := by
  have hi0 : (i 0).val < 8192 := (i 0).isLt
  have hi1 : (i 1).val < 64 := (i 1).isLt
  have hN : cfg2.N = 32 := N_2
  obtain ⟨t, ht⟩ : ∃ t : Fin cfg2.N, t.val = (i 0).val / 256 := ⟨⟨(i 0).val / 256, by rw [hN]; omega⟩, rfl⟩
  obtain ⟨-, -, -, -, e4, e5⟩ := idx_rows2 t
  refine ⟨t, flush2_2 t, ?_⟩
  rw [mem_blk2]
  intro a
  match a with
  | ⟨0, _⟩ =>
    show win2_2.index t (0 : Fin 2) * 256 ≤ (i 0).val ∧ (i 0).val < win2_2.index t (0 : Fin 2) * 256 + 256
    rw [e4]; omega
  | ⟨1, _⟩ =>
    show win2_2.index t (1 : Fin 2) * 64 ≤ (i 1).val ∧ (i 1).val < win2_2.index t (1 : Fin 2) * 64 + 64
    rw [e5]; omega

/-- So the output array ends holding the full product of the two arrays as found. -/
theorem final2 (c : Dev nD) : (pd2 V c).arrAt 2 cfg2.N = prod2 (V c main_v10) (V c main_v11) :=
  (pd2 V c).arrAt_eq_of_cover 2 (prod2 (V c main_v10) (V c main_v11)) (fun t _ => flushed2_eq V c t) cover2

/-- The output array after the last point, at (p, j): the sum over r of left (p, r) times right (r, j). -/
theorem final2_apply (c : Dev nD) (p : Fin 8192) (j : Fin 64) :
    (pd2 V c).arrAt 2 cfg2.N (ix2 p j)
      = ∑ r : Fin 8192, @HMul.hMul EReal EReal EReal instHMul (V c main_v10 (ix2 p r)) (V c main_v11 (ix2 r j)) :=
  congrFun (final2 V c) (ix2 p j)

/-- The same over the two arrays named at their literal types. -/
theorem final2_apply_of (c : Dev nD) (A : S8192x8192.Idx → EReal) (H : S8192x64.Idx → EReal)
    (hA : V c main_v10 = A) (hH : V c main_v11 = H) (p : Fin 8192) (j : Fin 64) :
    (pd2 V c).arrAt 2 cfg2.N (ix2 p j) = ∑ r : Fin 8192, A (ix2 p r) * H (ix2 r j) := by
  subst hA; subst hH
  exact final2_apply V c p j

end

end Cert.KernelIdeal.Hand

end
-- ==== Proof.LibColumnForms.lean ====
/-
  The two layout steps of a `keepdims` reduction along the lanes, read at an index: a vector of `a` row results cast to
  the column `[a, 1]`, and that column broadcast along the lanes to `[a, b]`. Composed, every entry of row `p` of the
  result is the row's one reduced value.
-/
import Idealize.ShloMosaic.Lib.Pipeline.Value
import Idealize.ShloMosaic.Lib.ValueIdx

noncomputable section

open Idealize.ShloMosaic Idealize.ShloMosaic.ValueIdx

namespace Cert.LibColumnForms

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnForms

end
-- ==== Proof.KI.Val3.lean ====
/-
  The score-softmax launch read at an index, at the ideal values.

  Row p of the embedding matrix is scored against every row q: twice their inner product less q's offset. The launch
  leaves, at (p, q), the exponential of that score less the row's greatest score, divided by the sum over the row of
  those exponentials, plus a small constant. This module proves it of the array the launch's output window ends
  holding: first for one block over arbitrary loaded blocks, entry by entry; then for the block every grid point writes
  back, which is that point's rows of ONE function of the arrays the launch found; then, the blocks covering the
  array, for the array.
-/
import proofs.«412745_j39127152066566_3_alg».proof.Proof.KI.Reg3
import proofs.«412745_j39127152066566_3_alg».proof.Proof.LibPlainMatmul
import proofs.«412745_j39127152066566_3_alg».proof.Proof.LibColumnForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open scoped BigOperators
open Cert.KernelIdeal Cert.KernelIdeal.Gen
open Idealize.ShloMosaic Idealize.ShloMosaic.TcCoe Idealize.ShloMosaic.ValueIdx
open Idealize.SL.Sem
open Idealize.ShloMosaic.Pipeline (Dat Cfg Window)

section
variable (V : (c : Dev nD) → (b : Ref sig .tc) → Buf (Elt Ideal) ((c : Thread nD τ).loc b))

/-! ## One row's softmax -/

/-- From a row of scores L: at q, the exponential of L q less the row's greatest score, over the row's sum of such
    exponentials, plus the constant whose word is 0x2EDBE6FF. -/
def soft3 (L : Fin 8192 → EReal) (q : Fin 8192) : EReal :=
  Ideal.div (Ideal.exp (L q - (Finset.univ : Finset (Fin 8192)).fold max ⊥ L))
      (∑ q' : Fin 8192, Ideal.exp (L q' - (Finset.univ : Finset (Fin 8192)).fold max ⊥ L))
    + Ideal.ofBits .f32 0x2EDBE6FF#32

/-- The scores of a block: row p of the block a against row q of b, twice the inner product less m's entry q. -/
def lgB3 (a : Vec Ideal S128x64 .f32) (b : Vec Ideal S8192x64 .f32) (m : Vec Ideal S1x8192 .f32) (p : Fin 128) (q : Fin 8192) : EReal :=
  Ideal.ofBits .f32 0x40000000#32 * (∑ j : Fin 64, a (ix2 p j) * b (ix2 q j)) - m (ix2 (0 : Fin 1) q)

/-! ## The payload's parts -/

/-- The block of scores as the body computes it: the doubled product of a with b's transpose, less m along every row. -/
def scores3 (a : Vec Ideal S128x64 .f32) (b : Vec Ideal S8192x64 .f32) (m : Vec Ideal S1x8192 .f32) : FVec Ideal S128x8192 .f32 :=
  have a' : FVec Ideal S128x64 .f32 := shapeCast S128x64 a shapeCasts_S128x64_S128x64
  have b' : FVec Ideal S8192x64 .f32 := shapeCast S8192x64 b shapeCasts_S8192x64_S8192x64
  have m' : FVec Ideal S1x8192 .f32 := shapeCast S1x8192 m shapeCasts_S1x8192_S1x8192
  subf (mulf (broadcast S128x8192 (Scalar.ofBits .f32 0x40000000#32))
      (matmul dot_S128x64_S8192x64_S128x8192_1_1_0_0_n_n (some .fp32) a' b' (constant S128x8192 .f32 0x00000000#32)))
    (broadcastTo S128x8192 m' broadcasts_S1x8192_S128x8192)

/-- A block's row maxima, laid back along the rows. -/
def rowmax3 (x : FVec Ideal S128x8192 .f32) : FVec Ideal S128x8192 .f32 :=
  broadcastTo S128x8192 (shapeCast S128x1 (multiReduction .maximumf [1] S128 x 0xFF800000#32 reduces_S128x8192_S128 (.inl rfl) rfl)
    shapeCasts_S128_S128x1) broadcasts_S128x1_S128x8192

/-- A block's row sums, laid back along the rows. -/
def rowsum3 (x : FVec Ideal S128x8192 .f32) : FVec Ideal S128x8192 .f32 :=
  broadcastTo S128x8192 (shapeCast S128x1 (multiReduction .add [1] S128 x 0x00000000#32 reduces_S128x8192_S128 (.inl rfl) rfl)
    shapeCasts_S128_S128x1) broadcasts_S128x1_S128x8192

set_option maxRecDepth 65536 in
/-- The payload is those parts put together. -/
theorem pay3_eq (a : Vec Ideal S128x64 .f32) (b : Vec Ideal S8192x64 .f32) (m : Vec Ideal S1x8192 .f32) :
    k3_pay1 (F := Ideal) a b m
      = addf (divf (exp (subf (scores3 a b m) (rowmax3 (scores3 a b m))))
          (rowsum3 (exp (subf (scores3 a b m) (rowmax3 (scores3 a b m))))))
        (broadcast S128x8192 (Scalar.ofBits .f32 0x2EDBE6FF#32)) := rfl

/-! ## The product of rows with rows -/

/-- The product's left operand is read at the output's row … -/
theorem lhs_k3_0 (i : S128x8192.Idx) (k : dot_S128x64_S8192x64_S128x8192_1_1_0_0_n_n.contr.Idx) :
    (dot_S128x64_S8192x64_S128x8192_1_1_0_0_n_n.lhsIdx i k 0).val = (i 0).val := by
  unfold DotDims.lhsIdx
  rw [dif_neg (show ¬(0 : Fin S128x64.rank) ∈ dot_S128x64_S8192x64_S128x8192_1_1_0_0_n_n.lhsBatch by decide), dif_pos (show (0 : Fin S128x64.rank) ∈ dot_S128x64_S8192x64_S128x8192_1_1_0_0_n_n.lhsNonContracting by decide)]
  rfl
/-- … and the contraction's position, -/
theorem lhs_k3_1 (i : S128x8192.Idx) (k : dot_S128x64_S8192x64_S128x8192_1_1_0_0_n_n.contr.Idx) :
    (dot_S128x64_S8192x64_S128x8192_1_1_0_0_n_n.lhsIdx i k 1).val = (k ⟨0, by decide⟩).val :=
  dot_S128x64_S8192x64_S128x8192_1_1_0_0_n_n.lhsIdx_val_of_single rfl i k
/-- the right operand at the row the output's COLUMN names … -/
theorem rhs_k3_0 (i : S128x8192.Idx) (k : dot_S128x64_S8192x64_S128x8192_1_1_0_0_n_n.contr.Idx) :
    (dot_S128x64_S8192x64_S128x8192_1_1_0_0_n_n.rhsIdx i k 0).val = (i 1).val := by
  unfold DotDims.rhsIdx
  rw [dif_neg (show ¬(0 : Fin S8192x64.rank) ∈ dot_S128x64_S8192x64_S128x8192_1_1_0_0_n_n.rhsBatch by decide), dif_pos (show (0 : Fin S8192x64.rank) ∈ dot_S128x64_S8192x64_S128x8192_1_1_0_0_n_n.rhsNonContracting by decide)]
  rfl
/-- … and the contraction's position. -/
theorem rhs_k3_1 (i : S128x8192.Idx) (k : dot_S128x64_S8192x64_S128x8192_1_1_0_0_n_n.contr.Idx) :
    (dot_S128x64_S8192x64_S128x8192_1_1_0_0_n_n.rhsIdx i k 1).val = (k ⟨0, by decide⟩).val :=
  dot_S128x64_S8192x64_S128x8192_1_1_0_0_n_n.rhsIdx_val_of_single rfl i k

/-- So the product into the zero block, read at (p, q), is the inner product of row p of A with row q of B. -/
theorem dot3_apply (A : FVec Ideal S128x64 .f32) (B : FVec Ideal S8192x64 .f32) (p : Fin 128) (q : Fin 8192) :
    FloatOps.matmul dot_S128x64_S8192x64_S128x8192_1_1_0_0_n_n (some .fp32) A B (constant (F := Ideal) S128x8192 .f32 0x00000000#32) (ix2 p q)
      = ∑ j : Fin 64, A (ix2 p j) * B (ix2 q j) := by
  rw [Ideal.matmul_constant_zero_apply, ← Equiv.sum_comp (contrEquiv1 dot_S128x64_S8192x64_S128x8192_1_1_0_0_n_n 64 rfl rfl).symm]
  refine Finset.sum_congr rfl fun j _ => ?_
  have hj := contrEquiv1_symm_val dot_S128x64_S8192x64_S128x8192_1_1_0_0_n_n 64 rfl rfl j
  have el : dot_S128x64_S8192x64_S128x8192_1_1_0_0_n_n.lhsIdx (ix2 p q) ((contrEquiv1 dot_S128x64_S8192x64_S128x8192_1_1_0_0_n_n 64 rfl rfl).symm j) = ix2 p j :=
    funext fun a => Fin.ext (by
      match a with
      | ⟨0, _⟩ => exact lhs_k3_0 _ _
      | ⟨1, _⟩ => exact (lhs_k3_1 _ _).trans hj)
  have er : dot_S128x64_S8192x64_S128x8192_1_1_0_0_n_n.rhsIdx (ix2 p q) ((contrEquiv1 dot_S128x64_S8192x64_S128x8192_1_1_0_0_n_n 64 rfl rfl).symm j) = ix2 q j :=
    funext fun a => Fin.ext (by
      match a with
      | ⟨0, _⟩ => exact rhs_k3_0 _ _
      | ⟨1, _⟩ => exact (rhs_k3_1 _ _).trans hj)
  rw [el, er]

/-- The block of scores at (p, q). -/
theorem scores3_apply (a : Vec Ideal S128x64 .f32) (b : Vec Ideal S8192x64 .f32) (m : Vec Ideal S1x8192 .f32) (p : Fin 128) (q : Fin 8192) :
    scores3 a b m (ix2 p q) = lgB3 a b m p q := by
  unfold scores3 lgB3
  rw [shapeCast_self, shapeCast_self, shapeCast_self]
  show Ideal.ofBits .f32 0x40000000#32 * FloatOps.matmul dot_S128x64_S8192x64_S128x8192_1_1_0_0_n_n (some .fp32) a b (constant (F := Ideal) S128x8192 .f32 0x00000000#32) (ix2 p q)
      - broadcastTo S128x8192 m broadcasts_S1x8192_S128x8192 (ix2 p q) = _
  rw [dot3_apply, broadcastTo_1b_ab_apply]

/-! ## A row's maximum and a row's sum -/

/-- Over row p of the reduced vector, the entry with lane coordinate k is (p, k). -/
theorem lift_k3 (h : S128x8192.Reduces [1] S128) (p : Fin 128) (k : Fin 8192) : h.lift (ix1 p) k = ix2 p k := by
  funext c; apply Fin.ext
  match c with
  | ⟨0, _⟩ => rfl
  | ⟨1, _⟩ => rfl

/-- The word of minus infinity reads as the least extended real. -/
theorem ninf_k3 : FloatOps.ofBits (F := Ideal) .f32 0xFF800000#32 = (⊥ : EReal) := by
  show Ideal.ofBits .f32 0xFF800000#32 = ⊥
  simp [Ideal.ofBits, Ideal.ieee]

/-- Every entry of row p of the laid-back maxima is the greatest entry of row p. -/
theorem rowmax3_apply (x : FVec Ideal S128x8192 .f32) (p : Fin 128) (q : Fin 8192) :
    rowmax3 x (ix2 p q) = (Finset.univ : Finset (Fin 8192)).fold max ⊥ (fun q' => x (ix2 p q')) := by
  unfold rowmax3
  rw [Cert.LibColumnForms.broadcastTo_a1_ab_apply, Cert.LibColumnForms.shapeCast_a_a1_apply]
  refine (Ideal.multiReduction_maximumf_single x 0xFF800000#32 reduces_S128x8192_S128 (.inl rfl) rfl (ix1 p)).trans ?_
  rw [ninf_k3]
  exact congrArg (fun f : Fin 8192 → EReal => (Finset.univ : Finset (Fin 8192)).fold max ⊥ f)
    (funext fun k => congrArg x (lift_k3 reduces_S128x8192_S128 p k))

/-- Every entry of row p of the laid-back sums is the sum of row p. -/
theorem rowsum3_apply (x : FVec Ideal S128x8192 .f32) (p : Fin 128) (q : Fin 8192) :
    rowsum3 x (ix2 p q) = ∑ q' : Fin 8192, x (ix2 p q') := by
  unfold rowsum3
  rw [Cert.LibColumnForms.broadcastTo_a1_ab_apply, Cert.LibColumnForms.shapeCast_a_a1_apply]
  refine (Ideal.multiReduction_add_single x 0x00000000#32 reduces_S128x8192_S128 (.inl rfl) rfl (ix1 p)).trans ?_
  exact Finset.sum_congr rfl fun k _ => congrArg x (lift_k3 reduces_S128x8192_S128 p k)

/-! ## The payload at an index -/

/-- What the body stores at (p, q): the softmax, along row p, of the block's scores. -/
theorem pay3_apply (a : Vec Ideal S128x64 .f32) (b : Vec Ideal S8192x64 .f32) (m : Vec Ideal S1x8192 .f32) (p : Fin 128) (q : Fin 8192) :
    k3_pay1 (F := Ideal) a b m (ix2 p q) = soft3 (lgB3 a b m p) q := by
  rw [pay3_eq]
  show Ideal.div (Ideal.exp (scores3 a b m (ix2 p q) - rowmax3 (scores3 a b m) (ix2 p q)))
        (rowsum3 (exp (subf (scores3 a b m) (rowmax3 (scores3 a b m)))) (ix2 p q))
      + Ideal.ofBits .f32 0x2EDBE6FF#32 = _
  rw [rowsum3_apply, rowmax3_apply, scores3_apply]
  unfold soft3
  have hrow : (fun q' : Fin 8192 => scores3 a b m (ix2 p q')) = lgB3 a b m p := funext fun q' => scores3_apply a b m p q'
  rw [hrow]
  refine congrArg (fun s => Ideal.div (Ideal.exp (lgB3 a b m p q - (Finset.univ : Finset (Fin 8192)).fold max ⊥ (lgB3 a b m p))) s + Ideal.ofBits .f32 0x2EDBE6FF#32) ?_
  refine Finset.sum_congr rfl fun q' _ => ?_
  show Ideal.exp (scores3 a b m (ix2 p q') - rowmax3 (scores3 a b m) (ix2 p q')) = _
  rw [rowmax3_apply, scores3_apply, hrow]

/-! ## The blocks as parts of the arrays -/

theorem hz3 : (![0, 0] : Fin 2 → Nat) = fun _ => 0 := funext fun a => by fin_cases a <;> rfl

/-- The printed index maps, decided over the grid: at point t the rows' window and the output's window stand at block
    (t, 0), the whole-matrix window and the offsets' window at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The rows' block at point t is rows 128 t … 128 t + 127 of the embedding matrix. -/
theorem inBlk3_0_apply (c : Dev nD) (t : Fin cfg3.N) (x : S128x64.Idx) (k : S8192x64.Idx)
    (hk0 : (k 0).val = 128 * t.val + (x 0).val) (hk1 : (k 1).val = (x 1).val) :
    (inBlk3 V c 0 t : Vec Ideal S128x64 .f32) x = (V c main_v12 : S8192x64.Idx → EReal) k := by
  obtain ⟨e0, e1, -⟩ := idx_facts3 t
  unfold inBlk3
  rw [View.read_apply]
  show V c main_v12 _ = V c main_v12 _
  congr 1
  funext a; apply Fin.ext
  match a with
  | ⟨0, _⟩ => show win3_0.index t 0 * 128 + 1 * (x 0).val = (k 0).val; rw [e0, hk0]; omega
  | ⟨1, _⟩ => show win3_0.index t 1 * 64 + 1 * (x 1).val = (k 1).val; rw [e1, hk1]; omega

/-- The whole-matrix window's block is the embedding matrix. -/
theorem inBlk3_1_apply (c : Dev nD) (t : Fin cfg3.N) (x : S8192x64.Idx) :
    (inBlk3 V c 1 t : Vec Ideal S8192x64 .f32) x = (V c main_v12 : S8192x64.Idx → EReal) x := by
  obtain ⟨-, -, e0, e1, -⟩ := idx_facts3 t
  unfold inBlk3
  rw [View.read_apply]
  show V c main_v12 _ = V c main_v12 _
  congr 1
  funext a; apply Fin.ext
  match a with
  | ⟨0, _⟩ => show win3_1.index t 0 * 8192 + 1 * (x 0).val = (x 0).val; rw [e0]; omega
  | ⟨1, _⟩ => show win3_1.index t 1 * 64 + 1 * (x 1).val = (x 1).val; rw [e1]; omega

/-- The offsets' window's block is the row of offsets. -/
theorem inBlk3_2_apply (c : Dev nD) (t : Fin cfg3.N) (x : S1x8192.Idx) :
    (inBlk3 V c 2 t : Vec Ideal S1x8192 .f32) x = (V c main_v15 : S1x8192.Idx → EReal) x := by
  obtain ⟨-, -, -, -, e0, e1, -⟩ := idx_facts3 t
  unfold inBlk3
  rw [View.read_apply]
  show V c main_v15 _ = V c main_v15 _
  congr 1
  funext a; apply Fin.ext
  match a with
  | ⟨0, _⟩ => show win3_2.index t 0 * 1 + 1 * (x 0).val = (x 0).val; rw [e0]; omega
  | ⟨1, _⟩ => show win3_2.index t 1 * 8192 + 1 * (x 1).val = (x 1).val; rw [e1]; omega

/-! ## The array the launch leaves -/

/-- Row p of the embedding matrix E scored against row q, less S's entry q. -/
def lg3 (E : S8192x64.Idx → EReal) (S : S1x8192.Idx → EReal) (p q : Fin 8192) : EReal :=
  Ideal.ofBits .f32 0x40000000#32 * (∑ j : Fin 64, E (ix2 p j) * E (ix2 q j)) - S (ix2 (0 : Fin 1) q)

/-- The greatest score of row p. -/
def mx3 (E : S8192x64.Idx → EReal) (S : S1x8192.Idx → EReal) (p : Fin 8192) : EReal :=
  (Finset.univ : Finset (Fin 8192)).fold max ⊥ (lg3 E S p)

/-- The whole output as one function of the two arrays: at (p, q) the softmax along row p of the scores. -/
def G3 (E : S8192x64.Idx → EReal) (S : S1x8192.Idx → EReal) : S8192x8192.Idx → EReal :=
  fun i => soft3 (lg3 E S (i 0)) (i 1)

/-- What point t stores at y of its block is the function's value at the array index y stands for: row 128 t + y 0,
    column y 1. -/
theorem point3_value (c : Dev nD) (t : Fin cfg3.N) (y : S128x8192.Idx) (i : S8192x8192.Idx)
    (hi0 : (i 0).val = 128 * t.val + (y 0).val) (hi1 : (i 1).val = (y 1).val) :
    k3_pay1 (F := Ideal) (inBlk3 V c 0 t) (inBlk3 V c 1 t) (inBlk3 V c 2 t) y = G3 (V c main_v12) (V c main_v15) i := by
  obtain ⟨p, q, rfl⟩ : ∃ (p : Fin 128) (q : Fin 8192), y = ix2 p q := ⟨y 0, y 1, eq_ix2 y⟩
  refine (pay3_apply (inBlk3 V c 0 t) (inBlk3 V c 1 t) (inBlk3 V c 2 t) p q).trans ?_
  unfold G3
  have hrow : lgB3 (inBlk3 V c 0 t) (inBlk3 V c 1 t) (inBlk3 V c 2 t) p = lg3 (V c main_v12) (V c main_v15) (i 0) :=
    funext fun q' => by
      unfold lgB3 lg3
      rw [inBlk3_2_apply V c t (ix2 (0 : Fin 1) q')]
      refine congrArg (fun s => Ideal.ofBits .f32 0x40000000#32 * s - (V c main_v15 : S1x8192.Idx → EReal) (ix2 (0 : Fin 1) q')) ?_
      refine Finset.sum_congr rfl fun j _ => ?_
      rw [inBlk3_0_apply V c t (ix2 p j) (ix2 (i 0) j) hi0 rfl, inBlk3_1_apply V c t (ix2 q' j)]
  have hq : q = i 1 := Fin.ext hi1.symm
  rw [hrow, hq]

/-- WHAT POINT t WRITES BACK is block t of that function. -/
theorem flushed3_eq (c : Dev nD) (t : Fin cfg3.N) :
    (pd3 V c).flushed 3 t = ((cfg3.win 3).blk t).view.read (Elt Ideal) (G3 (V c main_v12) (V c main_v15)) := by
  obtain ⟨-, -, -, -, -, -, e0, e1⟩ := idx_facts3 t
  show (cfg3.win 3).cut (grid3.coords t) ((pd3 V c).after 3 t) = _
  rw [pd3_after_3]
  unfold res3
  rw [View.canon_unit_zero hz3]
  simp only [View.ld_unit_zero (S := S128x64) hz3, View.ld_unit_zero (S := S8192x64) hz3, View.ld_unit_zero (S := S1x8192) hz3]
  funext j
  rw [View.read_apply]
  refine point3_value V c t j _ ?_ ?_
  · show win3_3.index t 0 * 128 + 1 * (j 0).val = 128 * t.val + (j 0).val; rw [e0]; omega
  · show win3_3.index t 1 * 8192 + 1 * (j 1).val = (j 1).val; rw [e1]; omega

/-- An index of the output array is in point t's block iff each coordinate is in the block's range on its axis. -/
theorem mem_blk3 (t : Fin cfg3.N) (i : S8192x8192.Idx) :
    i ∈ ((cfg3.win 3).blk t).view.set
      ↔ ∀ a : Fin 2, win3_3.index t a * S128x8192.size a ≤ (i a).val ∧ (i a).val < win3_3.index t a * S128x8192.size a + S128x8192.size a := by
  show i ∈ ((View.whole main_v16).slice (win3_3.rect t)).set ↔ _
  rw [View.set_slice_whole, Rect.mem_set_unit]
  exact Iff.rfl

/-- Every index is covered: row r lies in the block of point r / 128. -/
theorem cover3 (i : S8192x8192.Idx) : ∃ t : Fin cfg3.N, (cfg3.win 3).flush t = true ∧ i ∈ ((cfg3.win 3).blk t).view.set := by
  have h0 : (i 0).val < 8192 := (i 0).isLt
  have h1 : (i 1).val < 8192 := (i 1).isLt
  have hN : cfg3.N = 64 := N_3
  have ht : (i 0).val / 128 < cfg3.N := by rw [hN]; omega
  obtain ⟨-, -, -, -, -, -, e0, e1⟩ := idx_facts3 ⟨(i 0).val / 128, ht⟩
  have e0' : win3_3.index ⟨(i 0).val / 128, ht⟩ (0 : Fin 2) = (i 0).val / 128 := e0
  refine ⟨⟨(i 0).val / 128, ht⟩, flush3_3 _, ?_⟩
  rw [mem_blk3]
  intro a
  match a with
  | ⟨0, _⟩ =>
    show win3_3.index ⟨(i 0).val / 128, ht⟩ (0 : Fin 2) * 128 ≤ (i 0).val ∧ (i 0).val < win3_3.index ⟨(i 0).val / 128, ht⟩ (0 : Fin 2) * 128 + 128
    rw [e0']; omega
  | ⟨1, _⟩ =>
    show win3_3.index ⟨(i 0).val / 128, ht⟩ (1 : Fin 2) * 8192 ≤ (i 1).val ∧ (i 1).val < win3_3.index ⟨(i 0).val / 128, ht⟩ (1 : Fin 2) * 8192 + 8192
    rw [e1]; omega

/-- THE ARRAY after the last point: the function, everywhere. -/
theorem final3 (c : Dev nD) : (pd3 V c).arrAt 3 cfg3.N = G3 (V c main_v12) (V c main_v15) :=
  (pd3 V c).arrAt_eq_of_cover 3 (G3 (V c main_v12) (V c main_v15)) (fun t _ => flushed3_eq V c t) cover3

/-- The same read at an index, the softmax written out. -/
theorem final3_apply (c : Dev nD) (p q : Fin 8192) :
    (pd3 V c).arrAt 3 cfg3.N (ix2 p q)
      = Ideal.div (Ideal.exp (lg3 (V c main_v12) (V c main_v15) p q - mx3 (V c main_v12) (V c main_v15) p))
          (∑ q' : Fin 8192, Ideal.exp (lg3 (V c main_v12) (V c main_v15) p q' - mx3 (V c main_v12) (V c main_v15) p))
        + Ideal.ofBits .f32 0x2EDBE6FF#32 :=
  congrFun (final3 V c) (ix2 p q)

/-- The same over NAMED arrays: whatever the embedding matrix and the offsets are known to be. -/
theorem final3_apply_of (c : Dev nD) (E : S8192x64.Idx → EReal) (S : S1x8192.Idx → EReal)
    (hE : V c main_v12 = E) (hS : V c main_v15 = S) (p q : Fin 8192) :
    (pd3 V c).arrAt 3 cfg3.N (ix2 p q)
      = Ideal.div (Ideal.exp (lg3 E S p q - mx3 E S p)) (∑ q' : Fin 8192, Ideal.exp (lg3 E S p q' - mx3 E S p))
        + Ideal.ofBits .f32 0x2EDBE6FF#32 := by
  subst hE; subst hS
  exact final3_apply V c p q

end

end Cert.KernelIdeal.Hand

end
-- ==== Proof.LibScatterRows.lean ====
/-
  AN ACCUMULATING ROW SCATTER READ AT AN INDEX, at the ideal instance. `stablehlo.scatter` with an `add` body of updates
  `upd : [E, C]` into an operand `x : [N, C]` at a column of scatter indices `idx : [E, 1]` with update_window_dims `[1]`,
  inserted_window_dims `[0]`, scatter_dims_to_operand_dims `[0]` and index_vector_dim `1` — what `x.at[idx].add(upd)` of
  a table of rows lowers to. Update element `(e, j')` lands on operand element `(idx[e, 0], j')`, the scatter index read
  as a SIGNED integer and NOT clamped: an update whose row is outside `[0, N)` is dropped. Over the extended reals the
  result at `(n, j)` is therefore `x (n, j)` plus the sum of `upd (e, j)` over the update rows `e` whose index is `n`.
  The same for a flat operand `[N]` and updates `[E]` (no window axis). General in the sizes.
-/
import Idealize.ShloMosaic.Lib.ValueIdx

noncomputable section

open scoped BigOperators

namespace Idealize.ShloMosaic.ValueIdx

open Idealize.ShloMosaic

/-! ## Where an update lands, in general -/

section General
variable {s si u : Shape}

/-- An axis is kept exactly when it is not among the removed ones. -/
theorem mem_kept_iff (axes : List (Fin s.rank)) (a : Fin s.rank) : a ∈ s.kept axes ↔ a ∉ axes := by
  simp [Shape.kept, List.mem_filter, List.mem_finRange]

/-- Update index `j` lands at operand index `i` exactly when on every axis the (signed, unclamped) start plus the
    window coordinate is `i`'s coordinate. -/
theorem resultIdx?_eq_some_iff (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hc
      have hf := Option.some.inj h
      have ha : (d.start j idx a + (d.window j a : ℤ)).toNat = (i a).val := congrArg (fun f => (f a).val) hf
      have := (hc a).1
      omega
    · exact absurd h (by simp)
  · intro h
    have hc : ∀ a, 0 ≤ d.start j idx a + (d.window j a : ℤ) ∧ d.start j idx a + (d.window j a : ℤ) < (s.size a : ℤ) := by
      intro a
      have := (i a).isLt
      rw [h a]
      omega
    rw [dif_pos hc]
    congr 1
    funext a
    refine Fin.ext ?_
    show (d.start j idx a + (d.window j a : ℤ)).toNat = (i a).val
    rw [h a]
    exact Int.toNat_natCast _

end General

/-! ## Rows: operand `[N, C]`, scatter indices `[E, 1]`, updates `[E, C]` -/

section RowsScatter

/-- The dimension numbers of an accumulating scatter of whole rows: the updates' axis 1 is the window axis (it runs
    over a row), the operand's axis 0 is the inserted one and the one a scatter index addresses, and the index vector
    lies along the scatter indices' axis 1. The conditions `wf` are decided (or assumed) on a program's literal
    shapes. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (j' : Fin C)

/-- On the row axis the start of update `(e, j')` is the scatter index `idx[e, 0]`, read signed. -/
theorem rowsScatter_start_row :
    (rowsScatterDims N E C wf).start (ix2 e j') idx 0 = (idx (ix2 e (0 : Fin 1))).toInt := by
  unfold ScatterDims.start
  rw [dif_pos (show (0 : Fin 2) ∈ (rowsScatterDims N E C wf).scatterDimsToOperandDims from List.mem_singleton.mpr rfl)]
  have hsi : (rowsScatterDims N E C wf).siIdx (ix2 e j')
      ⟨List.idxOf (0 : Fin 2) (rowsScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index addresses, the start is `0`. -/
theorem rowsScatter_start_col : (rowsScatterDims N E C wf).start (ix2 e j') idx 1 = 0 := by
  unfold ScatterDims.start
  rw [dif_neg (show (1 : Fin 2) ∉ (rowsScatterDims N E C wf).scatterDimsToOperandDims from
    fun h => Nat.one_ne_zero (congrArg Fin.val (List.mem_singleton.mp h)))]

/-- The row axis is inserted: no window coordinate there. -/
theorem rowsScatter_window_row : (rowsScatterDims N E C wf).window (ix2 e j') 0 = 0 := by
  unfold ScatterDims.window
  rw [dif_neg (show (0 : Fin 2) ∉ (rowsScatterDims N E C wf).sKept from
    fun h => (mem_kept_iff _ _).mp h (List.mem_singleton.mpr rfl))]

/-- On the column axis the window coordinate of update `(e, j')` is `j'`. -/
theorem rowsScatter_window_col : (rowsScatterDims N E C wf).window (ix2 e j') 1 = j'.val := by
  unfold ScatterDims.window
  rw [dif_pos (show (1 : Fin 2) ∈ (rowsScatterDims N E C wf).sKept from
    (mem_kept_iff _ _).mpr fun h => Nat.one_ne_zero (congrArg Fin.val (List.mem_singleton.mp h)))]
  rfl

/-- WHERE A ROW UPDATE LANDS: update `(e, j')` lands on operand element `(n, j)` exactly when the scatter index
    `idx[e, 0]`, read signed, is `n`, and the columns agree. -/
theorem rowsScatter_resultIdx?_eq_some (n : Fin N) (j : Fin C) :
    (rowsScatterDims N E C wf).resultIdx? (ix2 e j') idx = some (ix2 n j)
      ↔ (idx (ix2 e (0 : Fin 1))).toInt = (n.val : ℤ) ∧ j' = j := by
  rw [resultIdx?_eq_some_iff]
  constructor
  · intro h
    have h0 := h 0
    have h1 := h 1
    rw [rowsScatter_start_row, rowsScatter_window_row] at h0
    rw [rowsScatter_start_col, rowsScatter_window_col] at h1
    have h0' : (idx (ix2 e (0 : Fin 1))).toInt + ((0 : Nat) : ℤ) = (n.val : ℤ) := h0
    have h1' : (0 : ℤ) + (j'.val : ℤ) = (j.val : ℤ) := h1
    exact ⟨by omega, Fin.ext (by omega)⟩
  · rintro ⟨h0, rfl⟩ a
    match a with
    | ⟨0, _⟩ =>
      show (rowsScatterDims N E C wf).start (ix2 e j') idx 0 + ((rowsScatterDims N E C wf).window (ix2 e j') 0 : ℤ) = (n.val : ℤ)
      rw [rowsScatter_start_row, rowsScatter_window_row, h0]
      simp
    | ⟨1, _⟩ =>
      show (rowsScatterDims N E C wf).start (ix2 e j') idx 1 + ((rowsScatterDims N E C wf).window (ix2 e j') 1 : ℤ) = (j'.val : ℤ)
      rw [rowsScatter_start_col, rowsScatter_window_col]
      simp

end RowsScatter

section RowsScatterRead

/-- THE ACCUMULATING ROW SCATTER READ AT `(n, j)`, over the extended reals: the operand's element plus the sum, over
    the update rows `e` whose scatter index `idx[e, 0]` (read signed) is `n`, of the update's element `(e, j)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (j : Fin C) :
    Host.scatterAdd (F := Ideal) (rowsScatterDims N E C wf) x idx upd (ix2 n j)
      = x (ix2 n j)
        + ∑ e ∈ Finset.univ.filter (fun e : Fin E => (idx (ix2 e (0 : Fin 1))).toInt = (n.val : ℤ)), upd (ix2 e j) := by
  show x (ix2 n j) + ∑ v ∈ Finset.univ.filter
      (fun v => (rowsScatterDims N E C wf).resultIdx? v idx = some (ix2 n j)), upd v = _
  congr 1
  rw [Finset.sum_filter, sum_idx2, Finset.sum_filter]
  refine Finset.sum_congr rfl fun e _ => ?_
  simp only [rowsScatter_resultIdx?_eq_some]
  by_cases ht : (idx (ix2 e (0 : Fin 1))).toInt = (n.val : ℤ)
  · simp only [ht, true_and, if_true]
    exact Finset.sum_ite_eq' Finset.univ j (fun c => upd (ix2 e c)) |>.trans (if_pos (Finset.mem_univ j))
  · simp only [ht, false_and, if_false, Finset.sum_const_zero]

end RowsScatterRead

/-! ## Flat: operand `[N]`, scatter indices `[E, 1]`, updates `[E]` -/

section FlatScatter

/-- A rank-1 index is its one coordinate … -/
def idxEquiv1 {n : Nat} : (⟨1, ![n]⟩ : Shape).Idx ≃ Fin n where
  toFun i := i 0
  invFun a := ix1 a
  left_inv i := (eq_ix1 i).symm
  right_inv _ := rfl
/-- … so a sum over the rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulating scatter of scalars into a flat operand: the updates have no window
    axis, the operand's one axis is inserted and is the one a scatter index addresses, and the index vector lies along
    the scatter indices' axis 1. -/
abbrev flatScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The start of update `e` is the scatter index `idx[e, 0]`, read signed. -/
theorem flatScatter_start :
    (flatScatterDims N E wf).start (ix1 e) idx 0 = (idx (ix2 e (0 : Fin 1))).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: no window coordinate. -/
theorem flatScatter_window : (flatScatterDims N E wf).window (ix1 e) 0 = 0 := by
  unfold ScatterDims.window
  rw [dif_neg (show (0 : Fin 1) ∉ (flatScatterDims N E wf).sKept from
    fun h => (mem_kept_iff _ _).mp h (List.mem_singleton.mpr rfl))]

/-- WHERE A FLAT UPDATE LANDS: update `e` lands on operand element `n` exactly when the scatter index `idx[e, 0]`,
    read signed, is `n`. -/
theorem flatScatter_resultIdx?_eq_some (n : Fin N) :
    (flatScatterDims N E wf).resultIdx? (ix1 e) idx = some (ix1 n)
      ↔ (idx (ix2 e (0 : Fin 1))).toInt = (n.val : ℤ) := by
  rw [resultIdx?_eq_some_iff]
  constructor
  · intro h
    have h0 := h 0
    rw [flatScatter_start, flatScatter_window] at h0
    have h0' : (idx (ix2 e (0 : Fin 1))).toInt + ((0 : Nat) : ℤ) = (n.val : ℤ) := h0
    omega
  · intro h0 a
    match a with
    | ⟨0, _⟩ =>
      show (flatScatterDims N E wf).start (ix1 e) idx 0 + ((flatScatterDims N E wf).window (ix1 e) 0 : ℤ) = (n.val : ℤ)
      rw [flatScatter_start, flatScatter_window, h0]
      simp

end FlatScatter

section FlatScatterRead

/-- THE ACCUMULATING FLAT SCATTER READ AT `n`, over the extended reals: the operand's element plus the sum, over the
    updates `e` whose scatter index `idx[e, 0]` (read signed) is `n`, of the update `e`. -/
theorem scatterAdd_flat_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (flatScatterDims N E wf) x idx upd (ix1 n)
      = x (ix1 n)
        + ∑ e ∈ Finset.univ.filter (fun e : Fin E => (idx (ix2 e (0 : Fin 1))).toInt = (n.val : ℤ)), upd (ix1 e) := by
  show x (ix1 n) + ∑ v ∈ Finset.univ.filter
      (fun v => (flatScatterDims N E wf).resultIdx? v idx = some (ix1 n)), upd v = _
  congr 1
  rw [Finset.sum_filter, sum_idx1, Finset.sum_filter]
  refine Finset.sum_congr rfl fun e _ => ?_
  simp only [flatScatter_resultIdx?_eq_some]

end FlatScatterRead

end Idealize.ShloMosaic.ValueIdx

end
-- ==== Proof.KI.HostVal.lean ====
/-
  What the host operations of the program leave in the arrays they write, read at an index.

  The program runs three stretches of host operations between its four kernel launches.  The first converts the three
  float argument arrays to a narrower float type, which over the extended reals changes nothing.  The second builds the
  dense 8192 x 8192 matrix: each of the 65536 entries' flat position destination * 8192 + source is computed in 32-bit
  words, the entries' values are added into a zero array of 8192 * 8192 cells at those positions (a position read as a
  signed integer; an entry whose position is outside the array is dropped), and the flat array is read as a matrix, cell
  p * 8192 + r being entry (p, r).  The third squares a table of 8192 rows of 64 numbers entry by entry, sums each row,
  and reads the 8192 row sums as a 1 x 8192 matrix.

  Each statement holds for any contents the arrays have when the stretch begins.
-/
import proofs.«412745_j39127152066566_3_alg».proof.Proof.Gen.KernelIdeal.Regions
import proofs.«412745_j39127152066566_3_alg».proof.Proof.InputsOf
import proofs.«412745_j39127152066566_3_alg».proof.Proof.LibScatterRows
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-! ## A flat array read as a matrix -/

/-- A flat array of n cells read as an a x b matrix holds, at (p, r), the flat array's cell number p * b + r. -/
theorem shapeCast_flat_ab_apply {α : Type} {n a b : ℕ} (x : (⟨1, ![n]⟩ : Shape).Idx → α)
    (h : (⟨1, ![n]⟩ : Shape).ShapeCasts ⟨2, ![a, b]⟩) (p : Fin a) (r : Fin b) (c : Fin n)
    (hc : c.val = p.val * b + r.val) :
    shapeCast ⟨2, ![a, b]⟩ x h (ix2 p r) = x (ix1 c) :=
  shapeCast_apply x h _ _ (by
    rw [Shape.rowMajor_val_one, Shape.rowMajor_val_two]
    exact hc)

variable (W : Valuation τ sig (Elt Idealize.ShloMosaic.Ideal))

/-! ## The first stretch: three conversions -/

/-- Narrowing a float array changes nothing over the extended reals: the first converted array is the first argument. -/
theorem host0_v0 : StableHlo.after (hostOps0 (F := Idealize.ShloMosaic.Ideal)) W main_v0 = W main_arg0 := by
  show StableHlo.after hostOps0 W (Proc.devRef .tc main_v0) = _
  after_results
  rfl

/-- The second converted array is the second argument. -/
theorem host0_v1 : StableHlo.after (hostOps0 (F := Idealize.ShloMosaic.Ideal)) W main_v1 = W main_arg1 := by
  show StableHlo.after hostOps0 W (Proc.devRef .tc main_v1) = _
  after_results
  rfl

/-- The third converted array is the third argument. -/
theorem host0_v2 : StableHlo.after (hostOps0 (F := Idealize.ShloMosaic.Ideal)) W main_v2 = W main_arg2 := by
  show StableHlo.after hostOps0 W (Proc.devRef .tc main_v2) = _
  after_results
  rfl

/-- What the first stretch does not write it leaves alone. -/
theorem host0_keep (b : Ref sig .tc) (h : b ∉ hostOps0_W) :
    StableHlo.after (hostOps0 (F := Idealize.ShloMosaic.Ideal)) W b = W b :=
  StableHlo.after_of_writes_sub hostOps0 _ hostOps0_writes h

/-! ## The second stretch: the dense matrix -/

/-- The dense matrix as the chain of array operations that builds it: positions destination * 8192 + source, the
    values added into a zero array at those positions, the flat array read as a matrix. -/
theorem host1_v10_fun : StableHlo.after (hostOps1 (F := Idealize.ShloMosaic.Ideal)) W (Proc.devRef .tc main_v10)
    = shapeCast S8192x8192
        (Host.scatterAdd (F := Idealize.ShloMosaic.Ideal) scatter_S67108864_S65536x1_S65536_n_0_0_1
          (broadcastInDim S67108864 ![] bcast_S_S67108864 (constant S_ FTy.f32 0x00000000#32))
          (broadcastInDim S65536x1 ![0] bcast_S65536_S65536x1_0
            (addi (muli (W (Proc.devRef .tc main_arg5)) (broadcastInDim S65536 ![] bcast_S_S65536 (constantI S_ 32 8192#32)))
              (W (Proc.devRef .tc main_arg4))))
          (W (Proc.devRef .tc main_arg3)))
        shapeCasts_S67108864_S8192x8192 := by
  after_results
  rfl

/-- The column of scatter positions holds, in row e, the flat position of entry e computed in 32-bit words. -/
theorem host1_idx (src dst : IVec S65536 32) (e : Fin 65536) :
    (broadcastInDim S65536x1 ![0] bcast_S65536_S65536x1_0
      (addi (muli dst (broadcastInDim S65536 ![] bcast_S_S65536 (constantI S_ 32 8192#32))) src)) (ix2 e (0 : Fin 1))
      = Cert.Formulas.flatWord (dst (ix1 e)) (src (ix1 e)) := by
  rw [broadcastInDim_apply _ _ _ (ix2 e (0 : Fin 1)) (ix1 e) (fun a => by
    match a with
    | ⟨0, _⟩ => rfl)]
  rfl

/-- The dense matrix at (p, r): the sum of the values of the entries whose flat position, read signed, is
    p * 8192 + r.  The zero array contributes nothing, and cell p * 8192 + r of the flat array is entry (p, r). -/
theorem host1_v10_of (val : S65536.Idx → EReal) (src dst : IVec S65536 32)
    (hval : W main_arg3 = val) (hsrc : W main_arg4 = src) (hdst : W main_arg5 = dst) (p r : Fin 8192) :
    StableHlo.after (hostOps1 (F := Idealize.ShloMosaic.Ideal)) W main_v10 (ix2 p r)
      = ∑ e ∈ Finset.univ.filter (fun e : Fin 65536 =>
            (Cert.Formulas.flatWord (dst (ix1 e)) (src (ix1 e))).toInt = (p.val : ℤ) * 8192 + (r.val : ℤ)),
          val (ix1 e) := by
  subst hval hsrc hdst
  obtain ⟨c, hc⟩ : ∃ c : Fin 67108864, c.val = p.val * 8192 + r.val :=
    ⟨⟨p.val * 8192 + r.val, by have := p.isLt; have := r.isLt; omega⟩, rfl⟩
  show StableHlo.after hostOps1 W (Proc.devRef .tc main_v10) (ix2 p r) = _
  rw [host1_v10_fun, shapeCast_flat_ab_apply _ _ p r c hc]
  refine (scatterAdd_flat_apply scatter_S67108864_S65536x1_S65536_n_0_0_1_wf _ _ _ c).trans ?_
  have hx : (broadcastInDim S67108864 ![] bcast_S_S67108864 (constant (F := Idealize.ShloMosaic.Ideal) S_ FTy.f32 0x00000000#32))
      (ix1 c) = 0 := Idealize.ShloMosaic.Ideal.ofBits_zero_f32
  rw [hx, zero_add]
  refine Finset.sum_congr (Finset.filter_congr fun e _ => ?_) fun e _ => rfl
  rw [host1_idx, hc, Nat.cast_add, Nat.cast_mul, Nat.cast_ofNat]

/-- What the second stretch does not write it leaves alone. -/
theorem host1_keep (b : Ref sig .tc) (h : b ∉ hostOps1_W) :
    StableHlo.after (hostOps1 (F := Idealize.ShloMosaic.Ideal)) W b = W b :=
  StableHlo.after_of_writes_sub hostOps1 _ hostOps1_writes h

/-! ## The third stretch: the rows' squared norms -/

/-- The row of squared norms as the chain of array operations that builds it: the entrywise square, each row summed
    from zero, the 8192 sums read as a 1 x 8192 matrix. -/
theorem host3_v15_fun : StableHlo.after (hostOps3 (F := Idealize.ShloMosaic.Ideal)) W (Proc.devRef .tc main_v15)
    = shapeCast S1x8192
        (Host.reduceAdd (F := Idealize.ShloMosaic.Ideal) (mulf (W (Proc.devRef .tc main_v12)) (W (Proc.devRef .tc main_v12)))
          (constant S_ FTy.f32 0x00000000#32) reducesTo_S8192x64_S8192_d1 h_S_)
        shapeCasts_S8192_S1x8192 := by
  after_results
  rfl

/-- Entry (0, q) of the 1 x 8192 result: the sum over the 64 columns of the squares of row q. -/
theorem host3_v15_of (E : S8192x64.Idx → EReal) (hE : W main_v12 = E) (q : Fin 8192) :
    StableHlo.after (hostOps3 (F := Idealize.ShloMosaic.Ideal)) W main_v15 (ix2 (0 : Fin 1) q)
      = ∑ j : Fin 64, E (ix2 q j) * E (ix2 q j) := by
  subst hE
  have hred : S8192x64.Reduces [1] S8192 := by decide
  have hl : ∀ k : Fin 64, hred.lift (ix1 q) k = ix2 q k := by
    intro k
    funext c
    refine Fin.ext ?_
    match c with
    | ⟨0, _⟩ => rfl
    | ⟨1, _⟩ => rfl
  show StableHlo.after hostOps3 W (Proc.devRef .tc main_v15) (ix2 (0 : Fin 1) q) = _
  rw [host3_v15_fun, shapeCast_a_1a_apply]
  refine (Idealize.ShloMosaic.Ideal.hostReduceAdd_single reducesTo_S8192x64_S8192_d1 hred _ _ (ix1 q)).trans ?_
  have h0 : (constant (F := Idealize.ShloMosaic.Ideal) S_ FTy.f32 0x00000000#32) (Shape.Idx.first h_S_) = 0 :=
    Idealize.ShloMosaic.Ideal.ofBits_zero_f32
  rw [h0, zero_add]
  exact Finset.sum_congr rfl fun k _ => by rw [hl k]; rfl

/-- What the third stretch does not write it leaves alone. -/
theorem host3_keep (b : Ref sig .tc) (h : b ∉ hostOps3_W) :
    StableHlo.after (hostOps3 (F := Idealize.ShloMosaic.Ideal)) W b = W b :=
  StableHlo.after_of_writes_sub hostOps3 _ hostOps3_writes h

end Cert.KernelIdeal.Hand

end
-- ==== Proof.KI.KVal.lean ====
/-
  The idealized kernel program's result, as the formula outK.

  The program is three host stretches and four pipelined launches in a fixed order. The neighbouring modules say what
  each launch leaves in its output array and what each host stretch computes, as functions of the arrays they read;
  the chain of buffer contents between the items is recorded apart. This module walks that chain once, from the launch
  memory to the result buffer, naming at every boundary the array each buffer holds in terms of the index-by-index
  formulas, and concludes that the result array is outK over the inputs read off the six argument arrays.
-/
import proofs.«412745_j39127152066566_3_alg».proof.Proof.InputsOf
import proofs.«412745_j39127152066566_3_alg».proof.Proof.KI.Chain
import proofs.«412745_j39127152066566_3_alg».proof.Proof.KI.Val0
import proofs.«412745_j39127152066566_3_alg».proof.Proof.KI.Val1
import proofs.«412745_j39127152066566_3_alg».proof.Proof.KI.Val2
import proofs.«412745_j39127152066566_3_alg».proof.Proof.KI.Val3
import proofs.«412745_j39127152066566_3_alg».proof.Proof.KI.HostVal
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-! ## The kernel's result, stage by stage

  The kernel program alternates three host stretches with four pipelined launches. Written over the launch memory of
  one core, the buffers the next stage reads hold, in turn: the three matrices, unchanged by their format change; the
  product X · W1; the dense matrix assembled from the coordinate entries, at (p, r) the sum of the values of the entries
  whose 32-bit flat position, read signed, is p · 8192 + r; relu (adj · H1) · W2; adj times that; its rows' squared
  norms; and last the row softmax of the shifted logits plus the small constant. Each stage lemma says which array one
  buffer holds, as a whole; each stage's value is a function of the arrays it reads, so the stages chain by handing
  each the equations of the stage before. An argument array is written by nobody, a launch's output only by that
  launch, and a host stretch writes only its own results, so every other buffer is carried along unchanged.
-/

section
variable (m : (ℓ : Loc nD τ sig) → Buf (Elt Idealize.ShloMosaic.Ideal) ℓ) (c : Dev nD)

/-- The formulas' inputs read off the six argument arrays of core c at launch. -/
abbrev inp : Cert.Formulas.Inputs :=
  Cert.Formulas.inputsOf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-! ### The formulas as arrays -/

/-- X · W1 as an [8192, 256] array. -/
abbrev aH1 : S8192x256.Idx → EReal := fun i => Cert.Formulas.H1 (inp m c) (i 0) (i 1)
/-- The dense matrix as an [8192, 8192] array. -/
abbrev aAdj : S8192x8192.Idx → EReal := fun i => Cert.Formulas.adj (inp m c) (i 0) (i 1)
/-- relu (adj · H1) · W2 as an [8192, 64] array. -/
abbrev aHK : S8192x64.Idx → EReal := fun i => Cert.Formulas.hK (inp m c) (i 0) (i 1)
/-- adj · hK as an [8192, 64] array. -/
abbrev aEmb : S8192x64.Idx → EReal := fun i => Cert.Formulas.embK (inp m c) (i 0) (i 1)
/-- The rows' squared norms as a [1, 8192] array. -/
abbrev aSq : S1x8192.Idx → EReal := fun i => Cert.Formulas.sqK (inp m c) (i 1)

/-! ### After the first host stretch: the three matrices, format changed, are the arguments -/

theorem Y1_v0 : Y1 (F := Idealize.ShloMosaic.Ideal) m c main_v0 = m ((c.tc : Thread nD τ).loc main_arg0) := host0_v0 (fun b => m (c, b))
theorem Y1_v1 : Y1 (F := Idealize.ShloMosaic.Ideal) m c main_v1 = m ((c.tc : Thread nD τ).loc main_arg1) := host0_v1 (fun b => m (c, b))
theorem Y1_v2 : Y1 (F := Idealize.ShloMosaic.Ideal) m c main_v2 = m ((c.tc : Thread nD τ).loc main_arg2) := host0_v2 (fun b => m (c, b))

/-- The first launch leaves X · W1. -/
theorem o3_eq : o3 (F := Idealize.ShloMosaic.Ideal) m c = aH1 m c := by
  refine funext fun (i : S8192x256.Idx) => ?_
  obtain ⟨p, o, rfl⟩ : ∃ p o, i = ix2 p o := ⟨i 0, i 1, eq_ix2 i⟩
  unfold o3
  exact final0_apply_of (fun c b => Y1 (F := Idealize.ShloMosaic.Ideal) m c b) c _ _ (Y1_v0 m c) (Y1_v1 m c) p o

/-! ### After the second host stretch -/

/-- An argument array is as launched after the first launch: the launch writes its output only, the stretch before it
    the three converted matrices only. -/
theorem Y2_arg3 : Y2 (F := Idealize.ShloMosaic.Ideal) m c main_arg3 = m ((c.tc : Thread nD τ).loc main_arg3) :=
  (Y2_of_ne m c main_arg3 (by decide)).trans
    (StableHlo.after_of_writes_sub (r := main_arg3) hostOps0 _ hostOps0_writes (by decide))
theorem Y2_arg4 : Y2 (F := Idealize.ShloMosaic.Ideal) m c main_arg4 = m ((c.tc : Thread nD τ).loc main_arg4) :=
  (Y2_of_ne m c main_arg4 (by decide)).trans
    (StableHlo.after_of_writes_sub (r := main_arg4) hostOps0 _ hostOps0_writes (by decide))
theorem Y2_arg5 : Y2 (F := Idealize.ShloMosaic.Ideal) m c main_arg5 = m ((c.tc : Thread nD τ).loc main_arg5) :=
  (Y2_of_ne m c main_arg5 (by decide)).trans
    (StableHlo.after_of_writes_sub (r := main_arg5) hostOps0 _ hostOps0_writes (by decide))

/-- The product X · W1 is still in place: the second stretch does not write it. -/
theorem Y3_v3 : Y3 (F := Idealize.ShloMosaic.Ideal) m c main_v3 = aH1 m c :=
  (StableHlo.after_of_writes_sub (r := main_v3) hostOps1 _ hostOps1_writes (by decide)).trans
    ((Y2_main_v3 m c).trans (o3_eq m c))

/-- So is the converted W2. -/
theorem Y3_v2 : Y3 (F := Idealize.ShloMosaic.Ideal) m c main_v2 = m ((c.tc : Thread nD τ).loc main_arg2) :=
  (StableHlo.after_of_writes_sub (r := main_v2) hostOps1 _ hostOps1_writes (by decide)).trans
    ((Y2_of_ne m c main_v2 (by decide)).trans (Y1_v2 m c))

/-- The dense matrix the second stretch assembles is adj: the entries it adds at (p, r) are those whose flat word,
    computed from the destination and source arrays, reads p · 8192 + r, and it adds their values; the three arrays
    it reads are the arguments. -/
theorem Y3_v10 : Y3 (F := Idealize.ShloMosaic.Ideal) m c main_v10 = aAdj m c := by
  refine funext fun (i : S8192x8192.Idx) => ?_
  obtain ⟨p, r, rfl⟩ : ∃ p r, i = ix2 p r := ⟨i 0, i 1, eq_ix2 i⟩
  exact host1_v10_of (Y2 (F := Idealize.ShloMosaic.Ideal) m c) _ _ _ (Y2_arg3 m c) (Y2_arg4 m c) (Y2_arg5 m c) p r

/-- The second launch leaves relu (adj · H1) · W2. -/
theorem o11_eq : o11 (F := Idealize.ShloMosaic.Ideal) m c = aHK m c := by
  refine funext fun (i : S8192x64.Idx) => ?_
  obtain ⟨p, j, rfl⟩ : ∃ p j, i = ix2 p j := ⟨i 0, i 1, eq_ix2 i⟩
  unfold o11
  exact final1_apply_of (fun c b => Y3 (F := Idealize.ShloMosaic.Ideal) m c b) c _ _ _ (Y3_v10 m c) (Y3_v3 m c) (Y3_v2 m c) p j

/-! ### The third launch follows at once -/

theorem Y4_v10 : Y4 (F := Idealize.ShloMosaic.Ideal) m c main_v10 = aAdj m c := (Y4_of_ne m c main_v10 (by decide)).trans (Y3_v10 m c)
theorem Y4_v11 : Y4 (F := Idealize.ShloMosaic.Ideal) m c main_v11 = aHK m c := (Y4_main_v11 m c).trans (o11_eq m c)

/-- The third launch leaves adj · hK. -/
theorem o12_eq : o12 (F := Idealize.ShloMosaic.Ideal) m c = aEmb m c := by
  refine funext fun (i : S8192x64.Idx) => ?_
  obtain ⟨p, j, rfl⟩ : ∃ p j, i = ix2 p j := ⟨i 0, i 1, eq_ix2 i⟩
  unfold o12
  exact final2_apply_of (fun c b => Y4 (F := Idealize.ShloMosaic.Ideal) m c b) c _ _ (Y4_v10 m c) (Y4_v11 m c) p j

/-! ### After the third host stretch -/

theorem Y5_v12 : Y5 (F := Idealize.ShloMosaic.Ideal) m c main_v12 = aEmb m c := (Y5_main_v12 m c).trans (o12_eq m c)

/-- The embedding is still in place: the third stretch does not write it. -/
theorem Y6_v12 : Y6 (F := Idealize.ShloMosaic.Ideal) m c main_v12 = aEmb m c :=
  (StableHlo.after_of_writes_sub (r := main_v12) hostOps3 _ hostOps3_writes (by decide)).trans (Y5_v12 m c)

/-- The row of squared norms the third stretch computes. -/
theorem Y6_v15 : Y6 (F := Idealize.ShloMosaic.Ideal) m c main_v15 = aSq m c := by
  refine funext fun (i : S1x8192.Idx) => ?_
  obtain ⟨z, q, rfl⟩ : ∃ z q, i = ix2 z q := ⟨i 0, i 1, eq_ix2 i⟩
  obtain rfl : z = 0 := Subsingleton.elim _ _
  exact host3_v15_of (Y5 (F := Idealize.ShloMosaic.Ideal) m c) _ (Y5_v12 m c) q

/-! ### The last launch -/

/-- The logit the last launch forms from the embedding and the squared norms is logitK. -/
theorem lg3_eq (p q : Fin 8192) : lg3 (aEmb m c) (aSq m c) p q = Cert.Formulas.logitK (inp m c) p q := rfl

/-- Its row maximum is rowmaxK: the same fold of the same function. -/
theorem mx3_eq (p : Fin 8192) : mx3 (aEmb m c) (aSq m c) p = Cert.Formulas.rowmaxK (inp m c) p :=
  congrArg (fun f : Fin 8192 → EReal => (Finset.univ : Finset (Fin 8192)).fold max ⊥ f) (funext fun q => lg3_eq m c p q)

/-- The last launch leaves outK. -/
theorem o16_apply (p q : Fin 8192) : o16 (F := Idealize.ShloMosaic.Ideal) m c (ix2 p q) = Cert.Formulas.outK (inp m c) p q := by
  unfold o16
  refine (final3_apply_of (fun c b => Y6 (F := Idealize.ShloMosaic.Ideal) m c b) c _ _ (Y6_v12 m c) (Y6_v15 m c) p q).trans ?_
  have hf : (fun q' => lg3 (aEmb m c) (aSq m c) p q') = fun q' => Cert.Formulas.logitK (inp m c) p q' :=
    funext fun q' => lg3_eq m c p q'
  exact congrArg₂ (fun (f : Fin 8192 → EReal) (M : EReal) =>
      Ideal.div (Ideal.exp (f q - M)) (∑ q' : Fin 8192, Ideal.exp (f q' - M)) + (inp m c).eps) hf (mx3_eq m c p)

/-- THE KERNEL'S RESULT: what the last launch leaves in its output array is the [8192, 8192] array of outK over the
    inputs read off the argument arrays. -/
theorem kernel_value (m : (ℓ : Loc nD τ sig) → Buf (Elt Idealize.ShloMosaic.Ideal) ℓ) (c : Dev nD) :
    o16 (F := Idealize.ShloMosaic.Ideal) m c = Cert.Formulas.asArray (Cert.Formulas.outK (Cert.Formulas.inputsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))) := by
  refine funext fun (i : S8192x8192.Idx) => ?_
  obtain ⟨p, q, rfl⟩ : ∃ p q, i = ix2 p q := ⟨i 0, i 1, eq_ix2 i⟩
  exact (o16_apply m c p q).trans (Cert.Formulas.asArray_apply _ p q).symm

end

end Cert.KernelIdeal.Hand

end
-- ==== Proof.LibGatherRows.lean ====
/-
  A ROW GATHER READ AT AN INDEX. `stablehlo.gather` of a rank-2 operand `x : [N, C]` at a column of start indices
  `idx : [E, 1]` with offset_dims `[1]`, collapsed_slice_dims `[0]`, start_index_map `[0]`, index_vector_dim `1` and
  slice_sizes `[1, C]` — what `x[idx]` of a table of rows lowers to — has result `[E, C]`; its element `(e, j)` is the
  operand's element `(r, j)` where the row `r` is the start index `idx[e, 0]` read as a signed integer and clamped
  into `[0, N − 1]` (StableHLO clamps every start index so that the slice fits: here the slice is one whole row).
  General in the three sizes and in the element type.
-/
import Idealize.ShloMosaic.Lib.ValueIdx

noncomputable section

open scoped BigOperators

namespace Idealize.ShloMosaic.ValueIdx

open Idealize.ShloMosaic

section RowsGather
variable {α : Type}

/-- The dimension numbers of a gather of whole rows: operand `[N, C]`, start indices `[E, 1]`, result `[E, C]`;
    the result's axis 1 is the offset axis (it runs over a row), the operand's axis 0 is collapsed and is the one
    the start index addresses, the index vector lies along the start indices' axis 1, and a slice is `1 × C`.
    The conditions `wf` are decided (or assumed) on a program's literal shapes. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand at row `idx[e, 0]` — read signed, clamped into `[0, N − 1]` — and
    column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    -- the row: the clamped start; no batching coordinate, and no offset coordinate on a collapsed axis
    show (rowsDims N E C wf).start (ix2 e j) idx 0 + (rowsDims N E C wf).batchCoord (ix2 e j) 0
        + (rowsDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column: the start index map does not name this axis, so the start is 0; the offset coordinate is `j`
    show (rowsDims N E C wf).start (ix2 e j) idx 1 + (rowsDims N E C wf).batchCoord (ix2 e j) 1
        + (rowsDims N E C wf).offCoord (ix2 e j) 1 = j.val
    have h1 : (1 : Fin 2) ∉ (rowsDims N E C wf).startIndexMap := by
      intro h; exact Nat.one_ne_zero (congrArg Fin.val (List.mem_singleton.mp h))
    have hk : (1 : Fin 2) ∈ (rowsDims N E C wf).sKept :=
      (GatherDims.mem_sKept _ _).mpr
        ⟨fun h => Nat.one_ne_zero (congrArg Fin.val (List.mem_singleton.mp h)), List.not_mem_nil⟩
    rw [GatherDims.batchCoord_eq_zero _ _ _ List.not_mem_nil]
    unfold GatherDims.start GatherDims.offCoord
    rw [dif_neg h1, dif_pos hk]
    simp only [Nat.add_zero, Nat.zero_add]
    rfl

end RowsGather

end Idealize.ShloMosaic.ValueIdx

end
-- ==== Proof.RefValue.lean ====
/-
  The reference's result, read index by index.

  The reference program computes, from the feature matrix X, the weights W1 and W2 and the sparse matrix given by its
  entries (value, source, destination), the table emb = L · (relu (L · (X · W1)) · W2) — L acting by gathering each
  entry's source row, scaling it by the entry's value and adding it into the destination row — and then, row by row, the
  softmax of the negated squared distances between the rows of emb, plus a small constant.

  Each stage of the program is read at coordinates and identified with the corresponding stage of the formula: the
  product X · W1; the source rows gathered (a negative source index is first moved up by the table's length, then the
  index is clamped into the table); the rows scaled by the entries' values; their sums by destination row, starting from
  zero; the maximum with zero; the product with W2; the same gather, scaling and sum once more; the squared norms; the
  inner products; the negated squared distances; the row maxima, as a fold of the maximum from −∞; the exponentials of
  the differences; their row sums; the quotients plus the constant.
-/
import proofs.«412745_j39127152066566_3_alg».proof.Defs
import proofs.«412745_j39127152066566_3_alg».proof.Proof.Gen.ReferenceIdeal.Run
import proofs.«412745_j39127152066566_3_alg».proof.Proof.Gen.ReferenceIdeal.Read
import proofs.«412745_j39127152066566_3_alg».proof.Proof.InputsOf
import proofs.«412745_j39127152066566_3_alg».proof.Proof.LibGatherRows
import proofs.«412745_j39127152066566_3_alg».proof.Proof.LibScatterRows

noncomputable section

open scoped BigOperators

namespace Cert.ReferenceIdeal.Hand

open Cert.ReferenceIdeal Cert.ReferenceIdeal.Read Cert.Formulas Idealize.ShloMosaic Idealize.ShloMosaic.ValueIdx

/-! ## Indices and constants -/

/-- Two rank-2 indices with equal coordinates are equal. -/
theorem idx2_ext {n0 n1 : Nat} {i j : (⟨2, ![n0, n1]⟩ : Shape).Idx} (h0 : i 0 = j 0) (h1 : i 1 = j 1) : i = j := by
  funext a
  match a with
  | ⟨0, _⟩ => exact h0
  | ⟨1, _⟩ => exact h1

/-- Two rank-1 indices with equal coordinate are equal. -/
theorem idx1_ext {n : Nat} {i j : (⟨1, ![n]⟩ : Shape).Idx} (h0 : i 0 = j 0) : i = j := by
  funext a
  match a with
  | ⟨0, _⟩ => exact h0

/-- The bit pattern of −∞ denotes the least extended real. -/
theorem ofBits_ninf : Ideal.ofBits .f32 0xFF800000#32 = (⊥ : EReal) := by simp [Ideal.ofBits, Ideal.ieee]

variable (X : FVec Ideal S8192x1024 .f32) (W1 : FVec Ideal S1024x256 .f32) (W2 : FVec Ideal S256x64 .f32)
  (val : FVec Ideal S65536 .f32) (src dst : IVec S65536 32)

local notation "𝓘" => inputsOf X W1 W2 val src dst

/-! ## The first layer: X · W1, gathered, scaled, summed by destination, cut at zero -/

/-- X · W1 at (p, o). -/
theorem v0_apply (p : Fin 8192) (o : Fin 256) : val_main_v0 (F := Ideal) X W1 (ix2 p o) = H1 𝓘 p o := by
  rw [val_main_v0_apply]
  unfold H1
  refine Finset.sum_congr rfl fun k _ => ?_
  exact congrArg₂ (· * ·) (congrArg X (idx2_ext rfl rfl)) (congrArg W1 (idx2_ext rfl rfl))

/-- The start index of entry e: its source word, moved up by the table's length when negative. -/
theorem v7_apply (e : Fin 65536) : val_main_v7 (F := Ideal) src (ix2 e (0 : Fin 1)) = normSrc (src (ix1 e)) := by
  rw [val_main_v7_apply, show idx_main_v7 (ix2 e (0 : Fin 1)) = ix1 e from idx1_ext rfl, val_main_v6_apply,
    val_main_v3_apply, val_main_v5_apply, val_main_v2_apply, val_main_v4_apply, val_main_c_apply, val_main_c_0_apply]
  rfl

/-- The gathered row of entry e is the row of X · W1 at the entry's (clamped) source. -/
theorem v8_apply (e : Fin 65536) (o : Fin 256) :
    val_main_v8 (F := Ideal) X W1 src (ix2 e o) = H1 𝓘 ((𝓘).srcN e) o := by
  unfold val_main_v8
  show Host.gather (rowsDims 8192 65536 256 Gen.gather_S8192x256_S65536x1_S65536x256_1_0_n_n_0_1_1256_wf)
    (val_main_v0 (F := Ideal) X W1) (val_main_v7 (F := Ideal) src) (ix2 e o) = _
  rw [gather_rows_apply (by decide)]
  simp only [v7_apply]
  exact v0_apply X W1 W2 val src dst _ o

/-- The entries' values, spread along the rows. -/
theorem v9_apply (e : Fin 65536) (o : Fin 256) : val_main_v9 (F := Ideal) val (ix2 e o) = (𝓘).val e := by
  rw [val_main_v9_apply, val_main_v1_apply]
  exact congrArg val (idx1_ext rfl)

/-- The gathered row scaled by the entry's value. -/
theorem v10_apply (e : Fin 65536) (o : Fin 256) :
    val_main_v10 (F := Ideal) X W1 val src (ix2 e o) = (𝓘).val e * H1 𝓘 ((𝓘).srcN e) o := by
  rw [val_main_v10_apply, Ideal.mulf_def, v9_apply X W1 W2 val src dst, v8_apply X W1 W2 val src dst]

/-- The scaled rows summed into their destination rows, from zero: L · (X · W1). -/
theorem v13_apply (r : Fin 8192) (o : Fin 256) :
    val_main_v13 (F := Ideal) X W1 val src dst (ix2 r o) = spmm 𝓘 (H1 𝓘) r o := by
  unfold val_main_v13
  show Host.scatterAdd (F := Ideal) (rowsScatterDims 8192 65536 256 Gen.scatter_S8192x256_S65536x1_S65536x256_1_0_0_1_wf)
    (val_main_v11 (F := Ideal)) (val_main_v12 (F := Ideal) dst) (val_main_v10 (F := Ideal) X W1 val src) (ix2 r o) = _
  rw [scatterAdd_rows_apply]
  have h11 : val_main_v11 (F := Ideal) (ix2 r o) = 0 := by
    rw [val_main_v11_apply, val_main_cst_apply]; exact Ideal.ofBits_zero_f32
  rw [h11, zero_add]
  unfold spmm
  refine Finset.sum_congr (Finset.filter_congr fun e _ => ?_) fun e _ => v10_apply X W1 W2 val src dst e o
  rw [val_main_v12_apply, show idx_main_v12 (ix2 e (0 : Fin 1)) = ix1 e from idx1_ext rfl]
  exact Iff.rfl

/-- The maximum with zero. -/
theorem v14_apply (r : Fin 8192) (q : Fin 256) :
    val_main_v14 (F := Ideal) X W1 val src dst (ix2 r q) = hR 𝓘 r q := by
  rw [val_main_v14_apply, Ideal.maximumf_def, v13_apply X W1 W2 val src dst, val_main_call0_v0_apply,
    val_main_call0_cst_apply]
  show max _ (Ideal.ofBits .f32 0x00000000#32) = _
  rw [Ideal.ofBits_zero_f32]
  rfl

/-! ## The second layer: times W2, gathered, scaled, summed by destination -/

/-- relu (L · (X · W1)) · W2 at (r, j). -/
theorem v15_apply (r : Fin 8192) (j : Fin 64) :
    val_main_v15 (F := Ideal) X W1 W2 val src dst (ix2 r j) = gR 𝓘 r j := by
  rw [val_main_v15_apply]
  unfold gR
  refine Finset.sum_congr rfl fun k _ => ?_
  rw [show lidx_main_v15 (ix2 r j) k = ix2 r k from idx2_ext rfl rfl, v14_apply X W1 W2 val src dst]
  exact congrArg (hR 𝓘 r k * ·) (congrArg W2 (idx2_ext rfl rfl))

/-- The start index of entry e, as computed a second time. -/
theorem v22_apply (e : Fin 65536) : val_main_v22 (F := Ideal) src (ix2 e (0 : Fin 1)) = normSrc (src (ix1 e)) := by
  rw [val_main_v22_apply, show idx_main_v22 (ix2 e (0 : Fin 1)) = ix1 e from idx1_ext rfl, val_main_v21_apply,
    val_main_v18_apply, val_main_v20_apply, val_main_v17_apply, val_main_v19_apply, val_main_c_1_apply,
    val_main_c_2_apply]
  rfl

/-- The gathered row of entry e is the second table's row at the entry's (clamped) source. -/
theorem v23_apply (e : Fin 65536) (j : Fin 64) :
    val_main_v23 (F := Ideal) X W1 W2 val src dst (ix2 e j) = gR 𝓘 ((𝓘).srcN e) j := by
  unfold val_main_v23
  show Host.gather (rowsDims 8192 65536 64 Gen.gather_S8192x64_S65536x1_S65536x64_1_0_n_n_0_1_164_wf)
    (val_main_v15 (F := Ideal) X W1 W2 val src dst) (val_main_v22 (F := Ideal) src) (ix2 e j) = _
  rw [gather_rows_apply (by decide)]
  simp only [v22_apply]
  exact v15_apply X W1 W2 val src dst _ j

/-- The entries' values, spread along the rows. -/
theorem v24_apply (e : Fin 65536) (j : Fin 64) : val_main_v24 (F := Ideal) val (ix2 e j) = (𝓘).val e := by
  rw [val_main_v24_apply, val_main_v16_apply]
  exact congrArg val (idx1_ext rfl)

/-- The gathered row scaled by the entry's value. -/
theorem v25_apply (e : Fin 65536) (j : Fin 64) :
    val_main_v25 (F := Ideal) X W1 W2 val src dst (ix2 e j) = (𝓘).val e * gR 𝓘 ((𝓘).srcN e) j := by
  rw [val_main_v25_apply, Ideal.mulf_def, v24_apply X W1 W2 val src dst, v23_apply X W1 W2 val src dst]

/-- The scaled rows summed into their destination rows, from zero: the embedding. -/
theorem v28_apply (r : Fin 8192) (j : Fin 64) :
    val_main_v28 (F := Ideal) X W1 W2 val src dst (ix2 r j) = embR 𝓘 r j := by
  unfold val_main_v28
  show Host.scatterAdd (F := Ideal) (rowsScatterDims 8192 65536 64 Gen.scatter_S8192x64_S65536x1_S65536x64_1_0_0_1_wf)
    (val_main_v26 (F := Ideal)) (val_main_v27 (F := Ideal) dst) (val_main_v25 (F := Ideal) X W1 W2 val src dst) (ix2 r j) = _
  rw [scatterAdd_rows_apply]
  have h26 : val_main_v26 (F := Ideal) (ix2 r j) = 0 := by
    rw [val_main_v26_apply, val_main_cst_3_apply]; exact Ideal.ofBits_zero_f32
  rw [h26, zero_add]
  unfold Formulas.embR Formulas.spmm
  refine Finset.sum_congr (Finset.filter_congr fun e _ => ?_) fun e _ => v25_apply X W1 W2 val src dst e j
  rw [val_main_v27_apply, show idx_main_v27 (ix2 e (0 : Fin 1)) = ix1 e from idx1_ext rfl]
  exact Iff.rfl

/-! ## The distances -/

/-- The squared norm of row r of the embedding. -/
theorem v30_apply (r : Fin 8192) : val_main_v30 (F := Ideal) X W1 W2 val src dst (ix1 r) = sqR 𝓘 r := by
  rw [val_main_v30_apply, val_main_cst_4_apply]
  show Ideal.ofBits .f32 0x00000000#32 + _ = _
  rw [Ideal.ofBits_zero_f32, zero_add]
  unfold sqR
  refine Finset.sum_congr rfl fun k _ => ?_
  rw [show idx_main_v30 (ix1 r) k = ix2 r k from idx2_ext rfl rfl, val_main_v29_apply, Ideal.mulf_def,
    v28_apply X W1 W2 val src dst]

/-- The sum of the squared norms of rows p and q. -/
theorem v35_apply (p q : Fin 8192) :
    val_main_v35 (F := Ideal) X W1 W2 val src dst (ix2 p q) = sqR 𝓘 p + sqR 𝓘 q := by
  rw [val_main_v35_apply, Ideal.addf_def, val_main_v33_apply, val_main_v31_apply, val_main_v34_apply, val_main_v32_apply,
    show idx_main_v31 (idx_main_v33 (ix2 p q)) = ix1 p from idx1_ext rfl,
    show idx_main_v32 (idx_main_v34 (ix2 p q)) = ix1 q from idx1_ext rfl,
    v30_apply X W1 W2 val src dst p, v30_apply X W1 W2 val src dst q]

/-- The inner product of rows p and q. -/
theorem v37_apply (p q : Fin 8192) :
    val_main_v37 (F := Ideal) X W1 W2 val src dst (ix2 p q) = ∑ j : Fin 64, embR 𝓘 p j * embR 𝓘 q j := by
  rw [val_main_v37_apply]
  refine Finset.sum_congr rfl fun k _ => ?_
  rw [val_main_v36_apply, show lidx_main_v37 (ix2 p q) k = ix2 p k from idx2_ext rfl rfl,
    show idx_main_v36 (ridx_main_v37 (ix2 p q) k) = ix2 q k from idx2_ext rfl rfl,
    v28_apply X W1 W2 val src dst p k, v28_apply X W1 W2 val src dst q k]

/-- The negated squared distance of rows p and q. -/
theorem v41_apply (p q : Fin 8192) :
    val_main_v41 (F := Ideal) X W1 W2 val src dst (ix2 p q) = negR 𝓘 p q := by
  rw [val_main_v41_apply, Ideal.hostNegf_def, Ideal.negf_def, val_main_v40_apply, Ideal.subf_def, val_main_v39_apply,
    Ideal.mulf_def, v35_apply X W1 W2 val src dst, v37_apply X W1 W2 val src dst, val_main_v38_apply,
    val_main_cst_5_apply]
  rfl

/-! ## The softmax -/

/-- The reduced index p with column k put back is (p, k). -/
theorem lift_row (h : S8192x8192.Reduces [1] S8192) (p : Fin 8192) (k : Fin (S8192x8192.size 1)) :
    h.lift (ix1 p) k = ix2 p (⟨k.val, k.isLt⟩ : Fin 8192) := by
  funext c
  apply Fin.ext
  match c with
  | ⟨0, _⟩ => rfl
  | ⟨1, _⟩ => rfl

/-- The maximum of row p of the negated squared distances: the fold of max from −∞ over the columns. -/
theorem v44_apply (p : Fin 8192) : val_main_v44 (F := Ideal) X W1 W2 val src dst (ix1 p) = rowmaxR 𝓘 p := by
  have h : S8192x8192.Reduces [1] S8192 := by decide
  rw [val_main_v44_apply, Ideal.maximumf_def, val_main_v43_apply, val_main_cst_7_apply]
  show max (Ideal.ofBits .f32 0xFF800000#32) _ = _
  rw [ofBits_ninf, max_eq_right bot_le]
  unfold val_main_v42
  rw [Host.reduce_eq_fold_single FloatOps.maximumf _ _ _ h, val_main_cst_6_apply]
  have hf : (val_main_v41 (F := Ideal) X W1 W2 val src dst ∘ h.lift (ix1 p)) = negR 𝓘 p :=
    funext fun k => (congrArg _ (lift_row h p k)).trans (v41_apply X W1 W2 val src dst p ⟨k.val, k.isLt⟩)
  rw [hf]
  show Finset.fold max (Ideal.ofBits .f32 0xFF800000#32) (negR 𝓘 p) (Finset.univ : Finset (Fin 8192)) = _
  rw [ofBits_ninf]
  rfl

/-- The negated squared distance less its row's maximum. -/
theorem v47_apply (p q : Fin 8192) :
    val_main_v47 (F := Ideal) X W1 W2 val src dst (ix2 p q) = negR 𝓘 p q - rowmaxR 𝓘 p := by
  rw [val_main_v47_apply, Ideal.subf_def, v41_apply X W1 W2 val src dst, val_main_v46_apply, val_main_v45_apply,
    show idx_main_v45 (idx_main_v46 (ix2 p q)) = ix1 p from idx1_ext rfl, v44_apply X W1 W2 val src dst]

/-- Its exponential. -/
theorem v48_apply (p q : Fin 8192) :
    val_main_v48 (F := Ideal) X W1 W2 val src dst (ix2 p q) = Ideal.exp (negR 𝓘 p q - rowmaxR 𝓘 p) := by
  rw [val_main_v48_apply, Ideal.hostUnary_exp_def, v47_apply X W1 W2 val src dst]

/-- The sum of the exponentials along row p. -/
theorem v49_apply (p : Fin 8192) :
    val_main_v49 (F := Ideal) X W1 W2 val src dst (ix1 p) = ∑ q' : Fin 8192, Ideal.exp (negR 𝓘 p q' - rowmaxR 𝓘 p) := by
  rw [val_main_v49_apply, val_main_cst_8_apply]
  show Ideal.ofBits .f32 0x00000000#32 + _ = _
  rw [Ideal.ofBits_zero_f32, zero_add]
  refine Finset.sum_congr rfl fun k _ => ?_
  rw [show idx_main_v49 (ix1 p) k = ix2 p k from idx2_ext rfl rfl, v48_apply X W1 W2 val src dst]

/-- The quotient plus the small constant: the result at (p, q). -/
theorem v54_apply (p q : Fin 8192) :
    val_main_v54 (F := Ideal) X W1 W2 val src dst (ix2 p q) = outR 𝓘 p q := by
  rw [val_main_v54_apply, Ideal.addf_def, val_main_v52_apply, Ideal.hostDivf_def, v48_apply X W1 W2 val src dst,
    val_main_v51_apply, val_main_v50_apply, show idx_main_v50 (idx_main_v51 (ix2 p q)) = ix1 p from idx1_ext rfl,
    v49_apply X W1 W2 val src dst, val_main_v53_apply, val_main_cst_9_apply]
  rfl

/-- The last stage, as a function of the six argument arrays, is the formula as an array. -/
theorem value_eq :
    val_main_v54 (F := Ideal) X W1 W2 val src dst = asArray (outR 𝓘) := by
  funext i
  obtain ⟨p, q, rfl⟩ : ∃ p q, i = ix2 p q := ⟨i 0, i 1, eq_ix2 i⟩
  exact v54_apply X W1 W2 val src dst p q

section Run

open Idealize.ShloMosaic.TcCoe Idealize.SL.Sem

/-- The term every run ends with in the result buffer is the formula of the argument buffers' contents. -/
theorem result_eq (m : (ℓ : Loc nD τ sig) → Buf (Elt Ideal) ℓ) (c : Dev nD) :
    Cert.ReferenceIdeal.Value.res_main_v54 (F := Ideal) m c
      = Cert.Formulas.asArray (Cert.Formulas.outR (Cert.Formulas.inputsOf
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)))) :=
  (val_main_v54_eq m c).trans (value_eq _ _ _ _ _ _)

end Run

end Cert.ReferenceIdeal.Hand

end
-- ==== Proof.PreDecode.lean ====
/-
  What the precondition says of the six argument arrays.

  The precondition is a conjunction of six "for every element" statements, each folded by AND into one bit, and the
  six bits joined by AND: the absolute value of every entry of the feature matrix, of the two weight matrices and of
  the entries' values is below +∞, and every source and every destination word, read signed, is at least 0 and below
  8192. The conjunction being the all-ones bit, each of the six holds at every element.

  An extended real whose absolute value max x (−x) is below +∞ is neither +∞ nor −∞, so it is a real number. A word
  whose signed reading lies in [0, 8192) is not negative, so the lookup's normalisation leaves it alone and the clamp
  to [0, 8191] does nothing; and for two such words d and s the 32-bit value d · 8192 + s is at most
  8191 · 8192 + 8191 < 2³¹, so neither the product nor the sum wraps and its signed reading is the integer
  d · 8192 + s. The literal 0x40000000 is the number 2. These are the hypotheses under which the two formulas agree.
-/
import proofs.«412745_j39127152066566_3_alg».proof.Pre_finite_inputs
import proofs.«412745_j39127152066566_3_alg».proof.Proof.InputsOf
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs (S8192x1024 S1024x256 S256x64 S65536 S_)

/-! ## The two float literals -/

/-- The pattern with all exponent bits set and no fraction bit, sign clear, is +∞. -/
theorem inf_bits : Ideal.ofBits .f32 0x7F800000#32 = (⊤ : EReal) := by
  simp [Ideal.ofBits, Ideal.ieee]

/-- The pattern 0x40000000 (exponent field 128, fraction 0) is 2²³ · 2⁻²² = 2. -/
theorem two_bits : Ideal.ofBits .f32 0x40000000#32 = ((2 : ℝ) : EReal) := by
  simp only [Ideal.ofBits, Ideal.ieee]
  simp
  rw [← EReal.coe_mul]
  norm_num

/-! ## One element of each conjunct -/

/-- An extended real whose absolute value is below +∞ is a real number: +∞ and −∞ both have absolute value +∞. -/
theorem real_of_abs_lt_top (x : EReal) (h : max x (-x) < ⊤) : ∃ r : ℝ, x = (r : EReal) := by
  induction x using EReal.rec with
  | bot => simp at h
  | coe r => exact ⟨r, rfl⟩
  | top => simp at h

/-- The float conjunct at one element: "|x| is ordered below the literal +∞" came out true, so x is real. -/
theorem real_of_cmp (x : EReal) (h : Ideal.cmp .olt (max x (-x)) (Ideal.ofBits .f32 0x7F800000#32) = 1#1) :
    ∃ r : ℝ, x = (r : EReal) := by
  rw [inf_bits] at h
  apply real_of_abs_lt_top
  simpa [Ideal.cmp, StableHlo.Predicate.ofBool_eq_one_iff] using h

/-- The index conjunct at one element: "w ≥ 0 and w < 8192, signed" came out true, so w's signed reading is in [0, 8192). -/
theorem range_of_cmp (w : BitVec 32) (h : IntOp.andi (IntOp.cmpi .sge w 0#32) (IntOp.cmpi .slt w 8192#32) = 1#1) :
    0 ≤ w.toInt ∧ w.toInt < 8192 := by
  rw [IntOp.andi_eq_one, IntOp.cmpi_sge, IntOp.cmpi_slt] at h
  have e0 : (0#32 : BitVec 32).toInt = 0 := by decide
  have e1 : (8192#32 : BitVec 32).toInt = 8192 := by decide
  omega

/-! ## Words in [0, 8192) -/

/-- A word whose signed reading is in [0, 8192) has that same unsigned reading. -/
theorem toNat_of_range (w : BitVec 32) (h : 0 ≤ w.toInt ∧ w.toInt < 8192) :
    w.toNat < 8192 ∧ w.toInt = (w.toNat : ℤ) := by
  have h32 := w.isLt
  rw [BitVec.toInt_eq_toNat_cond] at h ⊢
  split_ifs at h ⊢ <;> omega

/-- A word that is not negative is left alone by the lookup's normalisation: the test "w < 0" fails, so the select
    returns w itself and not w + 8192. -/
theorem normSrc_of_nonneg (w : BitVec 32) (h : 0 ≤ w.toInt) : Cert.Formulas.normSrc w = w := by
  have hc : ¬ IntOp.cmpi .slt w 0#32 = 1#1 := by
    rw [IntOp.cmpi_slt]
    have e0 : (0#32 : BitVec 32).toInt = 0 := by decide
    omega
  unfold Cert.Formulas.normSrc
  rw [eq_zero_of_ne_one hc, select_zero]

/-- For d and s in [0, 8192) the 32-bit value d · 8192 + s does not wrap: d · 8192 ≤ 8191 · 8192 < 2³² keeps the
    product exact, adding s < 8192 stays below 2³¹, and a word below 2³¹ reads the same signed and unsigned. -/
theorem flatWord_toInt (d s : BitVec 32) (hd : 0 ≤ d.toInt ∧ d.toInt < 8192) (hs : 0 ≤ s.toInt ∧ s.toInt < 8192) :
    (Cert.Formulas.flatWord d s).toInt = d.toInt * 8192 + s.toInt := by
  obtain ⟨hdN, hdI⟩ := toNat_of_range d hd
  obtain ⟨hsN, hsI⟩ := toNat_of_range s hs
  have hN : (Cert.Formulas.flatWord d s).toNat = d.toNat * 8192 + s.toNat := by
    show (d * 8192#32 + s).toNat = _
    rw [BitVec.toNat_add, BitVec.toNat_mul]
    have e : (8192#32 : BitVec 32).toNat = 8192 := by decide
    rw [e]
    omega
  rw [StableHlo.Predicate.toInt_eq_toNat_of_lt (by rw [hN]; omega), hN, hdI, hsI]
  push_cast
  ring

/-! ## The conjunction, split -/

/-- The rank-0 shape has exactly one index. -/
instance : Subsingleton S_.Idx := ⟨fun a b => funext fun d => d.elim0⟩

/-- The AND of two bit arrays, read at an index, is the AND of the two bits there. -/
theorem andi_apply {s : Shape} {w : Nat} (x y : IVec s w) (i : s.Idx) : andi x y i = IntOp.andi (x i) (y i) := rfl

/-- The six element facts the precondition states: the result bit is the AND of six folded bits, so each fold is 1,
    and a fold by AND over a whole array that is 1 met a 1 at every element. -/
theorem facts_of_pre [Cert.Pre_finite_inputs.Facts] (X : FVec Ideal S8192x1024 .f32) (W1 : FVec Ideal S1024x256 .f32)
    (W2 : FVec Ideal S256x64 .f32) (val : FVec Ideal S65536 .f32) (src dst : IVec S65536 32)
    (h : Cert.Pre_finite_inputs.fn (F := Ideal) X W1 W2 val src dst = fun _ => 1#1) :
    (∀ i, ∃ r : ℝ, X i = (r : EReal)) ∧ (∀ i, ∃ r : ℝ, W1 i = (r : EReal)) ∧ (∀ i, ∃ r : ℝ, W2 i = (r : EReal))
      ∧ (∀ i, ∃ r : ℝ, val i = (r : EReal))
      ∧ (∀ i, 0 ≤ (src i).toInt ∧ (src i).toInt < 8192) ∧ (∀ i, 0 ≤ (dst i).toInt ∧ (dst i).toInt < 8192) := by
  have h0 := congrFun h ix0
  simp only [Cert.Pre_finite_inputs.fn, Cert.Pre_finite_inputs.fn_part1, andi_apply, IntOp.andi_eq_one] at h0
  obtain ⟨⟨⟨⟨⟨hX, hW1⟩, hW2⟩, hval⟩, hsrc⟩, hdst⟩ := h0
  refine ⟨fun i => ?_, fun i => ?_, fun i => ?_, fun i => ?_, fun i => ?_, fun i => ?_⟩
  · exact real_of_cmp _ (Host.reduce_andi_all _ _ _ _ _ hX i)
  · exact real_of_cmp _ (Host.reduce_andi_all _ _ _ _ _ hW1 i)
  · exact real_of_cmp _ (Host.reduce_andi_all _ _ _ _ _ hW2 i)
  · exact real_of_cmp _ (Host.reduce_andi_all _ _ _ _ _ hval i)
  · exact range_of_cmp _ (Host.reduce_andi_all _ _ _ _ _ hsrc i)
  · exact range_of_cmp _ (Host.reduce_andi_all _ _ _ _ _ hdst i)

/-! ## The hypotheses of the agreement -/

/-- Under the precondition the inputs read off the argument arrays satisfy every hypothesis of the agreement. -/
theorem good_of_pre [Cert.Pre_finite_inputs.Facts] (X : FVec Ideal Cert.Pre_finite_inputs.S8192x1024 .f32)
    (W1 : FVec Ideal Cert.Pre_finite_inputs.S1024x256 .f32) (W2 : FVec Ideal Cert.Pre_finite_inputs.S256x64 .f32)
    (val : FVec Ideal Cert.Pre_finite_inputs.S65536 .f32) (src dst : IVec Cert.Pre_finite_inputs.S65536 32)
    (h : Cert.Pre_finite_inputs.fn (F := Ideal) X W1 W2 val src dst = fun _ => 1#1) :
    Cert.Formulas.Good (Cert.Formulas.inputsOf X W1 W2 val src dst) := by
  obtain ⟨hX, hW1, hW2, hval, hsrc, hdst⟩ := facts_of_pre X W1 W2 val src dst h
  refine ⟨fun p k => hX (ix2 p k), fun k o => hW1 (ix2 k o), fun q j => hW2 (ix2 q j), fun e => hval (ix1 e),
    fun e => hdst (ix1 e), fun e => ?_, two_bits⟩
  -- the flat position: the source word is its own normalisation, already inside the clamp's range
  have hs := hsrc (ix1 e)
  obtain ⟨hsN, hsI⟩ := toNat_of_range _ hs
  show (Cert.Formulas.flatWord (dst (ix1 e)) (src (ix1 e))).toInt
      = (dst (ix1 e)).toInt * 8192 + ((min (Cert.Formulas.normSrc (src (ix1 e))).toInt.toNat (8192 - 1) : ℕ) : ℤ)
  rw [flatWord_toInt _ _ (hdst (ix1 e)) hs, normSrc_of_nonneg _ hs.1, hsI]
  have : min ((src (ix1 e)).toNat : ℤ).toNat (8192 - 1) = (src (ix1 e)).toNat := by
    rw [Int.toNat_natCast]; omega
  rw [this]

end Cert.PreDecode

end
-- ==== Proof.AlgSpmm.lean ====
/-
  The sparse matrix acting densely and acting by gathering give the same table.

  The matrix is given by 65536 entries (value, destination row, source row).  Acting densely, it is first laid out as
  an 8192 x 8192 array `adj` (the entry at (p, r) is the sum of the values whose flat position is p * 8192 + r) and
  then multiplied with a table; acting by gathering, each entry scales the source row of the table and adds it into
  its destination row.  When every number involved is a real number, and every entry's flat position is the one its
  destination and source give, the two coincide: a flat position below 8192 * 8192 splits in exactly one way into a row
  and a column, and over the reals multiplication distributes over finite sums.  (Over the extended reals it does not,
  which is why each step below also records that its value is a real number.)
-/
import proofs.«412745_j39127152066566_3_alg».proof.Proof.Formulas
import Mathlib.Data.EReal.Basic
import Mathlib.Data.EReal.Operations
import Mathlib.Algebra.BigOperators.Ring.Finset
import Mathlib.Algebra.BigOperators.Group.Finset.Basic
import Mathlib.Algebra.BigOperators.Group.Finset.Piecewise
import Mathlib.Algebra.BigOperators.Group.Finset.Sigma
import Mathlib.Order.MinMax

noncomputable section

open scoped BigOperators

namespace Cert.Formulas

/-! ## Real numbers inside the extended reals -/

/-- The inclusion of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro a t ha ih
    rw [Finset.sum_insert ha, Finset.sum_insert ha, EReal.coe_add, ih]

/-- A product of two real numbers is a real number. -/
theorem real_mul {a b : EReal} (ha : ∃ x : ℝ, a = (x : EReal)) (hb : ∃ y : ℝ, b = (y : EReal)) :
    ∃ z : ℝ, a * b = (z : EReal) := by
  obtain ⟨x, rfl⟩ := ha
  obtain ⟨y, rfl⟩ := hb
  exact ⟨x * y, (EReal.coe_mul x y).symm⟩

/-- A finite sum of real numbers is a real number. -/
theorem real_sum {ι : Type*} (s : Finset ι) (f : ι → EReal) (hf : ∀ i, ∃ x : ℝ, f i = (x : EReal)) :
    ∃ z : ℝ, ∑ i ∈ s, f i = (z : EReal) := by
  choose g hg using hf
  refine ⟨∑ i ∈ s, g i, ?_⟩
  rw [coe_sum]
  exact Finset.sum_congr rfl (fun i _ => hg i)

/-- The larger of a real number and zero is a real number. -/
theorem real_max_zero {a : EReal} (ha : ∃ x : ℝ, a = (x : EReal)) : ∃ z : ℝ, max a 0 = (z : EReal) := by
  obtain ⟨x, rfl⟩ := ha
  refine ⟨max x 0, ?_⟩
  rw [EReal.coe_strictMono.monotone.map_max, EReal.coe_zero]

/-! ## The identity over the reals -/

/-- Densify-then-multiply equals gather, over the reals and for any finite index types: if entry `e` lies at
    column `r` of the fixed row exactly when it belongs to that row (`Q e`) and its source is `r`, then summing,
    over the columns, the column's total value times `g` of the column is summing, over the row's entries, the
    entry's value times `g` of its source.  Distribute, exchange the two sums, and note that for each entry at most
    one column contributes. -/
theorem real_dense_eq_gather {E N : Type*} [Fintype E] [Fintype N] [DecidableEq N]
    (P : E → N → Prop) [∀ e r, Decidable (P e r)] (Q : E → Prop) [DecidablePred Q] (s : E → N)
    (hPQ : ∀ e r, P e r ↔ (Q e ∧ s e = r)) (v : E → ℝ) (g : N → ℝ) :
    ∑ r, (∑ e ∈ Finset.univ.filter (fun e => P e r), v e) * g r
      = ∑ e ∈ Finset.univ.filter Q, v e * g (s e) := by
  calc ∑ r, (∑ e ∈ Finset.univ.filter (fun e => P e r), v e) * g r
      = ∑ r, ∑ e, (if P e r then v e * g r else 0) := by
        refine Finset.sum_congr rfl (fun r _ => ?_)
        rw [Finset.sum_mul, Finset.sum_filter]
    _ = ∑ e, ∑ r, (if P e r then v e * g r else 0) := Finset.sum_comm
    _ = ∑ e, (if Q e then v e * g (s e) else 0) := by
        refine Finset.sum_congr rfl (fun e _ => ?_)
        by_cases hq : Q e
        · have hcol : ∀ r, (if P e r then v e * g r else 0) = (if s e = r then v e * g r else 0) := by
            intro r
            by_cases hr : s e = r
            · rw [if_pos ((hPQ e r).mpr ⟨hq, hr⟩), if_pos hr]
            · rw [if_neg (fun hp => hr ((hPQ e r).mp hp).2), if_neg hr]
          rw [Finset.sum_congr rfl (fun r _ => hcol r), Finset.sum_ite_eq, if_pos (Finset.mem_univ _), if_pos hq]
        · have hcol : ∀ r, (if P e r then v e * g r else 0) = 0 := by
            intro r
            rw [if_neg (fun hp => hq ((hPQ e r).mp hp).1)]
          rw [Finset.sum_congr rfl (fun r _ => hcol r), Finset.sum_const_zero, if_neg hq]
    _ = ∑ e ∈ Finset.univ.filter Q, v e * g (s e) := (Finset.sum_filter _ _).symm

/-! ## The tables are real -/

variable (I : Inputs)

/-- A flat position is the one of row `p`, column `r` exactly when the entry's destination is `p` and its source
    is `r`: both coordinates lie below 8192, so the position determines them. -/
theorem flat_iff (h : Good I) (e : Fin 65536) (p r : Fin 8192) :
    I.flat e = (p.val : ℤ) * 8192 + (r.val : ℤ) ↔ (I.dstI e = (p.val : ℤ) ∧ I.srcN e = r) := by
  have h1 := h.hflat e
  have h2 := h.hdst e
  have h3 := (I.srcN e).isLt
  have h4 := r.isLt
  have h5 := p.isLt
  constructor
  · intro hf
    rw [h1] at hf
    have hd : I.dstI e = (p.val : ℤ) := by omega
    refine ⟨hd, Fin.ext ?_⟩
    omega
  · rintro ⟨ha, hb⟩
    rw [h1, ha, hb]

/-- X · W1 is a table of real numbers. -/
theorem H1_real (h : Good I) (p : Fin 8192) (o : Fin 256) : ∃ x : ℝ, H1 I p o = (x : EReal) :=
  real_sum _ _ (fun k => real_mul (h.hX p k) (h.hW1 k o))

/-- The dense matrix is a table of real numbers. -/
theorem adj_real (h : Good I) (p r : Fin 8192) : ∃ x : ℝ, adj I p r = (x : EReal) :=
  real_sum _ _ (fun e => h.hval e)

/-- Gathering from a table of real numbers gives a table of real numbers. -/
theorem spmm_real (h : Good I) {C : ℕ} (H : Fin 8192 → Fin C → EReal)
    (hH : ∀ r o, ∃ x : ℝ, H r o = (x : EReal)) (p : Fin 8192) (o : Fin C) :
    ∃ x : ℝ, spmm I H p o = (x : EReal) :=
  real_sum _ _ (fun e => real_mul (h.hval e) (hH (I.srcN e) o))

/-! ## Dense equals gathered -/

/-- Multiplying a table of real numbers by the dense matrix is gathering into it. -/
theorem dense_eq_spmm (h : Good I) {C : ℕ} (H : Fin 8192 → Fin C → EReal)
    (hH : ∀ r o, ∃ x : ℝ, H r o = (x : EReal)) (p : Fin 8192) (o : Fin C) :
    (∑ r : Fin 8192, adj I p r * H r o) = spmm I H p o := by
  choose Hr hHr using hH
  choose v hv using h.hval
  -- the dense matrix, as the inclusion of a real sum
  have hadj : ∀ r : Fin 8192, adj I p r
      = ((∑ e ∈ Finset.univ.filter (fun e : Fin 65536 => I.flat e = (p.val : ℤ) * 8192 + (r.val : ℤ)), v e : ℝ)
          : EReal) := by
    intro r
    unfold adj
    rw [coe_sum]
    exact Finset.sum_congr rfl (fun e _ => hv e)
  -- the dense product, as the inclusion of a real double sum
  have hL : (∑ r : Fin 8192, adj I p r * H r o)
      = ((∑ r : Fin 8192,
            (∑ e ∈ Finset.univ.filter (fun e : Fin 65536 => I.flat e = (p.val : ℤ) * 8192 + (r.val : ℤ)), v e)
              * Hr r o : ℝ) : EReal) := by
    rw [coe_sum]
    refine Finset.sum_congr rfl (fun r _ => ?_)
    rw [hadj r, hHr r o, EReal.coe_mul]
  -- the gathered sum, as the inclusion of a real sum
  have hG : spmm I H p o
      = ((∑ e ∈ Finset.univ.filter (fun e : Fin 65536 => I.dstI e = (p.val : ℤ)), v e * Hr (I.srcN e) o : ℝ)
          : EReal) := by
    unfold spmm
    rw [coe_sum]
    refine Finset.sum_congr rfl (fun e _ => ?_)
    rw [hv e, hHr (I.srcN e) o, EReal.coe_mul]
  rw [hL, hG]
  exact congrArg Real.toEReal (real_dense_eq_gather
    (fun (e : Fin 65536) (r : Fin 8192) => I.flat e = (p.val : ℤ) * 8192 + (r.val : ℤ))
    (fun e : Fin 65536 => I.dstI e = (p.val : ℤ)) I.srcN (fun e r => flat_iff I h e p r) v (fun r => Hr r o))

/-! ## The two embeddings -/

/-- The hidden layers agree: relu (adj · H1) · W2 is relu (L · H1) · W2. -/
theorem hK_eq_gR (h : Good I) (p : Fin 8192) (j : Fin 64) : hK I p j = gR I p j := by
  unfold hK gR hR
  refine Finset.sum_congr rfl (fun q _ => ?_)
  rw [dense_eq_spmm I h (H1 I) (H1_real I h) p q]

/-- The gathering side's hidden layer is a table of real numbers. -/
theorem gR_real (h : Good I) (r : Fin 8192) (j : Fin 64) : ∃ x : ℝ, gR I r j = (x : EReal) :=
  real_sum _ _ (fun q => real_mul (real_max_zero (spmm_real I h (H1 I) (H1_real I h) r q)) (h.hW2 q j))

/-- The two embeddings agree. -/
theorem embK_eq_embR (h : Good I) (p : Fin 8192) (j : Fin 64) : embK I p j = embR I p j := by
  unfold embK embR
  rw [← dense_eq_spmm I h (gR I) (gR_real I h) p j]
  exact Finset.sum_congr rfl (fun r _ => by rw [hK_eq_gR I h r j])

/-- The embedding is a table of real numbers. -/
theorem embR_real (h : Good I) (p : Fin 8192) (j : Fin 64) : ∃ x : ℝ, embR I p j = (x : EReal) :=
  spmm_real I h (gR I) (gR_real I h) p j

end Cert.Formulas

end
-- ==== Proof.AlgSoftmax.lean ====
/-
  The two softmax formulas agree once the two embeddings agree and are real numbers.

  Write s r for the squared norm of row r of the embedding and d p q for the inner product of rows p and q, both real
  numbers.  One side's logit at (p, q) is 2 · d p q − s q; the other's is −((s p + s q) − 2 · d p q), which is the first
  minus s p: the two differ by a term that is constant along the row p.  The row maximum of real numbers over a nonempty
  index set is a real number and moves by that same constant, so logit minus row maximum is the same extended real on
  both sides; the exponentials, their sums and the quotients then coincide term by term.

  Subtraction of extended reals only behaves on real numbers, so every quantity is first shown to be the coercion of a
  real number and the arithmetic is finished in ℝ.
-/
import proofs.«412745_j39127152066566_3_alg».proof.Proof.Formulas

noncomputable section

open scoped BigOperators

namespace Cert.Formulas

open Idealize.ShloMosaic

/-- The coercion ℝ → EReal carries a finite sum to the sum of the coercions. -/
theorem coe_finsum {ι : Type*} (t : Finset ι) (f : ι → ℝ) :
    (∑ i ∈ t, ((f i : ℝ) : EReal)) = ((∑ i ∈ t, f i : ℝ) : EReal) := by
  classical
  induction t using Finset.induction_on with
  | empty => rw [Finset.sum_empty, Finset.sum_empty, EReal.coe_zero]
  | insert a t ha ih => rw [Finset.sum_insert ha, Finset.sum_insert ha, ih, EReal.coe_add]

/-- Subtracting a real constant commutes with the maximum of two extended reals. -/
theorem max_sub_coe (x y : EReal) (c : ℝ) : max (x - (c : EReal)) (y - (c : EReal)) = max x y - (c : EReal) := by
  have hmono : Monotone (fun z : EReal => z - (c : EReal)) := fun a b hab => EReal.sub_le_sub hab le_rfl
  exact (hmono.map_max (a := x) (b := y)).symm

/-- The fold of max from −∞ over real numbers shifted by a constant is the fold of the unshifted numbers, shifted.
    (Over the empty set both sides are −∞.) -/
theorem fold_max_shift {ι : Type*} (t : Finset ι) (f : ι → ℝ) (c : ℝ) :
    (t.fold max ⊥ fun q => ((f q - c : ℝ) : EReal)) = (t.fold max ⊥ fun q => ((f q : ℝ) : EReal)) - (c : EReal) := by
  classical
  induction t using Finset.induction_on with
  | empty => rw [Finset.fold_empty, Finset.fold_empty, EReal.bot_sub]
  | insert a t ha ih =>
    rw [Finset.fold_insert ha, Finset.fold_insert ha, ih, EReal.coe_sub, max_sub_coe]

/-- The fold of max from −∞ over a nonempty family of real numbers is a real number. -/
theorem fold_max_real {ι : Type*} (t : Finset ι) (ht : t.Nonempty) (f : ι → ℝ) :
    ∃ M : ℝ, (t.fold max ⊥ fun q => ((f q : ℝ) : EReal)) = (M : EReal) := by
  classical
  induction t using Finset.induction_on with
  | empty => exact absurd ht Finset.not_nonempty_empty
  | insert a t ha ih =>
    rw [Finset.fold_insert ha]
    rcases t.eq_empty_or_nonempty with h0 | hne
    · subst h0
      exact ⟨f a, by rw [Finset.fold_empty, max_eq_left bot_le]⟩
    · obtain ⟨M, hM⟩ := ih hne
      exact ⟨max (f a) M, by rw [hM]; exact (EReal.coe_strictMono.monotone.map_max (a := f a) (b := M)).symm⟩

/-- With equal, real embeddings the two results are equal at every index. -/
theorem out_eq_of_emb (I : Inputs) (htwo : I.two = ((2 : ℝ) : EReal))
    (hemb : ∀ p j, embK I p j = embR I p j) (hreal : ∀ p j, ∃ x : ℝ, embR I p j = (x : EReal))
    (p q : Fin 8192) : outK I p q = outR I p q := by
  choose er her using hreal
  have hK : ∀ a j, embK I a j = ((er a j : ℝ) : EReal) := fun a j => (hemb a j).trans (her a j)
  -- squared norms and inner products of the real table
  let s : Fin 8192 → ℝ := fun r => ∑ j : Fin 64, er r j * er r j
  let d : Fin 8192 → Fin 8192 → ℝ := fun a b => ∑ j : Fin 64, er a j * er b j
  -- the logit without the row-constant term
  let L : Fin 8192 → Fin 8192 → ℝ := fun a b => 2 * d a b - s b
  have hsqK : ∀ r, sqK I r = ((s r : ℝ) : EReal) := by
    intro r
    unfold sqK
    simp only [hK, ← EReal.coe_mul]
    exact coe_finsum _ _
  have hsqR : ∀ r, sqR I r = ((s r : ℝ) : EReal) := by
    intro r
    unfold sqR
    simp only [her, ← EReal.coe_mul]
    exact coe_finsum _ _
  have hdK : ∀ a b, (∑ j : Fin 64, embK I a j * embK I b j) = ((d a b : ℝ) : EReal) := by
    intro a b
    simp only [hK, ← EReal.coe_mul]
    exact coe_finsum _ _
  have hdR : ∀ a b, (∑ j : Fin 64, embR I a j * embR I b j) = ((d a b : ℝ) : EReal) := by
    intro a b
    simp only [her, ← EReal.coe_mul]
    exact coe_finsum _ _
  have hlogK : ∀ a b, logitK I a b = ((L a b : ℝ) : EReal) := by
    intro a b
    unfold logitK
    rw [hdK, hsqK, htwo, ← EReal.coe_mul, ← EReal.coe_sub]
  have hnegR : ∀ a b, negR I a b = ((L a b - s a : ℝ) : EReal) := by
    intro a b
    unfold negR
    rw [hdR, hsqR, hsqR, htwo, ← EReal.coe_mul, ← EReal.coe_add, ← EReal.coe_sub, ← EReal.coe_neg]
    exact congrArg _ (by simp only [L]; ring)
  -- the row maxima: a real number on one side, the same number moved by the row constant on the other
  have hne : (Finset.univ : Finset (Fin 8192)).Nonempty := ⟨p, Finset.mem_univ p⟩
  obtain ⟨M, hM⟩ := fold_max_real (Finset.univ : Finset (Fin 8192)) hne (L p)
  have hmaxK : rowmaxK I p = (M : EReal) := by
    unfold rowmaxK
    rw [show logitK I p = fun b => ((L p b : ℝ) : EReal) from funext (hlogK p)]
    exact hM
  have hmaxR : rowmaxR I p = ((M - s p : ℝ) : EReal) := by
    unfold rowmaxR
    rw [show negR I p = fun b => ((L p b - s p : ℝ) : EReal) from funext (hnegR p), fold_max_shift, hM,
      ← EReal.coe_sub]
  -- logit minus row maximum is the same extended real on both sides
  have key : ∀ b, negR I p b - rowmaxR I p = logitK I p b - rowmaxK I p := by
    intro b
    rw [hnegR, hmaxR, hlogK, hmaxK, ← EReal.coe_sub, ← EReal.coe_sub]
    exact congrArg _ (by ring)
  unfold outK outR
  simp only [key]

end Cert.Formulas

end
-- ==== Proof.Alg.lean ====
/-
  The two formulas agree.

  With every float input a real number, every destination a row of the matrix, and the flat positions computed without
  wrapping, the dense matrix acts on a table of rows exactly as gathering and adding rows does, so the two embeddings
  coincide and are real numbers; and two softmax rows whose logits differ by a term constant along the row coincide.
-/
import proofs.«412745_j39127152066566_3_alg».proof.Proof.AlgSpmm
import proofs.«412745_j39127152066566_3_alg».proof.Proof.AlgSoftmax

noncomputable section

namespace Cert.Formulas

/-- Under the hypotheses `Good`, the dense side's result is the gathering side's, entry by entry. -/
theorem outK_eq_outR (I : Inputs) (h : Good I) (p q : Fin 8192) : outK I p q = outR I p q :=
  out_eq_of_emb I h.htwo (embK_eq_embR I h) (embR_real I h) p q

end Cert.Formulas

end
-- ==== Proof.lean ====
/-
  The five claims about the sparse-propagation embedding and its pairwise-distance softmax.

  The program under study builds, from a node-feature matrix X, two weight matrices W1 and W2 and a sparse matrix L given
  entry by entry (value, source column, destination row), the embedding  emb = L · (relu (L · (X · W1)) · W2)  and returns,
  row by row, the softmax of the negated squared distances between the rows of emb, plus a small constant. One side makes L
  dense first (a scalar scatter into an 8192 · 8192 array) and runs four pipelined launches — X · W1; relu (L · ·) · W2; L · ·;
  the softmax of 2 ⟨emb p, emb q⟩ − |emb q|² —, the other gathers and adds rows and keeps the full distance.

  Frames: each program runs to its end, faults nowhere, and leaves its six arguments as it found them; for the launches this
  is the run over one record per launch, for the plain program its run read back. The idealization rewrote nothing, so
  there is nothing to preserve. The algebraic claim: under the precondition — every float finite, every source and
  destination index a row number in [0, 8192) — both results are the same function of the arguments: the dense side's
  result is read as the formula outK, the gathering side's as outR, and the two formulas agree because a flat position
  below 8192² splits uniquely into a row and a column, products distribute over finite sums of real numbers, and a
  softmax row does not change when a constant is subtracted from its logits.
-/
import proofs.«412745_j39127152066566_3_alg».proof.Defs
import proofs.«412745_j39127152066566_3_alg».proof.Proof.Gen.Kernel
import proofs.«412745_j39127152066566_3_alg».proof.Proof.Gen.KernelIdeal
import proofs.«412745_j39127152066566_3_alg».proof.Proof.Gen.ReferenceIdeal
import proofs.«412745_j39127152066566_3_alg».proof.Proof.Gen.Pre_finite_inputs
import proofs.«412745_j39127152066566_3_alg».proof.Proof.Gen.ReferenceIdeal.Run
import proofs.«412745_j39127152066566_3_alg».proof.Proof.K.Run
import proofs.«412745_j39127152066566_3_alg».proof.Proof.KI.Run
import proofs.«412745_j39127152066566_3_alg».proof.Proof.KI.KVal
import proofs.«412745_j39127152066566_3_alg».proof.Proof.RefValue
import proofs.«412745_j39127152066566_3_alg».proof.Proof.PreDecode
import proofs.«412745_j39127152066566_3_alg».proof.Proof.Alg
import Idealize.ShloMosaic.Adequacy
import Idealize.ShloMosaic.Init

noncomputable section

namespace Cert.Proof

open Idealize.ShloMosaic Idealize.SL.Sem

/-- The word-level program runs and keeps its arguments: its run, the result forgotten. -/
theorem frame_k : Cert.frame_Kernel := fun m ρ _ =>
  (θ_run Cert.Kernel.defs _ _).mono (fun _ h c => (h c).2) (Cert.Kernel.Hand.run_full (F := Bits) m ρ)

/-- The idealized program likewise. -/
theorem frame_ki : Cert.frame_KernelIdeal := fun m ρ _ =>
  (θ_run Cert.KernelIdeal.defs _ _).mono (fun _ h c => (h c).2) (Cert.KernelIdeal.Hand.run_full (F := Ideal) m ρ)

/-- The gathering program is a straight line of array operations: its run read back, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same array: the dense side's result is outK of the arguments, the gathering side's is
    outR of the same arguments, and under the precondition the two formulas agree. -/
theorem algebraic : Cert.algebraic_KernelIdeal_ReferenceIdeal := by
  intro m ρ m' ρ' hpre hagree
  refine ⟨Cert.KernelIdeal.Hand.o16 (F := Ideal) m, Cert.KernelIdeal.Hand.run_full (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.result_eq, Cert.KernelIdeal.Hand.kernel_value,
    (hagree c).1, (hagree c).2.1, (hagree c).2.2.1, (hagree c).2.2.2.1, (hagree c).2.2.2.2.1, (hagree c).2.2.2.2.2]
  refine congrArg Cert.Formulas.asArray (funext fun p => funext fun q => ?_)
  exact (Cert.Formulas.outK_eq_outR _ (Cert.PreDecode.good_of_pre _ _ _ _ _ _ (hpre c)) p q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
